-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1000000x54 : Shape := ⟨2, ![1000000, 54]⟩
abbrev S1000000x18 : Shape := ⟨2, ![1000000, 18]⟩
abbrev S2x1000000 : Shape := ⟨2, ![2, 1000000]⟩
abbrev S50000 : Shape := ⟨1, ![50000]⟩
abbrev S128x128 : Shape := ⟨2, ![128, 128]⟩
abbrev S128 : Shape := ⟨1, ![128]⟩
abbrev S64x54 : Shape := ⟨2, ![64, 54]⟩
abbrev S128x64 : Shape := ⟨2, ![128, 64]⟩
abbrev S64x18 : Shape := ⟨2, ![64, 18]⟩
abbrev S128x256 : Shape := ⟨2, ![128, 256]⟩
abbrev S3x128x128 : Shape := ⟨3, ![3, 128, 128]⟩
abbrev S3x128 : Shape := ⟨2, ![3, 128]⟩
abbrev S_ : Shape := ⟨0, ![]⟩
abbrev S1x1000000 : Shape := ⟨2, ![1, 1000000]⟩
abbrev S1000000 : Shape := ⟨1, ![1000000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000000x54 : S_.BroadcastsInDim S1000000x54 (![] : Fin 0 → Fin S1000000x54.rank)
  reducesTo_S1000000x54_S_d0_1 : S1000000x54.ReducesTo [0, 1] S_
  bcast_S_S1000000x18 : S_.BroadcastsInDim S1000000x18 (![] : Fin 0 → Fin S1000000x18.rank)
  reducesTo_S1000000x18_S_d0_1 : S1000000x18.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x54 : S_.BroadcastsInDim S64x54 (![] : Fin 0 → Fin S64x54.rank)
  reducesTo_S64x54_S_d0_1 : S64x54.ReducesTo [0, 1] S_
  bcast_S_S128x64 : S_.BroadcastsInDim S128x64 (![] : Fin 0 → Fin S128x64.rank)
  reducesTo_S128x64_S_d0_1 : S128x64.ReducesTo [0, 1] S_
  bcast_S_S64x18 : S_.BroadcastsInDim S64x18 (![] : Fin 0 → Fin S64x18.rank)
  reducesTo_S64x18_S_d0_1 : S64x18.ReducesTo [0, 1] S_
  bcast_S_S128x256 : S_.BroadcastsInDim S128x256 (![] : Fin 0 → Fin S128x256.rank)
  reducesTo_S128x256_S_d0_1 : S128x256.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_
  bcast_S_S50000 : S_.BroadcastsInDim S50000 (![] : Fin 0 → Fin S50000.rank)
  reducesTo_S50000_S_d0 : S50000.ReducesTo [0] S_

variable [Facts]

def fn_part9 {F : FTy → Type} [FloatOps F] (main_v149 : IVec S_ 1) (main_v154 : IVec S50000 1) : IVec S_ 1 :=
  let main_c_59 : IVec S_ 1 := constantI S_ 1 1#1
  let main_v155 : IVec S_ 1 := (fun x v => Host.reduce IntOp.andi x v reducesTo_S50000_S_d0 h_S_) main_v154 main_c_59
  let main_v156 : IVec S_ 1 := andi main_v149 main_v155
  main_v156

def fn_part8 {F : FTy → Type} [FloatOps F] (main_arg3 : IVec S2x1000000 32) (main_arg4 : IVec S50000 32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : IVec S1x1000000 32 := (extractStridedSlice S1x1000000 ![0, 0] · slices_S2x1000000_S1x1000000_0_0) main_arg3
  let main_v140 : IVec S1000000 32 := shapeCast S1000000 main_v139 shapeCasts_S1x1000000_S1000000
  let main_c_54 : IVec S_ 32 := constantI S_ 32 0#32
  let main_v141 : IVec S1000000 32 := broadcastInDim S1000000 ![] bcast_S_S1000000 main_c_54
  let main_v142 : IVec S1000000 1 := cmpi .sge main_v140 main_v141
  let main_v143 : IVec S1x1000000 32 := (extractStridedSlice S1x1000000 ![0, 0] · slices_S2x1000000_S1x1000000_0_0) main_arg3
  let main_v144 : IVec S1000000 32 := shapeCast S1000000 main_v143 shapeCasts_S1x1000000_S1000000
  let main_c_55 : IVec S_ 32 := constantI S_ 32 50000#32
  let main_v145 : IVec S1000000 32 := broadcastInDim S1000000 ![] bcast_S_S1000000 main_c_55
  let main_v146 : IVec S1000000 1 := cmpi .slt main_v144 main_v145
  let main_v147 : IVec S1000000 1 := andi main_v142 main_v146
  let main_c_56 : IVec S_ 1 := constantI S_ 1 1#1
  let main_v148 : IVec S_ 1 := (fun x v => Host.reduce IntOp.andi x v reducesTo_S1000000_S_d0 h_S_) main_v147 main_c_56
  let main_v149 : IVec S_ 1 := andi main_v138 main_v148
  let main_c_57 : IVec S_ 32 := constantI S_ 32 0#32
  let main_v150 : IVec S50000 32 := broadcastInDim S50000 ![] bcast_S_S50000 main_c_57
  let main_v151 : IVec S50000 1 := cmpi .sge main_arg4 main_v150
  let main_c_58 : IVec S_ 32 := constantI S_ 32 512#32
  let main_v152 : IVec S50000 32 := broadcastInDim S50000 ![] bcast_S_S50000 main_c_58
  let main_v153 : IVec S50000 1 := cmpi .slt main_arg4 main_v152
  let main_v154 : IVec S50000 1 := andi main_v151 main_v153
  fn_part9 (F := F) main_v149 main_v154

def fn_part7 {F : FTy → Type} [FloatOps F] (main_arg3 : IVec S2x1000000 32) (main_arg4 : IVec S50000 32) (main_arg27 : FVec F S3x128 .f32) (main_arg28 : FVec F S128x128 .f32) (main_arg29 : FVec F S128 .f32) (main_v118 : IVec S_ 1) (main_v119 : FVec F S3x128x128 .f32) : IVec S_ 1 :=
  let main_cst_46 : FVec F S_ .f32 := constant S_ .f32 0x7F800000#32
  let main_v120 : FVec F S3x128x128 .f32 := broadcastInDim S3x128x128 ![] bcast_S_S3x128x128 main_cst_46
  let main_v121 : IVec S3x128x128 1 := cmpf .olt main_v119 main_v120
  let main_c_47 : IVec S_ 1 := constantI S_ 1 1#1
  let main_v122 : IVec S_ 1 := (fun x v => Host.reduce IntOp.andi x v reducesTo_S3x128x128_S_d0_1_2 h_S_) main_v121 main_c_47
  let main_v123 : IVec S_ 1 := andi main_v118 main_v122
  let main_v124 : FVec F S3x128 .f32 := Host.absf main_arg27
  let main_cst_48 : FVec F S_ .f32 := constant S_ .f32 0x7F800000#32
  let main_v125 : FVec F S3x128 .f32 := broadcastInDim S3x128 ![] bcast_S_S3x128 main_cst_48
  let main_v126 : IVec S3x128 1 := cmpf .olt main_v124 main_v125
  let main_c_49 : IVec S_ 1 := constantI S_ 1 1#1
  let main_v127 : IVec S_ 1 := (fun x v => Host.reduce IntOp.andi x v reducesTo_S3x128_S_d0_1 h_S_) main_v126 main_c_49
  let main_v128 : IVec S_ 1 := andi main_v123 main_v127
  let main_v129 : FVec F S128x128 .f32 := Host.absf main_arg28
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg3 main_arg4 main_v133 main_v136

def fn_part6 {F : FTy → Type} [FloatOps F] (main_arg3 : IVec S2x1000000 32) (main_arg4 : IVec S50000 32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S3x128x128 .f32 := Host.absf main_arg26
  fn_part7 (F := F) main_arg3 main_arg4 main_arg27 main_arg28 main_arg29 main_v118 main_v119

def fn_part5 {F : FTy → Type} [FloatOps F] (main_arg3 : IVec S2x1000000 32) (main_arg4 : IVec S50000 32) (main_arg20 : FVec F S128 .f32) (main_arg21 : FVec F S128x256 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x256 .f32 := Host.absf main_arg21
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg3 main_arg4 main_arg23 main_arg24 main_arg25 main_arg26 main_arg27 main_arg28 main_arg29 main_v98 main_v101 main_c_39

def fn_part4 {F : FTy → Type} [FloatOps F] (main_arg3 : IVec S2x1000000 32) (main_arg4 : IVec S50000 32) (main_arg16 : FVec F S128x128 .f32) (main_arg17 : FVec F S128x128 .f32) (main_arg18 : FVec F S128 .f32) (main_arg19 : FVec F S128x128 .f32) (main_arg20 : FVec F S128 .f32) (main_arg21 : FVec F S128x256 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg3 main_arg4 main_arg20 main_arg21 main_arg22 main_arg23 main_arg24 main_arg25 main_arg26 main_arg27 main_arg28 main_arg29 main_v83 main_v84 main_cst_32

def fn_part3 {F : FTy → Type} [FloatOps F] (main_arg3 : IVec S2x1000000 32) (main_arg4 : IVec S50000 32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128 .f32) (main_arg21 : FVec F S128x256 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg3 : IVec S2x1000000 32) (main_arg4 : IVec S50000 32) (main_arg9 : FVec F S64x18 .f32) (main_arg10 : FVec F S128x64 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128 .f32) (main_arg21 : FVec F S128x256 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v33 : IVec S_ 1) : IVec S_ 1 :=
  let main_v34 : FVec F S64x18 .f32 := Host.absf main_arg9
  let main_cst_12 : FVec F S_ .f32 := constant S_ .f32 0x7F800000#32
  let main_v35 : FVec F S64x18 .f32 := broadcastInDim S64x18 ![] bcast_S_S64x18 main_cst_12
  let main_v36 : IVec S64x18 1 := cmpf .olt main_v34 main_v35
  let main_c_13 : IVec S_ 1 := constantI S_ 1 1#1
  let main_v37 : IVec S_ 1 := (fun x v => Host.reduce IntOp.andi x v reducesTo_S64x18_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg4 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg3 : IVec S2x1000000 32) (main_arg4 : IVec S50000 32) (main_arg6 : FVec F S128 .f32) (main_arg7 : FVec F S64x54 .f32) (main_arg8 : FVec F S128x64 .f32) (main_arg9 : FVec F S64x18 .f32) (main_arg10 : FVec F S128x64 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128 .f32) (main_arg21 : FVec F S128x256 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x54 .f32 := Host.absf main_arg7
  let main_cst_8 : FVec F S_ .f32 := constant S_ .f32 0x7F800000#32
  let main_v25 : FVec F S64x54 .f32 := broadcastInDim S64x54 ![] bcast_S_S64x54 main_cst_8
  let main_v26 : IVec S64x54 1 := cmpf .olt main_v24 main_v25
  let main_c_9 : IVec S_ 1 := constantI S_ 1 1#1
  let main_v27 : IVec S_ 1 := (fun x v => Host.reduce IntOp.andi x v reducesTo_S64x54_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x128 .f32) (main_arg1 : FVec F S1000000x54 .f32) (main_arg2 : FVec F S1000000x18 .f32) (main_arg3 : IVec S2x1000000 32) (main_arg4 : IVec S50000 32) (main_arg5 : FVec F S128x128 .f32) (main_arg6 : FVec F S128 .f32) (main_arg7 : FVec F S64x54 .f32) (main_arg8 : FVec F S128x64 .f32) (main_arg9 : FVec F S64x18 .f32) (main_arg10 : FVec F S128x64 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128 .f32) (main_arg21 : FVec F S128x256 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000000x54 .f32 := Host.absf main_arg1
  let main_cst_0 : FVec F S_ .f32 := constant S_ .f32 0x7F800000#32
  let main_v5 : FVec F S1000000x54 .f32 := broadcastInDim S1000000x54 ![] bcast_S_S1000000x54 main_cst_0
  let main_v6 : IVec S1000000x54 1 := cmpf .olt main_v4 main_v5
  let main_c_1 : IVec S_ 1 := constantI S_ 1 1#1
  let main_v7 : IVec S_ 1 := (fun x v => Host.reduce IntOp.andi x v reducesTo_S1000000x54_S_d0_1 h_S_) main_v6 main_c_1
  let main_v8 : IVec S_ 1 := andi main_v3 main_v7
  let main_v9 : FVec F S1000000x18 .f32 := Host.absf main_arg2
  let main_cst_2 : FVec F S_ .f32 := constant S_ .f32 0x7F800000#32
  let main_v10 : FVec F S1000000x18 .f32 := broadcastInDim S1000000x18 ![] bcast_S_S1000000x18 main_cst_2
  let main_v11 : IVec S1000000x18 1 := cmpf .olt main_v9 main_v10
  let main_c_3 : IVec S_ 1 := constantI S_ 1 1#1
  let main_v12 : IVec S_ 1 := (fun x v => Host.reduce IntOp.andi x v reducesTo_S1000000x18_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x128 : Shape := ⟨2, ![50000, 128]⟩
abbrev S1000000x54 : Shape := ⟨2, ![1000000, 54]⟩
abbrev S1000000x18 : Shape := ⟨2, ![1000000, 18]⟩
abbrev S2x1000000 : Shape := ⟨2, ![2, 1000000]⟩
abbrev S50000 : Shape := ⟨1, ![50000]⟩
abbrev S128x128 : Shape := ⟨2, ![128, 128]⟩
abbrev S128 : Shape := ⟨1, ![128]⟩
abbrev S64x54 : Shape := ⟨2, ![64, 54]⟩
abbrev S128x64 : Shape := ⟨2, ![128, 64]⟩
abbrev S64x18 : Shape := ⟨2, ![64, 18]⟩
abbrev S128x256 : Shape := ⟨2, ![128, 256]⟩
abbrev S3x128x128 : Shape := ⟨3, ![3, 128, 128]⟩
abbrev S3x128 : Shape := ⟨2, ![3, 128]⟩
abbrev S1x1000000 : Shape := ⟨2, ![1, 1000000]⟩
abbrev S1000000 : Shape := ⟨1, ![1000000]⟩
abbrev S54x64 : Shape := ⟨2, ![54, 64]⟩
abbrev S64x128 : Shape := ⟨2, ![64, 128]⟩
abbrev S18x64 : Shape := ⟨2, ![18, 64]⟩
abbrev S256x128 : Shape := ⟨2, ![256, 128]⟩
abbrev S5000x128 : Shape := ⟨2, ![5000, 128]⟩
abbrev S1x128 : Shape := ⟨2, ![1, 128]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S1000000x256 : Shape := ⟨2, ![1000000, 256]⟩
abbrev S5000x54 : Shape := ⟨2, ![5000, 54]⟩
abbrev S5000x18 : Shape := ⟨2, ![5000, 18]⟩
abbrev S5000x256 : Shape := ⟨2, ![5000, 256]⟩
abbrev S5000x64 : Shape := ⟨2, ![5000, 64]⟩
abbrev S50000x256 : Shape := ⟨2, ![50000, 256]⟩
abbrev S1x128x128 : Shape := ⟨3, ![1, 128, 128]⟩
abbrev S512 : Shape := ⟨1, ![512]⟩
abbrev S50000x1 : Shape := ⟨2, ![50000, 1]⟩
abbrev S512x256 : Shape := ⟨2, ![512, 256]⟩
abbrev S512x1 : Shape := ⟨2, ![512, 1]⟩
abbrev S512x128 : Shape := ⟨2, ![512, 128]⟩

abbrev nBuf : Space → Nat
  | .hbm => 157
  | .vmem => 53
  | .smem => 0
  | _ => 0

abbrev hbmTy0_0 (i : Nat) : BufTy := match i % 128 with
  | 0 => ⟨S50000x128, .f32⟩
  | 1 => ⟨S1000000x54, .f32⟩
  | 2 => ⟨S1000000x18, .f32⟩
  | 3 => ⟨S2x1000000, .i32⟩
  | 4 => ⟨S50000, .i32⟩
  | 5 => ⟨S128x128, .f32⟩
  | 6 => ⟨S128, .f32⟩
  | 7 => ⟨S64x54, .f32⟩
  | 8 => ⟨S128x64, .f32⟩
  | 9 => ⟨S64x18, .f32⟩
  | 10 => ⟨S128x64, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128, .f32⟩
  | 21 => ⟨S128x256, .f32⟩
  | 22 => ⟨S128, .f32⟩
  | 23 => ⟨S128, .f32⟩
  | 24 => ⟨S128, .f32⟩
  | 25 => ⟨S128, .f32⟩
  | 26 => ⟨S3x128x128, .f32⟩
  | 27 => ⟨S3x128, .f32⟩
  | 28 => ⟨S128x128, .f32⟩
  | 29 => ⟨S128, .f32⟩
  | 30 => ⟨S1x1000000, .i32⟩
  | 31 => ⟨S1000000, .i32⟩
  | 32 => ⟨S1x1000000, .i32⟩
  | 33 => ⟨S1000000, .i32⟩
  | 34 => ⟨S128x128, .f32⟩
  | 35 => ⟨S54x64, .f32⟩
  | 36 => ⟨S64x128, .f32⟩
  | 37 => ⟨S18x64, .f32⟩
  | 38 => ⟨S64x128, .f32⟩
  | 39 => ⟨S128x128, .f32⟩
  | 40 => ⟨S128x128, .f32⟩
  | 41 => ⟨S128x128, .f32⟩
  | 42 => ⟨S128x128, .f32⟩
  | 43 => ⟨S128x128, .f32⟩
  | 44 => ⟨S128x128, .f32⟩
  | 45 => ⟨S256x128, .f32⟩
  | 46 => ⟨S3x128x128, .f32⟩
  | 47 => ⟨S128x128, .f32⟩
  | 48 => ⟨S50000x128, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1, .i32⟩
  | 58 => ⟨S_, .i32⟩
  | 59 => ⟨S1000000x1, .i32⟩
  | 60 => ⟨S1000000x1, .i1⟩
  | 61 => ⟨S1x1, .i32⟩
  | 62 => ⟨S1000000x1, .i32⟩
  | 63 => ⟨S1000000x1, .i1⟩
  | 64 => ⟨S1000000x1, .i1⟩
  | 65 => ⟨S_, .i1⟩
  | 66 => ⟨S1000000, .i1⟩
  | 67 => ⟨S1000000x128, .f32⟩
  | 68 => ⟨S1000000x128, .i1⟩
  | 69 => ⟨S_, .f32⟩
  | 70 => ⟨S1000000x128, .f32⟩
  | 71 => ⟨S1000000x128, .f32⟩
  | 72 => ⟨S1000000x256, .f32⟩
  | 73 => ⟨S_, .f32⟩
  | 74 => ⟨S50000x256, .f32⟩
  | 75 => ⟨S1000000x1, .i32⟩
  | 76 => ⟨S50000x256, .f32⟩
  | 77 => ⟨S50000x128, .f32⟩
  | 78 => ⟨S50000x128, .f32⟩
  | 79 => ⟨S50000x128, .f32⟩
  | 80 => ⟨S_, .f32⟩
  | 81 => ⟨S50000, .f32⟩
  | 82 => ⟨S_, .f32⟩
  | 83 => ⟨S512, .f32⟩
  | 84 => ⟨S50000x1, .i32⟩
  | 85 => ⟨S512, .f32⟩
  | 86 => ⟨S_, .f32⟩
  | 87 => ⟨S512, .f32⟩
  | 88 => ⟨S512, .f32⟩
  | 89 => ⟨S50000x128, .f32⟩
  | 90 => ⟨S50000x256, .f32⟩
  | 91 => ⟨S_, .f32⟩
  | 92 => ⟨S512x256, .f32⟩
  | 93 => ⟨S50000x1, .i32⟩
  | 94 => ⟨S512x256, .f32⟩
  | 95 => ⟨S512x1, .f32⟩
  | 96 => ⟨S512x256, .f32⟩
  | 97 => ⟨S512x256, .f32⟩
  | 98 => ⟨S512x128, .f32⟩
  | 99 => ⟨S512x128, .f32⟩
  | 100 => ⟨S512x128, .f32⟩
  | 101 => ⟨S_, .f32⟩
  | 102 => ⟨S128, .f32⟩
  | 103 => ⟨S128, .f32⟩
  | 104 => ⟨S128, .f32⟩
  | 105 => ⟨S128, .f32⟩
  | 106 => ⟨S1x128, .f32⟩
  | 107 => ⟨S512x128, .f32⟩
  | 108 => ⟨S512x128, .f32⟩
  | 109 => ⟨S512x128, .f32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S1, .i32⟩
  | 119 => ⟨S_, .i32⟩
  | 120 => ⟨S50000x1, .i32⟩
  | 121 => ⟨S50000x1, .i1⟩
  | 122 => ⟨S1x1, .i32⟩
  | 123 => ⟨S50000x1, .i32⟩
  | 124 => ⟨S50000x1, .i1⟩
  | 125 => ⟨S50000x1, .i1⟩
  | 126 => ⟨S_, .i1⟩
  | 127 => ⟨S50000, .i1⟩
  | _ => ⟨S50000x128, .f32⟩

abbrev hbmTy0_1 (i : Nat) : BufTy := match i % 128 with
  | 0 => ⟨S50000x128, .f32⟩
  | 1 => ⟨S50000x128, .i1⟩
  | 2 => ⟨S_, .f32⟩
  | 3 => ⟨S50000x128, .f32⟩
  | 4 => ⟨S50000x128, .f32⟩
  | 5 => ⟨S_, .i32⟩
  | 6 => ⟨S50000, .i32⟩
  | 7 => ⟨S50000, .i1⟩
  | 8 => ⟨S_, .i32⟩
  | 9 => ⟨S50000, .i32⟩
  | 10 => ⟨S50000, .i32⟩
  | 11 => ⟨S50000, .i32⟩
  | 12 => ⟨S50000x1, .i32⟩
  | 13 => ⟨S1, .i32⟩
  | 14 => ⟨S_, .i32⟩
  | 15 => ⟨S50000x1, .i32⟩
  | 16 => ⟨S50000x1, .i1⟩
  | 17 => ⟨S1x1, .i32⟩
  | 18 => ⟨S50000x1, .i32⟩
  | 19 => ⟨S50000x1, .i1⟩
  | 20 => ⟨S50000x1, .i1⟩
  | 21 => ⟨S_, .i1⟩
  | 22 => ⟨S50000, .i1⟩
  | 23 => ⟨S50000x128, .f32⟩
  | 24 => ⟨S50000x128, .i1⟩
  | 25 => ⟨S_, .f32⟩
  | 26 => ⟨S50000x128, .f32⟩
  | 27 => ⟨S50000x128, .f32⟩
  | 28 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x54, .f32⟩
  | .local _ .vmem, ⟨7, _⟩ => ⟨S5000x54, .f32⟩
  | .local _ .vmem, ⟨8, _⟩ => ⟨S5000x18, .f32⟩
  | .local _ .vmem, ⟨9, _⟩ => ⟨S5000x18, .f32⟩
  | .local _ .vmem, ⟨10, _⟩ => ⟨S5000x128, .f32⟩
  | .local _ .vmem, ⟨11, _⟩ => ⟨S5000x128, .f32⟩
  | .local _ .vmem, ⟨12, _⟩ => ⟨S54x64, .f32⟩
  | .local _ .vmem, ⟨13, _⟩ => ⟨S64x128, .f32⟩
  | .local _ .vmem, ⟨14, _⟩ => ⟨S18x64, .f32⟩
  | .local _ .vmem, ⟨15, _⟩ => ⟨S64x128, .f32⟩
  | .local _ .vmem, ⟨16, _⟩ => ⟨S5000x256, .f32⟩
  | .local _ .vmem, ⟨17, _⟩ => ⟨S5000x256, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128x128, .f32⟩
  | .local _ .vmem, ⟨28, _⟩ => ⟨S128, .f32⟩
  | .local _ .vmem, ⟨29, _⟩ => ⟨S128x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S256x128, .f32⟩
  | .local _ .vmem, ⟨35, _⟩ => ⟨S128, .f32⟩
  | .local _ .vmem, ⟨36, _⟩ => ⟨S3x128x128, .f32⟩
  | .local _ .vmem, ⟨37, _⟩ => ⟨S3x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128x128, .f32⟩
  | .local _ .vmem, ⟨50, _⟩ => ⟨S128, .f32⟩
  | .local _ .vmem, ⟨51, _⟩ => ⟨S5000x128, .f32⟩
  | .local _ .vmem, ⟨52, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_cst : Ref sig .tc := ⟨.hbm, 69, rfl⟩
abbrev main_call0_v15 : Ref sig .tc := ⟨.hbm, 70, rfl⟩
abbrev main_v19 : Ref sig .tc := ⟨.hbm, 71, rfl⟩
abbrev main_v20 : Ref sig .tc := ⟨.hbm, 72, rfl⟩
abbrev main_cst : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_cst_0 : Ref sig .tc := ⟨.hbm, 80, rfl⟩
abbrev main_v27 : Ref sig .tc := ⟨.hbm, 81, rfl⟩
abbrev main_cst_1 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_2 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_3 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_4 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_call1_c : Ref sig .tc := ⟨.hbm, 110, rfl⟩
abbrev main_call1_v0 : Ref sig .tc := ⟨.hbm, 111, rfl⟩
abbrev main_call1_v1 : Ref sig .tc := ⟨.hbm, 112, rfl⟩
abbrev main_call1_c_0 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_c_1 : Ref sig .tc := ⟨.hbm, 118, rfl⟩
abbrev main_call1_c_2 : Ref sig .tc := ⟨.hbm, 119, rfl⟩
abbrev main_call1_v6 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_c_3 : Ref sig .tc := ⟨.hbm, 126, rfl⟩
abbrev main_call1_v12 : Ref sig .tc := ⟨.hbm, 127, rfl⟩
abbrev main_call1_v13 : Ref sig .tc := ⟨.hbm, 128, rfl⟩
abbrev main_call1_v14 : Ref sig .tc := ⟨.hbm, 129, rfl⟩
abbrev main_call1_cst : Ref sig .tc := ⟨.hbm, 130, rfl⟩
abbrev main_call1_v15 : Ref sig .tc := ⟨.hbm, 131, rfl⟩
abbrev main_v52 : Ref sig .tc := ⟨.hbm, 132, rfl⟩
abbrev main_call2_c : Ref sig .tc := ⟨.hbm, 133, rfl⟩
abbrev main_call2_v0 : Ref sig .tc := ⟨.hbm, 134, rfl⟩
abbrev main_call2_v1 : Ref sig .tc := ⟨.hbm, 135, rfl⟩
abbrev main_call2_c_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_c_1 : Ref sig .tc := ⟨.hbm, 141, rfl⟩
abbrev main_call2_c_2 : Ref sig .tc := ⟨.hbm, 142, rfl⟩
abbrev main_call2_v6 : Ref sig .tc := ⟨.hbm, 143, rfl⟩
abbrev main_call2_v7 : Ref sig .tc := ⟨.hbm, 144, rfl⟩
abbrev main_call2_v8 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_c_3 : Ref sig .tc := ⟨.hbm, 149, rfl⟩
abbrev main_call2_v12 : Ref sig .tc := ⟨.hbm, 150, rfl⟩
abbrev main_call2_v13 : Ref sig .tc := ⟨.hbm, 151, rfl⟩
abbrev main_call2_v14 : Ref sig .tc := ⟨.hbm, 152, rfl⟩
abbrev main_call2_cst : Ref sig .tc := ⟨.hbm, 153, rfl⟩
abbrev main_call2_v15 : Ref sig .tc := ⟨.hbm, 154, rfl⟩
abbrev main_v53 : Ref sig .tc := ⟨.hbm, 155, rfl⟩
abbrev main_v54 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg13_0 : Ref sig .tc := ⟨.vmem, 34, rfl⟩
abbrev cc2_stg14_0 : Ref sig .tc := ⟨.vmem, 35, rfl⟩
abbrev cc2_stg15_0 : Ref sig .tc := ⟨.vmem, 36, rfl⟩
abbrev cc2_stg16_0 : Ref sig .tc := ⟨.vmem, 37, rfl⟩
abbrev cc2_stg17_0 : Ref sig .tc := ⟨.vmem, 38, rfl⟩
abbrev cc2_stg17_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg8_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem13_0 : DmaSem sig := 34
abbrev cc2_sem14_0 : DmaSem sig := 35
abbrev cc2_sem15_0 : DmaSem sig := 36
abbrev cc2_sem16_0 : DmaSem sig := 37
abbrev cc2_sem17_0 : DmaSem sig := 38
abbrev cc2_sem17_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem8_1 : DmaSem sig := 52

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x54 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x18 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S54x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S18x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S3x128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S3x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S5000x128 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S128x128_S128x128_1_0 : S128x128.Transposes [1, 0] S128x128
  transposes_S64x54_S54x64_1_0 : S64x54.Transposes [1, 0] S54x64
  transposes_S128x64_S64x128_1_0 : S128x64.Transposes [1, 0] S64x128
  transposes_S64x18_S18x64_1_0 : S64x18.Transposes [1, 0] S18x64
  transposes_S128x256_S256x128_1_0 : S128x256.Transposes [1, 0] S256x128
  transposes_S3x128x128_S3x128x128_0_2_1 : S3x128x128.Transposes [0, 2, 1] S3x128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  inb_S5000x54_S5000x54_0_0 : ∀ a, (![0, 0] : Fin 2 → Nat) a + S5000x54.size a ≤ S5000x54.size a
  h_S5000x54 : 0 < S5000x54.numel
  inb_S5000x18_S5000x18_0_0 : ∀ a, (![0, 0] : Fin 2 → Nat) a + S5000x18.size a ≤ S5000x18.size a
  h_S5000x18 : 0 < S5000x18.numel
  shapeCasts_S5000x128_S5000x128 : S5000x128.ShapeCasts S5000x128
  inb_S54x64_S54x64_0_0 : ∀ a, (![0, 0] : Fin 2 → Nat) a + S54x64.size a ≤ S54x64.size a
  h_S54x64 : 0 < S54x64.numel
  shapeCasts_S54x64_S54x64 : S54x64.ShapeCasts S54x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S18x64_S18x64_0_0 : ∀ a, (![0, 0] : Fin 2 → Nat) a + S18x64.size a ≤ S18x64.size a
  h_S18x64 : 0 < S18x64.numel
  shapeCasts_S18x64_S18x64 : S18x64.ShapeCasts S18x64
  inb_S5000x256_S5000x128_0_0 : ∀ a, (![0, 0] : Fin 2 → Nat) a + S5000x128.size a ≤ S5000x256.size a
  inb_S5000x256_S5000x128_0_128 : ∀ a, (![0, 128] : Fin 2 → Nat) a + S5000x128.size a ≤ S5000x256.size a
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S128x128 : S256x128.Slices ![0, 0] S128x128
  slices_S256x128_o128_0_S128x128 : S256x128.Slices ![128, 0] S128x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  concatenates_S50000x128_S50000x128_S50000x256_d1 : Shape.Concatenates [S50000x128, S50000x128] S50000x256 1
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  slices_S512x256_S512x128_0_0 : S512x256.Slices ![0, 0] S512x128
  slices_S512x256_S512x128_0_128 : S512x256.Slices ![0, 128] S512x128
  bcast_S_S128 : S_.BroadcastsInDim S128 (![] : Fin 0 → Fin S128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x128_0 : S50000.BroadcastsInDim S50000x128 (![0] : Fin 1 → Fin S50000x128.rank)
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  gather_S50000x128_S1000000x1_S1000000x128_1_0_n_n_0_1_1128_wf : GatherDims.WF S50000x128 S1000000x1 S1000000x128 [1] [0] [] [0] [] 1 ![1, 128]
  dot_S5000x54_S54x64_S5000x64_1_0_0_1_n_n_wf : DotDims.WF S5000x54 S54x64 S5000x64 [1] [0] [0] [1] [] []
  dot_S5000x64_S64x128_S5000x128_1_0_0_1_n_n_wf : DotDims.WF S5000x64 S64x128 S5000x128 [1] [0] [0] [1] [] []
  dot_S5000x18_S18x64_S5000x64_1_0_0_1_n_n_wf : DotDims.WF S5000x18 S18x64 S5000x64 [1] [0] [0] [1] [] []
  scatter_S50000x256_S1000000x1_S1000000x256_1_0_0_1_wf : ScatterDims.WF S50000x256 S1000000x1 S1000000x256 [1] [0] [0] 1
  scatter_S512_S50000x1_S50000_n_0_0_1_wf : ScatterDims.WF S512 S50000x1 S50000 [] [0] [0] 1
  scatter_S512x256_S50000x1_S50000x256_1_0_0_1_wf : ScatterDims.WF S512x256 S50000x1 S50000x256 [1] [0] [0] 1
  gather_S512x128_S50000x1_S50000x128_1_0_n_n_0_1_1128_wf : GatherDims.WF S512x128 S50000x1 S50000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x54.size a ≤ S1000000x54.size a
  hwx1_0 : ∀ i : grid1.Coords, EltTy.bits .f32 = 32 ∨ (Rect.block (s := S1000000x54) S5000x54.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x18.size a ≤ S1000000x18.size a
  hwx1_1 : ∀ i : grid1.Coords, EltTy.bits .f32 = 32 ∨ (Rect.block (s := S1000000x18) S5000x18.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S1000000x128.size a
  hwx1_2 : ∀ i : grid1.Coords, EltTy.bits .f32 = 32 ∨ (Rect.block (s := S1000000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S54x64.size a ≤ S54x64.size a
  hwx1_3 : ∀ i : grid1.Coords, EltTy.bits .f32 = 32 ∨ (Rect.block (s := S54x64) S54x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S18x64.size a ≤ S18x64.size a
  hwx1_5 : ∀ i : grid1.Coords, EltTy.bits .f32 = 32 ∨ (Rect.block (s := S18x64) S18x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x256.size a ≤ S1000000x256.size a
  hwx1_7 : ∀ i : grid1.Coords, EltTy.bits .f32 = 32 ∨ (Rect.block (s := S1000000x256) S5000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S256x128.size a ≤ S256x128.size a
  hwx2_13 : ∀ i : grid2.Coords, EltTy.bits .f32 = 32 ∨ (Rect.block (s := S256x128) S256x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128.size a ≤ S128.size a
  hwx2_14 : ∀ i : grid2.Coords, EltTy.bits .f32 = 32 ∨ (Rect.block (s := S128) S128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S3x128x128.size a ≤ S3x128x128.size a
  hwx2_15 : ∀ i : grid2.Coords, EltTy.bits .f32 = 32 ∨ (Rect.block (s := S3x128x128) S3x128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S3x128.size a ≤ S3x128.size a
  hwx2_16 : ∀ i : grid2.Coords, EltTy.bits .f32 = 32 ∨ (Rect.block (s := S3x128) S3x128.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S5000x128.size a ≤ S50000x128.size a
  hwx2_17 : ∀ i : grid2.Coords, EltTy.bits .f32 = 32 ∨ (Rect.block (s := S50000x128) S5000x128.size (cc2_transform_17 i) (hinb2_17 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S5000x54_S54x64_S5000x64_1_0_0_1_n_n : DotDims S5000x54 S54x64 S5000x64 where
  lhsContracting := [1]
  rhsContracting := [0]
  lhsNonContracting := [0]
  rhsNonContracting := [1]
  lhsBatch := []
  rhsBatch := []
  wf := dot_S5000x54_S54x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x18_S18x64_S5000x64_1_0_0_1_n_n : DotDims S5000x18 S18x64 S5000x64 where
  lhsContracting := [1]
  rhsContracting := [0]
  lhsNonContracting := [0]
  rhsNonContracting := [1]
  lhsBatch := []
  rhsBatch := []
  wf := dot_S5000x18_S18x64_S5000x64_1_0_0_1_n_n_wf
def scatter_S50000x256_S1000000x1_S1000000x256_1_0_0_1 : ScatterDims S50000x256 S1000000x1 S1000000x256 where
  updateWindowDims := [1]
  insertedWindowDims := [0]
  scatterDimsToOperandDims := [0]
  indexVectorDim := 1
  wf := scatter_S50000x256_S1000000x1_S1000000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x54.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x18.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S54x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S18x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S5000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v12) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v13) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg18) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v14) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg20) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v15) S256x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg22) S128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v16) S3x128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg27) S3x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v26) S5000x128.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

abbrev win3_0 : Pipeline.Window sig grid3 :=
  Pipeline.Window.ofSpec (Memref.whole main_v26) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg23) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg24) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg25) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v17) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg29) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v54) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S1000000x54 : Shape := ⟨2, ![1000000, 54]⟩
abbrev S1000000x18 : Shape := ⟨2, ![1000000, 18]⟩
abbrev S2x1000000 : Shape := ⟨2, ![2, 1000000]⟩
abbrev S50000 : Shape := ⟨1, ![50000]⟩
abbrev S128x128 : Shape := ⟨2, ![128, 128]⟩
abbrev S128 : Shape := ⟨1, ![128]⟩
abbrev S64x54 : Shape := ⟨2, ![64, 54]⟩
abbrev S128x64 : Shape := ⟨2, ![128, 64]⟩
abbrev S64x18 : Shape := ⟨2, ![64, 18]⟩
abbrev S128x256 : Shape := ⟨2, ![128, 256]⟩
abbrev S3x128x128 : Shape := ⟨3, ![3, 128, 128]⟩
abbrev S3x128 : Shape := ⟨2, ![3, 128]⟩
abbrev S1x1000000 : Shape := ⟨2, ![1, 1000000]⟩
abbrev S1000000 : Shape := ⟨1, ![1000000]⟩
abbrev S1x128 : Shape := ⟨2, ![1, 128]⟩
abbrev S_ : Shape := ⟨0, ![]⟩
abbrev S54x64 : Shape := ⟨2, ![54, 64]⟩
abbrev S1000000x64 : Shape := ⟨2, ![1000000, 64]⟩
abbrev S64x128 : Shape := ⟨2, ![64, 128]⟩
abbrev S1000000x128 : Shape := ⟨2, ![1000000, 128]⟩
abbrev S18x64 : Shape := ⟨2, ![18, 64]⟩
abbrev S1000000x1 : Shape := ⟨2, ![1000000, 1]⟩
abbrev S50000x256 : Shape := ⟨2, ![50000, 256]⟩
abbrev S256x128 : Shape := ⟨2, ![256, 128]⟩
abbrev S1x128x128 : Shape := ⟨3, ![1, 128, 128]⟩
abbrev S512 : Shape := ⟨1, ![512]⟩
abbrev S50000x1 : Shape := ⟨2, ![50000, 1]⟩
abbrev S512x128 : Shape := ⟨2, ![512, 128]⟩
abbrev S512x1 : Shape := ⟨2, ![512, 1]⟩

abbrev nBuf : Space → Nat
  | .hbm => 254
  | .vmem => 0
  | .smem => 0
  | _ => 0

abbrev hbmTy0_0 (i : Nat) : BufTy := match i % 128 with
  | 0 => ⟨S50000x128, .f32⟩
  | 1 => ⟨S1000000x54, .f32⟩
  | 2 => ⟨S1000000x18, .f32⟩
  | 3 => ⟨S2x1000000, .i32⟩
  | 4 => ⟨S50000, .i32⟩
  | 5 => ⟨S128x128, .f32⟩
  | 6 => ⟨S128, .f32⟩
  | 7 => ⟨S64x54, .f32⟩
  | 8 => ⟨S128x64, .f32⟩
  | 9 => ⟨S64x18, .f32⟩
  | 10 => ⟨S128x64, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128, .f32⟩
  | 21 => ⟨S128x256, .f32⟩
  | 22 => ⟨S128, .f32⟩
  | 23 => ⟨S128, .f32⟩
  | 24 => ⟨S128, .f32⟩
  | 25 => ⟨S128, .f32⟩
  | 26 => ⟨S3x128x128, .f32⟩
  | 27 => ⟨S3x128, .f32⟩
  | 28 => ⟨S128x128, .f32⟩
  | 29 => ⟨S128, .f32⟩
  | 30 => ⟨S1x1000000, .i32⟩
  | 31 => ⟨S1000000, .i32⟩
  | 32 => ⟨S1x1000000, .i32⟩
  | 33 => ⟨S1000000, .i32⟩
  | 34 => ⟨S128x128, .f32⟩
  | 35 => ⟨S50000x128, .f32⟩
  | 36 => ⟨S1x128, .f32⟩
  | 37 => ⟨S50000x128, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S54x64, .f32⟩
  | 49 => ⟨S1000000x64, .f32⟩
  | 50 => ⟨S64x128, .f32⟩
  | 51 => ⟨S1000000x128, .f32⟩
  | 52 => ⟨S18x64, .f32⟩
  | 53 => ⟨S1000000x64, .f32⟩
  | 54 => ⟨S64x128, .f32⟩
  | 55 => ⟨S1000000x128, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x128, .f32⟩
  | 65 => ⟨S1000000x128, .f32⟩
  | 66 => ⟨S_, .f32⟩
  | 67 => ⟨S50000x128, .f32⟩
  | 68 => ⟨S1000000x1, .i32⟩
  | 69 => ⟨S50000x128, .f32⟩
  | 70 => ⟨S128x128, .f32⟩
  | 71 => ⟨S50000x128, .f32⟩
  | 72 => ⟨S1x128, .f32⟩
  | 73 => ⟨S50000x128, .f32⟩
  | 74 => ⟨S50000x128, .f32⟩
  | 75 => ⟨S128x128, .f32⟩
  | 76 => ⟨S50000x128, .f32⟩
  | 77 => ⟨S50000x128, .f32⟩
  | 78 => ⟨S128x128, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x128, .f32⟩
  | 101 => ⟨S1000000x128, .f32⟩
  | 102 => ⟨S_, .f32⟩
  | 103 => ⟨S50000x128, .f32⟩
  | 104 => ⟨S1000000x1, .i32⟩
  | 105 => ⟨S50000x128, .f32⟩
  | 106 => ⟨S128x128, .f32⟩
  | 107 => ⟨S50000x128, .f32⟩
  | 108 => ⟨S1x128, .f32⟩
  | 109 => ⟨S50000x128, .f32⟩
  | 110 => ⟨S50000x128, .f32⟩
  | 111 => ⟨S128x128, .f32⟩
  | 112 => ⟨S50000x128, .f32⟩
  | 113 => ⟨S50000x128, .f32⟩
  | 114 => ⟨S128x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x256, .f32⟩
  | 1 => ⟨S256x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S1x128x128, .f32⟩
  | 8 => ⟨S128x128, .f32⟩
  | 9 => ⟨S128x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S50000x128, .f32⟩
  | 26 => ⟨S1x128x128, .f32⟩
  | 27 => ⟨S128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x128, .f32⟩
  | 44 => ⟨S50000x128, .f32⟩
  | 45 => ⟨S1x128x128, .f32⟩
  | 46 => ⟨S128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S50000x128, .f32⟩
  | 64 => ⟨S_, .f32⟩
  | 65 => ⟨S50000, .f32⟩
  | 66 => ⟨S_, .f32⟩
  | 67 => ⟨S512, .f32⟩
  | 68 => ⟨S50000x1, .i32⟩
  | 69 => ⟨S512, .f32⟩
  | 70 => ⟨S_, .f32⟩
  | 71 => ⟨S512, .f32⟩
  | 72 => ⟨S512, .f32⟩
  | 73 => ⟨S_, .f32⟩
  | 74 => ⟨S512x128, .f32⟩
  | 75 => ⟨S50000x1, .i32⟩
  | 76 => ⟨S512x128, .f32⟩
  | 77 => ⟨S512x1, .f32⟩
  | 78 => ⟨S512x128, .f32⟩
  | 79 => ⟨S512x128, .f32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S512x128, .f32⟩
  | 96 => ⟨S50000x1, .i32⟩
  | 97 => ⟨S512x128, .f32⟩
  | 98 => ⟨S512x1, .f32⟩
  | 99 => ⟨S512x128, .f32⟩
  | 100 => ⟨S512x128, .f32⟩
  | 101 => ⟨S1x128, .f32⟩
  | 102 => ⟨S50000x128, .f32⟩
  | 103 => ⟨S50000x128, .f32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S128x128, .f32⟩
  | 122 => ⟨S50000x128, .f32⟩
  | 123 => ⟨S1x128, .f32⟩
  | 124 => ⟨S50000x128, .f32⟩
  | 125 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c : Ref sig .tc := ⟨.hbm, 56, rfl⟩
abbrev main_v24 : Ref sig .tc := ⟨.hbm, 57, rfl⟩
abbrev main_v25 : Ref sig .tc := ⟨.hbm, 58, rfl⟩
abbrev main_c_1 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_2 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_3 : Ref sig .tc := ⟨.hbm, 85, rfl⟩
abbrev main_v50 : Ref sig .tc := ⟨.hbm, 86, rfl⟩
abbrev main_v51 : Ref sig .tc := ⟨.hbm, 87, rfl⟩
abbrev main_cst_4 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_5 : Ref sig .tc := ⟨.hbm, 92, rfl⟩
abbrev main_v55 : Ref sig .tc := ⟨.hbm, 93, rfl⟩
abbrev main_v56 : Ref sig .tc := ⟨.hbm, 94, rfl⟩
abbrev main_c_6 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_7 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_8 : Ref sig .tc := ⟨.hbm, 121, rfl⟩
abbrev main_v81 : Ref sig .tc := ⟨.hbm, 122, rfl⟩
abbrev main_v82 : Ref sig .tc := ⟨.hbm, 123, rfl⟩
abbrev main_cst_9 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_10 : Ref sig .tc := ⟨.hbm, 146, rfl⟩
abbrev main_v104 : Ref sig .tc := ⟨.hbm, 147, rfl⟩
abbrev main_v105 : Ref sig .tc := ⟨.hbm, 148, rfl⟩
abbrev main_cst_11 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_12 : Ref sig .tc := ⟨.hbm, 165, rfl⟩
abbrev main_v121 : Ref sig .tc := ⟨.hbm, 166, rfl⟩
abbrev main_v122 : Ref sig .tc := ⟨.hbm, 167, rfl⟩
abbrev main_cst_13 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_14 : Ref sig .tc := ⟨.hbm, 184, rfl⟩
abbrev main_v138 : Ref sig .tc := ⟨.hbm, 185, rfl⟩
abbrev main_v139 : Ref sig .tc := ⟨.hbm, 186, rfl⟩
abbrev main_cst_15 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_16 : Ref sig .tc := ⟨.hbm, 192, rfl⟩
abbrev main_v144 : Ref sig .tc := ⟨.hbm, 193, rfl⟩
abbrev main_cst_17 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_18 : Ref sig .tc := ⟨.hbm, 198, rfl⟩
abbrev main_v148 : Ref sig .tc := ⟨.hbm, 199, rfl⟩
abbrev main_v149 : Ref sig .tc := ⟨.hbm, 200, rfl⟩
abbrev main_cst_19 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_c_20 : Ref sig .tc := ⟨.hbm, 208, rfl⟩
abbrev main_v156 : Ref sig .tc := ⟨.hbm, 209, rfl⟩
abbrev main_v157 : Ref sig .tc := ⟨.hbm, 210, rfl⟩
abbrev main_c_21 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_22 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_c_23 : Ref sig .tc := ⟨.hbm, 232, rfl⟩
abbrev main_v177 : Ref sig .tc := ⟨.hbm, 233, rfl⟩
abbrev main_v178 : Ref sig .tc := ⟨.hbm, 234, rfl⟩
abbrev main_c_24 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_cst_25 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S64x54_S54x64_1_0 : S64x54.Transposes [1, 0] S54x64
  transposes_S128x64_S64x128_1_0 : S128x64.Transposes [1, 0] S64x128
  transposes_S64x18_S18x64_1_0 : S64x18.Transposes [1, 0] S18x64
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S50000x128_S50000x128_S50000x256_d1 : Shape.Concatenates [S50000x128, S50000x128] S50000x256 1
  transposes_S128x256_S256x128_1_0 : S128x256.Transposes [1, 0] S256x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  dot_S50000x128_S128x128_S50000x128_1_0_0_1_n_n_wf : DotDims.WF S50000x128 S128x128 S50000x128 [1] [0] [0] [1] [] []
  dot_S1000000x54_S54x64_S1000000x64_1_0_0_1_n_n_wf : DotDims.WF S1000000x54 S54x64 S1000000x64 [1] [0] [0] [1] [] []
  dot_S1000000x64_S64x128_S1000000x128_1_0_0_1_n_n_wf : DotDims.WF S1000000x64 S64x128 S1000000x128 [1] [0] [0] [1] [] []
  dot_S1000000x18_S18x64_S1000000x64_1_0_0_1_n_n_wf : DotDims.WF S1000000x18 S18x64 S1000000x64 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x256_S256x128_S50000x128_1_0_0_1_n_n_wf : DotDims.WF S50000x256 S256x128 S50000x128 [1] [0] [0] [1] [] []
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  gather_S512x128_S50000x1_S50000x128_1_0_n_n_0_1_1128_wf : GatherDims.WF S512x128 S50000x1 S50000x128 [1] [0] [] [0] [] 1 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1000000x54_S54x64_S1000000x64_1_0_0_1_n_n : DotDims S1000000x54 S54x64 S1000000x64 where
  lhsContracting := [1]
  rhsContracting := [0]
  lhsNonContracting := [0]
  rhsNonContracting := [1]
  lhsBatch := []
  rhsBatch := []
  wf := dot_S1000000x54_S54x64_S1000000x64_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x18_S18x64_S1000000x64_1_0_0_1_n_n : DotDims S1000000x18 S18x64 S1000000x64 where
  lhsContracting := [1]
  rhsContracting := [0]
  lhsNonContracting := [0]
  rhsNonContracting := [1]
  lhsBatch := []
  rhsBatch := []
  wf := dot_S1000000x18_S18x64_S1000000x64_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Spec.lean ====
/-
  The network both programs compute, entry by entry, on the extended reals.

  Node features are passed through a dense layer and the gate `y ↦ y · σ(y)`; every edge `e` carries two
  projected feature rows, each multiplied entrywise by the source node's row and summed into the destination node
  (`dst e`, taken signed; an edge whose destination is no node contributes nowhere); two graph-convolution branches
  mix the aggregate and the node's own row, the branches are joined by one dense layer over their concatenation —
  written here as the sum of its two halves — with a skip connection, and three gated residual layers follow. This
  array is `hpre`, common to both programs.

  The graph normalisation then differs in form only. With `μ` the per-graph mean, `c` the per-graph node count (at
  least one) and `s` the learned mean scale, one program centres first and averages the squares,
  `Var = (1/c) Σ (h − s μ)²`, and divides by `√(Var + ε)`; the other averages `h²` and recovers the same variance as
  `E[h²] − μ² (2 s − s²)`, and multiplies by `(Var + ε)^(-1/2)`. A last dense layer closes both.

  A gathered row index is read signed and clamped into the table (`clampRow`); a weight is stored `[out, in]`.
-/
import Idealize.ShloMosaic.PureOps.Ideal
import Idealize.ShloMosaic.Lib.ValueIdx
import proofs.«416041_j69114613727529_2_alg».proof.Proof.LibRowDims

noncomputable section

open scoped BigOperators

namespace Cert.Spec

open Idealize.ShloMosaic Idealize.ShloMosaic.ValueIdx Idealize.ShloMosaic.RowDims

/-- A matrix, a vector, a stack of matrices of extended reals over literal extents; a vector of 32-bit indices. -/
abbrev M2 (r c : Nat) : Type := (⟨2, ![r, c]⟩ : Shape).Idx → EReal
abbrev V1 (n : Nat) : Type := (⟨1, ![n]⟩ : Shape).Idx → EReal
abbrev T3 (a b c : Nat) : Type := (⟨3, ![a, b, c]⟩ : Shape).Idx → EReal
abbrev I1 (n : Nat) : Type := (⟨1, ![n]⟩ : Shape).Idx → BitVec 32
abbrev I2 (r c : Nat) : Type := (⟨2, ![r, c]⟩ : Shape).Idx → BitVec 32

/-- The number of nodes, of edges, of graphs. -/
abbrev nN : Nat := 50000
abbrev nE : Nat := 1000000
abbrev nG : Nat := 512

/-- A node-indexed (or edge-indexed) array of 128-wide rows, in coordinates. -/
abbrev Rows (n : Nat) : Type := Fin n → Fin 128 → EReal

/-- The gate `y · σ(y)`, with `σ(y) = 1 / (1 + e^{-y})`. -/
def swish (y : EReal) : EReal := y * Ideal.logistic y

/-- A row against a weight stored `[out, in]`: `Σ_k a_k W_{jk}`. -/
def dotW {I O : Nat} (W : M2 O I) (a : Fin I → EReal) (j : Fin O) : EReal := ∑ k : Fin I, a k * W (ix2 j k)

/-- The same with a bias. -/
def lin {I O : Nat} (W : M2 O I) (b : V1 O) (a : Fin I → EReal) (j : Fin O) : EReal := dotW W a j + b (ix1 j)

/-- The embedded node features `x0 = swish (x Wᵀ + b)`. -/
def x0 (x : M2 nN 128) (W : M2 128 128) (b : V1 128) : Rows nN := fun n j => swish (lin W b (fun k => x (ix2 n k)) j)

/-- An edge feature row through two bias-free layers, `(f W₁ᵀ) W₂ᵀ`. -/
def proj {I : Nat} (f : M2 nE I) (W1 : M2 64 I) (W2 : M2 128 64) : Rows nE :=
  fun e j => dotW W2 (fun q => dotW W1 (fun r => f (ix2 e r)) q) j

/-- The node row an index word selects. -/
def nodeOf (v : BitVec 32) : Fin nN := clampRow nN (by decide) v
/-- The graph row an index word selects. -/
def graphOf (v : BitVec 32) : Fin nG := clampRow nG (by decide) v

/-- The gathered source rows `h[src e]`. -/
def gatherRows (h : Rows nN) (src : Fin nE → BitVec 32) : Rows nE := fun e j => h (nodeOf (src e)) j

/-- The message of an edge: its projected features times its source node's row. -/
def msg (p : Rows nE) (hs : Rows nE) : Rows nE := fun e j => p e j * hs e j

/-- The messages summed into their destination nodes. -/
def agg (u : Rows nE) (dst : Fin nE → BitVec 32) : Rows nN :=
  fun n j => ∑ e : Fin nE, if (dst e).toInt = (n.val : Int) then u e j else 0

/-- One graph-convolution branch and its dense layer: `swish ((a Wrelᵀ + brel + h Wrootᵀ) Wlᵀ + bl)`. -/
def conv (Wrel : M2 128 128) (brel : V1 128) (Wroot : M2 128 128) (Wl : M2 128 128) (bl : V1 128)
    (a h : Rows nN) : Rows nN :=
  fun n j => swish (lin Wl bl (fun k => lin Wrel brel (a n) k + dotW Wroot (h n) k) j)

/-- The two branches joined: the dense layer over their concatenation as the sum of its halves, plus the skip. -/
def join (Wc : M2 128 256) (bc : V1 128) (h1 h2 h : Rows nN) : Rows nN :=
  fun n j => ((∑ k : Fin 128, h1 n k * Wc (ix2 j (Fin.castAdd 128 k)))
      + (∑ k : Fin 128, h2 n k * Wc (ix2 j (Fin.natAdd 128 k)))) + bc (ix1 j) + h n j

/-- One gated residual layer `swish (h Wᵢᵀ + bᵢ) + h`. -/
def res (Ws : T3 3 128 128) (bs : M2 3 128) (i : Fin 3) (h : Rows nN) : Rows nN :=
  fun n j => swish ((∑ k : Fin 128, h n k * Ws (ix3 i j k)) + bs (ix2 i j)) + h n j

/-- The node array before the graph normalisation. -/
def hpre (x : M2 nN 128) (f1 : M2 nE 54) (f2 : M2 nE 18) (src dst : Fin nE → BitVec 32)
    (linW : M2 128 128) (linb : V1 128) (f1W1 : M2 64 54) (f1W2 : M2 128 64) (f2W1 : M2 64 18) (f2W2 : M2 128 64)
    (c1rW : M2 128 128) (c1rb : V1 128) (c1oW : M2 128 128) (c2rW : M2 128 128) (c2rb : V1 128) (c2oW : M2 128 128)
    (l1W : M2 128 128) (l1b : V1 128) (l2W : M2 128 128) (l2b : V1 128) (catW : M2 128 256) (catb : V1 128)
    (linsW : T3 3 128 128) (linsb : M2 3 128) : Rows nN :=
  let h0 := x0 x linW linb
  let hs := gatherRows h0 src
  let a1 := agg (msg (proj f1 f1W1 f1W2) hs) dst
  let a2 := agg (msg (proj f2 f2W1 f2W2) hs) dst
  let h1 := conv c1rW c1rb c1oW l1W l1b a1 h0
  let h2 := conv c2rW c2rb c2oW l2W l2b a2 h0
  res linsW linsb 2 (res linsW linsb 1 (res linsW linsb 0 (join catW catb h1 h2 h0)))

/-- The node count of a graph, at least one. -/
def cnt (batch : Fin nN → BitVec 32) (g : Fin nG) : EReal :=
  max (∑ n : Fin nN, if (batch n).toInt = (g.val : Int) then (1 : EReal) else 0) 1

/-- A per-graph average of node rows. -/
def segMean (batch : Fin nN → BitVec 32) (v : Rows nN) (g : Fin nG) (j : Fin 128) : EReal :=
  Ideal.div (∑ n : Fin nN, if (batch n).toInt = (g.val : Int) then v n j else 0) (cnt batch g)

/-- The variance regulariser `ε`, as the word both programs carry. -/
abbrev epsW : EReal := Ideal.ofBits .f32 0x3727C5AC#32

/-- The centred node rows `h − μ[graph] · s`. -/
def centred (batch : Fin nN → BitVec 32) (ms : V1 128) (h : Rows nN) : Rows nN :=
  fun n j => h n j - segMean batch h (graphOf (batch n)) j * ms (ix1 j)

/-- The variance recovered from the second moment: `E[h²] − μ² (2 s − s²)`. -/
def varMoment (batch : Fin nN → BitVec 32) (ms : V1 128) (h : Rows nN) (g : Fin nG) (j : Fin 128) : EReal :=
  segMean batch (fun n j => h n j * h n j) g j
    - (segMean batch h g j * segMean batch h g j) * (2 * ms (ix1 j) - ms (ix1 j) * ms (ix1 j))

/-- The variance as the average of the centred squares. -/
def varCentred (batch : Fin nN → BitVec 32) (ms : V1 128) (h : Rows nN) (g : Fin nG) (j : Fin 128) : EReal :=
  segMean batch (fun n j => centred batch ms h n j * centred batch ms h n j) g j

/-- The result by the second-moment form: scale by `(Var + ε)^(-1/2)`, then the last dense layer. -/
def outMoment (batch : Fin nN → BitVec 32) (nw nb ms : V1 128) (fW : M2 128 128) (fb : V1 128) (h : Rows nN) : Rows nN :=
  fun n j => lin fW fb (fun k => (nw (ix1 k) * centred batch ms h n k)
      * Ideal.rsqrt (varMoment batch ms h (graphOf (batch n)) k + epsW) + nb (ix1 k)) j

/-- The result by the centred form: divide by `√(Var + ε)`, then the last dense layer. -/
def outCentred (batch : Fin nN → BitVec 32) (nw nb ms : V1 128) (fW : M2 128 128) (fb : V1 128) (h : Rows nN) : Rows nN :=
  fun n j => lin fW fb (fun k => Ideal.div (nw (ix1 k) * centred batch ms h n k)
      (Ideal.sqrt (varCentred batch ms h (graphOf (batch n)) k + epsW)) + nb (ix1 k)) j

/-- A `[n, 128]` array in coordinates; an index vector in coordinates; the two rows of the edge list. -/
def rows {n : Nat} (a : M2 n 128) : Rows n := fun i j => a (ix2 i j)
def words {n : Nat} (v : I1 n) : Fin n → BitVec 32 := fun i => v (ix1 i)
def srcOf (ei : I2 2 nE) : Fin nE → BitVec 32 := fun e => ei (ix2 0 e)
def dstOf (ei : I2 2 nE) : Fin nE → BitVec 32 := fun e => ei (ix2 1 e)
/-- The left and the right 128 columns of a `[n, 256]` array, in coordinates. -/
def leftHalf {n : Nat} (a : M2 n 256) : Rows n := fun i j => a (ix2 i (Fin.castAdd 128 j))
def rightHalf {n : Nat} (a : M2 n 256) : Rows n := fun i j => a (ix2 i (Fin.natAdd 128 j))

/-- An index word that names a row of a table of `N` rows. -/
def InRange (N : Nat) (v : BitVec 32) : Prop := 0 ≤ v.toInt ∧ v.toInt < (N : Int)

/-- An array of extended reals all of whose entries are real numbers. -/
def Finite {ι : Type} (v : ι → EReal) : Prop := ∀ i, ∃ r : ℝ, v i = (r : EReal)

end Cert.Spec

end
-- ==== Proof.KArgs.lean ====
/-
  The idealized kernel's launch arrays, each at its literal type, and the names of the buffers its @main passes
  between its four regions.
-/
import proofs.«416041_j69114613727529_2_alg».proof.Proof.Gen.KernelIdeal.Frame
import proofs.«416041_j69114613727529_2_alg».proof.Proof.Spec

noncomputable section

namespace Cert.KernelIdeal.Legs

open Idealize.ShloMosaic Idealize.ShloMosaic.TcCoe Idealize.ShloMosaic.ValueIdx
open Idealize.SL.Sem
open Cert.KernelIdeal Cert.KernelIdeal.Gen Cert.Spec

variable (m : (ℓ : Loc nD τ sig) → Buf (Elt Ideal) ℓ) (ρ : Dev nD → PrngReg) (c : Dev nD)

/-- A TensorCore buffer of @main as a device reference. -/
abbrev dr (b : Ref sig .tc) : DevRef τ sig := Proc.devRef .tc b

abbrev aX : M2 nN 128 := m ((c : Thread nD τ).loc main_arg0)
abbrev aF1 : M2 nE 54 := m ((c : Thread nD τ).loc main_arg1)
abbrev aF2 : M2 nE 18 := m ((c : Thread nD τ).loc main_arg2)
abbrev aEdges : I2 2 nE := m ((c : Thread nD τ).loc main_arg3)
abbrev aBatch : I1 nN := m ((c : Thread nD τ).loc main_arg4)
abbrev aLinW : M2 128 128 := m ((c : Thread nD τ).loc main_arg5)
abbrev aLinB : V1 128 := m ((c : Thread nD τ).loc main_arg6)
abbrev aF1W1 : M2 64 54 := m ((c : Thread nD τ).loc main_arg7)
abbrev aF1W2 : M2 128 64 := m ((c : Thread nD τ).loc main_arg8)
abbrev aF2W1 : M2 64 18 := m ((c : Thread nD τ).loc main_arg9)
abbrev aF2W2 : M2 128 64 := m ((c : Thread nD τ).loc main_arg10)
abbrev aC1rW : M2 128 128 := m ((c : Thread nD τ).loc main_arg11)
abbrev aC1rB : V1 128 := m ((c : Thread nD τ).loc main_arg12)
abbrev aC1oW : M2 128 128 := m ((c : Thread nD τ).loc main_arg13)
abbrev aC2rW : M2 128 128 := m ((c : Thread nD τ).loc main_arg14)
abbrev aC2rB : V1 128 := m ((c : Thread nD τ).loc main_arg15)
abbrev aC2oW : M2 128 128 := m ((c : Thread nD τ).loc main_arg16)
abbrev aL1W : M2 128 128 := m ((c : Thread nD τ).loc main_arg17)
abbrev aL1B : V1 128 := m ((c : Thread nD τ).loc main_arg18)
abbrev aL2W : M2 128 128 := m ((c : Thread nD τ).loc main_arg19)
abbrev aL2B : V1 128 := m ((c : Thread nD τ).loc main_arg20)
abbrev aCatW : M2 128 256 := m ((c : Thread nD τ).loc main_arg21)
abbrev aCatB : V1 128 := m ((c : Thread nD τ).loc main_arg22)
abbrev aNw : V1 128 := m ((c : Thread nD τ).loc main_arg23)
abbrev aNb : V1 128 := m ((c : Thread nD τ).loc main_arg24)
abbrev aMs : V1 128 := m ((c : Thread nD τ).loc main_arg25)
abbrev aLinsW : T3 3 128 128 := m ((c : Thread nD τ).loc main_arg26)
abbrev aLinsB : M2 3 128 := m ((c : Thread nD τ).loc main_arg27)
abbrev aFW : M2 128 128 := m ((c : Thread nD τ).loc main_arg28)
abbrev aFB : V1 128 := m ((c : Thread nD τ).loc main_arg29)

/-- The buffers @main passes on, at the boundary where each is first complete: the embedded node features after
    region 0, the gathered source rows, the two message halves after region 1, the two aggregates, the node array
    after region 2, the gathered mean and variance, the result after region 3. -/
abbrev bX0 : M2 nN 128 := W2 (F := Ideal) m ρ c (dr main_v18)
abbrev bXsrc : M2 nE 128 := W3 (F := Ideal) m ρ c (dr main_v19)
abbrev bMsg : M2 nE 256 := W4 (F := Ideal) m ρ c (dr main_v20)
abbrev bAgg1 : M2 nN 128 := W5 (F := Ideal) m ρ c (dr main_v24)
abbrev bAgg2 : M2 nN 128 := W5 (F := Ideal) m ρ c (dr main_v25)
abbrev bX0' : M2 nN 128 := W5 (F := Ideal) m ρ c (dr main_v18)
abbrev bH : M2 nN 128 := W6 (F := Ideal) m ρ c (dr main_v26)
abbrev bH' : M2 nN 128 := W9 (F := Ideal) m ρ c (dr main_v26)
abbrev bMeanG : M2 nN 128 := W9 (F := Ideal) m ρ c (dr main_v52)
abbrev bVarG : M2 nN 128 := W9 (F := Ideal) m ρ c (dr main_v53)
abbrev bOut : M2 nN 128 := W10 (F := Ideal) m ρ c (dr main_v54)

end Cert.KernelIdeal.Legs

end
-- ==== Proof.KRegion0.lean ====
/-
  Region 0: every block of rows of the node features goes through the dense layer and the gate; the blocks tile the
  array, so the array after the region is the embedded features entry by entry.

  The block a grid point stores is one pure function of the three blocks it loads: the block of 5000 feature rows
  times the transposed weight (a product into a zero accumulator, so a plain sum over the contracted coordinate),
  plus the bias row broadcast over the rows, then `y ↦ y · σ(y)`. Read at an entry `(p, q)` of point `t`'s block,
  with the weight block the launched weight transposed, this is `swish (Σ_k x[5000 t + p, k] · W[q, k] + b[q])`:
  the embedded feature at row `5000 t + p`. Row `r` of the array lies in the block of point `r / 5000`, so the ten
  blocks cover the array and it ends holding the embedded features everywhere.
-/
import proofs.«416041_j69114613727529_2_alg».proof.Proof.KArgs
import Idealize.ShloMosaic.Lib.ValueLayout
import Idealize.ShloMosaic.Lib.Pipeline.Value

noncomputable section

namespace Cert.KernelIdeal.Legs

open Idealize.ShloMosaic Idealize.ShloMosaic.TcCoe Idealize.ShloMosaic.ValueIdx Idealize.ShloMosaic.RowDims
open Idealize.SL.Sem
open Cert.KernelIdeal Cert.KernelIdeal.Gen Cert.Spec
open scoped BigOperators

namespace Region0

/-! ## The body's arithmetic at an entry -/

/-- The body's contraction is the plain one: rows by columns over the shared 128. -/
theorem dot0_plain : dot_S5000x128_S128x128_S5000x128_1_0_0_1_n_n = DotDims.plain 5000 128 128 := rfl

/-- The dense layer's pre-activation of a block, entry by entry. -/
theorem pre_apply (xb : Vec Ideal S5000x128 .f32) (wt : Vec Ideal S128x128 .f32) (b : Vec Ideal S128 .f32)
    (p : Fin 5000) (q : Fin 128) :
    addf (matmul dot_S5000x128_S128x128_S5000x128_1_0_0_1_n_n none (truncf .bf16 xb bitsLt_bf16_f32)
        (truncf .bf16 (shapeCast S128x128 wt shapeCasts_S128x128_S128x128) bitsLt_bf16_f32)
        (constant (F := Ideal) S5000x128 .f32 0x00000000#32))
      (broadcastTo S5000x128 (shapeCast S1x128 b shapeCasts_S128_S1x128) broadcasts_S1x128_S5000x128) (ix2 p q)
      = (∑ k : Fin 128, xb (ix2 p k) * wt (ix2 k q)) + b (ix1 q) := by
  refine congrArg₂ (· + ·) ?_ ?_
  · refine (matmul_plain_zero_apply none _ _ p q).trans ?_
    refine Finset.sum_congr rfl fun k _ => ?_
    rw [shapeCast_self]
    rfl
  · exact (broadcastTo_1b_ab_apply _ _ p q).trans (shapeCast_a_1a_apply _ _ 0 q)

/-- The body's one stored value of a block, entry by entry: the gate of the pre-activation. -/
theorem pay_apply (xb : Vec Ideal S5000x128 .f32) (wt : Vec Ideal S128x128 .f32) (b : Vec Ideal S128 .f32)
    (p : Fin 5000) (q : Fin 128) :
    k0_pay1 (F := Ideal) xb wt b (ix2 p q) = swish ((∑ k : Fin 128, xb (ix2 p k) * wt (ix2 k q)) + b (ix1 q)) := by
  unfold k0_pay1
  exact congrArg swish (pre_apply xb wt b p q)

variable (m : (ℓ : Loc nD τ sig) → Buf (Elt Ideal) ℓ) (ρ : Dev nD → PrngReg) (c : Dev nD)

/-! ## What the region finds in its input arrays -/

/-- No host operation before the region writes the node features: the region finds them as launched. -/
theorem entry_x : (V1 m ρ c main_arg0 : S50000x128.Idx → EReal) = aX m c := by
  show StableHlo.after hostOps0 (W0 m ρ c) (Proc.devRef .tc main_arg0) = _
  dsimp only [hostOps0]
  after_results

/-- Nor the bias. -/
theorem entry_b : (V1 m ρ c main_arg6 : S128.Idx → EReal) = aLinB m c := by
  show StableHlo.after hostOps0 (W0 m ρ c) (Proc.devRef .tc main_arg6) = _
  dsimp only [hostOps0]
  after_results

/-- The weight the region stages is the launched weight transposed. -/
theorem entry_w : (V1 m ρ c main_v4 : S128x128.Idx → EReal)
    = transpose S128x128 [1, 0] (aLinW m c) transposes_S128x128_S128x128_1_0 := by
  show StableHlo.after hostOps0 (W0 m ρ c) (Proc.devRef .tc main_v4) = _
  dsimp only [hostOps0]
  after_results

/-! ## The blocks a point loads, entry by entry -/

/-- The printed index maps over the grid: the feature and result windows sit at block row `t`, the weight and
    the bias at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The three blocks point `t` loads, each at its literal type: 5000 feature rows, the transposed weight, the bias. -/
abbrev xblk (t : Fin cfg0.N) : Vec Ideal S5000x128 .f32 := iblk0 (V1 m ρ) c 0 t
abbrev wblk (t : Fin cfg0.N) : Vec Ideal S128x128 .f32 := iblk0 (V1 m ρ) c 1 t
abbrev bblk (t : Fin cfg0.N) : Vec Ideal S128 .f32 := iblk0 (V1 m ρ) c 2 t

/-- The feature block of point `t` is rows `5000 t … 5000 t + 4999` of the launched features. -/
theorem xblk_apply (t : Fin cfg0.N) (p : Fin 5000) (k : Fin 128) (n : Fin nN) (hn : n.val = t.val * 5000 + p.val) :
    xblk m ρ c t (ix2 p k) = aX m c (ix2 n k) := by
  obtain ⟨e0, e1, -⟩ := idx_facts0 t
  unfold xblk iblk0
  rw [View.read_apply]
  show (V1 m ρ c main_arg0 : S50000x128.Idx → EReal) (((cfg0.win 0).blk t).view.emb (ix2 p k)) = aX m c (ix2 n k)
  rw [entry_x]
  refine congrArg (aX m c) ?_
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The weight block is the whole transposed weight: its entry `(k, q)` is the launched weight's `(q, k)`. -/
theorem wblk_apply (t : Fin cfg0.N) (k q : Fin 128) :
    wblk m ρ c t (ix2 k q) = aLinW m c (ix2 q k) := by
  obtain ⟨-, -, e0, e1, -⟩ := idx_facts0 t
  unfold wblk iblk0
  rw [View.read_apply]
  show (V1 m ρ c main_v4 : S128x128.Idx → EReal) (((cfg0.win 1).blk t).view.emb (ix2 k q)) = aLinW m c (ix2 q k)
  rw [entry_w]
  refine Eq.trans (congrArg _ ?_) (transpose_ix2_apply (aLinW m c) transposes_S128x128_S128x128_1_0 k q)
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias block is the whole launched bias. -/
theorem bblk_apply (t : Fin cfg0.N) (q : Fin 128) :
    bblk m ρ c t (ix1 q) = aLinB m c (ix1 q) := by
  obtain ⟨-, -, -, -, e0, -⟩ := idx_facts0 t
  unfold bblk iblk0
  rw [View.read_apply]
  show (V1 m ρ c main_arg6 : S128.Idx → EReal) (((cfg0.win 2).blk t).view.emb (ix1 q)) = aLinB m c (ix1 q)
  rw [entry_b]
  refine congrArg (aLinB m c) ?_
  funext a
  apply Fin.ext
  match a with
  | ⟨0, _⟩ => show win0_2.index t (0 : Fin 1) * 128 + 1 * q.val = q.val; rw [e0]; omega

/-! ## What a point writes back -/

/-- The zero offsets of a whole-block load or store, in either spelling. -/
theorem hz2 : (![0, 0] : Fin 2 → Nat) = fun _ => 0 := funext fun a => by fin_cases a <;> rfl
theorem hz1 : (![0] : Fin 1 → Nat) = fun _ => 0 := funext fun a => by fin_cases a <;> rfl

/-- The embedded features as one array: what the region leaves in its result buffer. -/
def emb0 (x : M2 nN 128) (W : M2 128 128) (b : V1 128) : M2 nN 128 := fun i => x0 x W b (i 0) (i 1)

/-- Entry `j` of the block a point stores is the embedded feature at row `5000 t + j₀`, column `j₁`. -/
theorem point_entry (t : Fin cfg0.N) (j : S5000x128.Idx) (i : S50000x128.Idx)
    (h0 : (i 0).val = t.val * 5000 + (j 0).val) (h1 : (i 1).val = (j 1).val) :
    k0_pay1 (F := Ideal) (xblk m ρ c t) (wblk m ρ c t) (bblk m ρ c t) j
      = emb0 (aX m c) (aLinW m c) (aLinB m c) i := by
  obtain ⟨p, q, rfl⟩ : ∃ (p : Fin 5000) (q : Fin 128), j = ix2 p q := ⟨j 0, j 1, eq_ix2 j⟩
  obtain ⟨n, q', rfl⟩ : ∃ (n : Fin nN) (q' : Fin 128), i = ix2 n q' := ⟨i 0, i 1, eq_ix2 i⟩
  have hq : q' = q := Fin.ext h1
  subst hq
  have hn : n.val = t.val * 5000 + p.val := h0
  refine (pay_apply _ _ _ p q').trans ?_
  show swish _ = swish _
  refine congrArg swish ?_
  refine congrArg₂ (· + ·) ?_ (bblk_apply m ρ c t q')
  refine Finset.sum_congr rfl fun k _ => ?_
  rw [xblk_apply m ρ c t p k n hn, wblk_apply m ρ c t k q']

/-- What point `t` writes back is its block of the embedded features. -/
theorem flushed0_eq (t : Fin cfg0.N) :
    (dat0 (V1 m ρ) c).flushed 3 t
      = ((cfg0.win 3).blk t).view.read (Elt Ideal) (emb0 (aX m c) (aLinW m c) (aLinB m c)) := by
  show (cfg0.win 3).cut (grid0.coords t) ((dat0 (V1 m ρ) c).after 3 t) = _
  rw [after0_3]
  unfold out0_3
  rw [View.canon_unit_zero hz2]
  simp only [View.ld_unit_zero (S := S5000x128) hz2, View.ld_unit_zero (S := S128x128) hz2,
    View.ld_unit_zero (S := S128) hz1]
  obtain ⟨-, -, -, -, -, e0, e1⟩ := idx_facts0 t
  funext j
  refine point_entry m ρ c t j (((cfg0.win 3).blk t).view.emb j) ?_ ?_
  · show win0_3.index t (0 : Fin 2) * 5000 + 1 * (j 0).val = t.val * 5000 + (j 0).val
    rw [e0]; omega
  · show win0_3.index t (1 : Fin 2) * 128 + 1 * (j 1).val = (j 1).val
    rw [e1]; omega

/-! ## From the blocks to the array -/

/-- An index of the array lies in point `t`'s block exactly when each coordinate lies in the block's range. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- The blocks tile the array: row `r` lies in the block of point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  refine ⟨t, flush0_3 t, ?_⟩
  obtain ⟨-, -, -, -, -, e0, e1⟩ := idx_facts0 t
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The result buffer after the region is the embedded features. -/
theorem final0 : (dat0 (V1 m ρ) c).arrAt 3 cfg0.N = emb0 (aX m c) (aLinW m c) (aLinB m c) :=
  (dat0 (V1 m ρ) c).arrAt_eq_of_cover 3 (emb0 (aX m c) (aLinW m c) (aLinB m c))
    (fun t _ => flushed0_eq m ρ c t) cover0

end Region0

variable (m : (ℓ : Loc nD τ sig) → Buf (Elt Ideal) ℓ) (ρ : Dev nD → PrngReg) (c : Dev nD)

/-- The embedded node features after region 0. -/
theorem x0_value : rows (bX0 m ρ c) = x0 (aX m c) (aLinW m c) (aLinB m c) := by
  have h : bX0 m ρ c = Region0.emb0 (aX m c) (aLinW m c) (aLinB m c) :=
    (W2_arr m ρ c 3).trans (Region0.final0 m ρ c)
  rw [h]
  rfl

end Cert.KernelIdeal.Legs

end
-- ==== Proof.KTake.lean ====
/-
  The row gather between regions 0 and 1: with every source index a node, the bounds mask never selects the fill
  value, and the gathered row is the source node's row.

  The take `x[idx]` along the rows is written as one function of the table and of the index vector: the index wrapped
  once where it is negative, laid as a column of start indices, compared with both ends of the table, the comparisons
  joined over the unit axis, the rows gathered at the clamped start index, a row whose index fell outside replaced by the
  fill word. For an index word whose signed value is in `[0, 50000)` the wrap is the identity, both comparisons hold, the
  clamp keeps the index, and entry `(e, j)` is the table's entry `(idx e, j)`. The index vector is row 0 of the edge list.
-/
import proofs.«416041_j69114613727529_2_alg».proof.Proof.KArgs
import Idealize.ShloMosaic.Lib.Pipeline.Value
import Idealize.ShloMosaic.PureOps.Reduce

noncomputable section

namespace Cert.KernelIdeal.Legs

open Idealize.ShloMosaic Idealize.ShloMosaic.TcCoe Idealize.ShloMosaic.ValueIdx Idealize.ShloMosaic.RowDims
open Idealize.SL.Sem
open Cert.KernelIdeal Cert.KernelIdeal.Gen Cert.Spec

namespace SrcTake

/-! ## Words: the three signed comparisons of the take, at an index that names a row -/

/-- A word whose signed value is not negative is not below zero. -/
theorem slt_zero_of_nonneg (v : BitVec 32) (h : 0 ≤ v.toInt) : IntOp.cmpi .slt v 0#32 = 0#1 := by
  have h0 : (0#32 : BitVec 32).toInt = 0 := by decide
  have hb : v.slt 0#32 = false := by
    unfold BitVec.slt; rw [h0]; exact decide_eq_false (by omega)
  show BitVec.ofBool (v.slt 0#32) = 0#1
  rw [hb]; rfl

/-- Such a word is at least zero. -/
theorem sge_zero_of_nonneg (v : BitVec 32) (h : 0 ≤ v.toInt) : IntOp.cmpi .sge v 0#32 = 1#1 := by
  have h0 : (0#32 : BitVec 32).toInt = 0 := by decide
  have hb : (0#32 : BitVec 32).sle v = true := by
    unfold BitVec.sle; rw [h0]; exact decide_eq_true h
  show BitVec.ofBool ((0#32 : BitVec 32).sle v) = 1#1
  rw [hb]; rfl

/-- A word whose signed value is below 50000 is at most 49999. -/
theorem sle_last_of_lt (v : BitVec 32) (h : v.toInt < 50000) : IntOp.cmpi .sle v 49999#32 = 1#1 := by
  have h0 : (49999#32 : BitVec 32).toInt = 49999 := by decide
  have hb : v.sle 49999#32 = true := by
    unfold BitVec.sle; rw [h0]; exact decide_eq_true (by omega)
  show BitVec.ofBool (v.sle 49999#32) = 1#1
  rw [hb]; rfl

/-! ## An and-reduction of a mask that is one everywhere -/

/-- A left fold by `and` from one over words that are all one is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- An and-reduction from the initial value one of a mask that is one everywhere is one everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-! ## The take, as one function of the table and of the index vector

`x[idx]` along the rows: a negative index is wrapped once (`idx + 50000`), the wrapped index is laid as a column,
compared with both ends of the table, the two comparisons are joined over the unit axis, the rows are gathered at the
clamped column, and a row whose index fell outside the table is replaced by the fill word. -/

/-- The index wrapped once: `idx + 50000` where `idx < 0`, `idx` elsewhere. -/
def takeWrap (src : IVec S1000000 32) : IVec S1000000 32 :=
  select (cmpi .slt src (broadcastInDim S1000000 ![] bcast_S_S1000000 (constantI S_ 32 0#32)))
    (addi src (broadcastInDim S1000000 ![] bcast_S_S1000000 (constantI S_ 32 50000#32))) src

/-- The wrapped index as a column of start indices. -/
def takeCol (src : IVec S1000000 32) : IVec S1000000x1 32 :=
  broadcastInDim S1000000x1 ![0] bcast_S1000000_S1000000x1_0 (takeWrap src)

/-- The bounds mask before it is reduced: `0 ≤ idx` and `idx ≤ 49999`, on the column. -/
def takeBoth (src : IVec S1000000 32) : IVec S1000000x1 1 :=
  andi (cmpi .sge (takeCol src) (broadcastInDim S1000000x1 ![] bcast_S_S1000000x1 (constantI S_ 32 0#32)))
    (cmpi .sle (takeCol src) (broadcastInDim S1000000x1 ![0, 1] bcast_S1x1_S1000000x1_0_1
      (broadcastInDim S1x1 ![1] bcast_S1_S1x1_1 (constantI S1 32 49999#32))))

/-- The bounds mask of a row. -/
def takeOk (src : IVec S1000000 32) : IVec S1000000 1 :=
  Host.reduce IntOp.andi (takeBoth src) (constantI S_ 1 1#1) reducesTo_S1000000x1_S1000000_d1 h_S_

/-- The take. -/
def takeRows (x : Vec Ideal S50000x128 .f32) (src : IVec S1000000 32) : Vec Ideal S1000000x128 .f32 :=
  select (broadcastInDim S1000000x128 ![0] bcast_S1000000_S1000000x128_0 (takeOk src))
    (Host.gather gather_S50000x128_S1000000x1_S1000000x128_1_0_n_n_0_1_1128 x (takeCol src))
    (broadcastInDim S1000000x128 ![] bcast_S_S1000000x128 (constant (F := Ideal) S_ .f32 0x7FC00000#32))

/-- An index that names a row is not wrapped. -/
theorem takeWrap_apply (src : IVec S1000000 32) (e : Fin 1000000) (h : 0 ≤ (src (ix1 e)).toInt) :
    takeWrap src (ix1 e) = src (ix1 e) := by
  show Scalar.select (IntOp.cmpi .slt (src (ix1 e)) 0#32) _ (src (ix1 e)) = src (ix1 e)
  rw [slt_zero_of_nonneg _ h, select_zero]

/-- A vector laid along the rows of a column reads, at row `e`, its entry `e`. -/
theorem col_apply {α : Type} (v : S1000000.Idx → α) (e : Fin 1000000) (k : Fin 1) :
    broadcastInDim S1000000x1 ![0] bcast_S1000000_S1000000x1_0 v (ix2 e k) = v (ix1 e) :=
  broadcastInDim_apply _ _ v (ix2 e k) (ix1 e) fun a => by
    match a with
    | ⟨0, _⟩ => exact (if_neg (show ¬ (1000000 : Nat) = 1 by decide)).symm

/-- A vector laid along the rows of the gathered array reads, at `(e, j)`, its entry `e`. -/
theorem rowmask_apply {α : Type} (v : S1000000.Idx → α) (e : Fin 1000000) (j : Fin 128) :
    broadcastInDim S1000000x128 ![0] bcast_S1000000_S1000000x128_0 v (ix2 e j) = v (ix1 e) :=
  broadcastInDim_apply _ _ v (ix2 e j) (ix1 e) fun a => by
    match a with
    | ⟨0, _⟩ => exact (if_neg (show ¬ (1000000 : Nat) = 1 by decide)).symm

/-- The column of start indices at a row whose index names a row of the table. -/
theorem takeCol_apply (src : IVec S1000000 32) (e : Fin 1000000) (k : Fin 1) (h : 0 ≤ (src (ix1 e)).toInt) :
    takeCol src (ix2 e k) = src (ix1 e) := by
  unfold takeCol
  rw [col_apply, takeWrap_apply src e h]

/-- With every index a row of the table, both comparisons hold at every entry of the column. -/
theorem takeBoth_apply (src : IVec S1000000 32) (hsrc : ∀ e, InRange 50000 (src (ix1 e))) (i : S1000000x1.Idx) :
    takeBoth src i = 1#1 := by
  obtain ⟨e, k, rfl⟩ : ∃ (e : Fin 1000000) (k : Fin 1), i = ix2 e k := ⟨i 0, i 1, eq_ix2 i⟩
  show IntOp.andi (IntOp.cmpi .sge (takeCol src (ix2 e k)) 0#32) (IntOp.cmpi .sle (takeCol src (ix2 e k)) 49999#32) = 1#1
  rw [takeCol_apply src e k (hsrc e).1, sge_zero_of_nonneg _ (hsrc e).1, sle_last_of_lt _ (hsrc e).2]
  decide

/-- So the reduced mask is one at every row. -/
theorem takeOk_apply (src : IVec S1000000 32) (hsrc : ∀ e, InRange 50000 (src (ix1 e))) (j : S1000000.Idx) :
    takeOk src j = 1#1 :=
  reduce_andi_one _ _ _ _ rfl (takeBoth_apply src hsrc) j

/-- The row gather of the take at `(e, j)`: the table at the clamped start index of row `e`, column `j`. -/
theorem takeGather_apply (x : Vec Ideal S50000x128 .f32) (idx : IVec S1000000x1 32) (e : Fin 1000000) (j : Fin 128) :
    Host.gather gather_S50000x128_S1000000x1_S1000000x128_1_0_n_n_0_1_1128 x idx (ix2 e j)
      = x (ix2 (clampRow 50000 (by decide) (idx (ix2 e 0))) j) :=
  rowGather_apply (by decide) gather_S50000x128_S1000000x1_S1000000x128_1_0_n_n_0_1_1128_wf x idx e j

/-- The take at `(e, j)`, every index a row of the table: the table's row `src e`, column `j`. -/
theorem takeRows_apply (x : Vec Ideal S50000x128 .f32) (src : IVec S1000000 32)
    (hsrc : ∀ e, InRange 50000 (src (ix1 e))) (e : Fin 1000000) (j : Fin 128) :
    takeRows x src (ix2 e j) = x (ix2 (nodeOf (src (ix1 e))) j) := by
  unfold takeRows
  rw [select_apply, rowmask_apply, takeOk_apply src hsrc, select_one, takeGather_apply,
    takeCol_apply src e 0 (hsrc e).1]
  rfl

/-! ## The stretch between regions 0 and 1

The outlined take names each of its values by a buffer that carries the value's type; contents pass to a buffer's own type
and back along an equation of types, which changes nothing. -/

/-- Contents moved to a buffer's own type and back are the contents. -/
theorem tref_ofBuf_toBuf {T : BufTy} {Val : EltTy → Type} (x : StableHlo.TRef sig T) (v : T.Contents Val) :
    x.ofBuf (x.toBuf v) = v := by
  obtain ⟨r, h, h1, h2⟩ := x
  subst h
  rfl

/-- Whatever the buffers hold before it, the stretch leaves in its result buffer the take of the table buffer at the
    index buffer (each read, and the result written, at its buffer's own type). -/
theorem take_after (V : Valuation τ sig (Elt Ideal)) :
    StableHlo.after hostOps1 V (Proc.devRef .tc main_v19)
      = (StableHlo.TRef.of main_v19 : StableHlo.TRef sig ⟨S1000000x128, .f32⟩).toBuf
          (takeRows ((StableHlo.TRef.of main_v18 : StableHlo.TRef sig ⟨S50000x128, .f32⟩).ofBuf (V (Proc.devRef .tc main_v18)))
            ((StableHlo.TRef.of main_v1 : StableHlo.TRef sig ⟨S1000000, .i32⟩).ofBuf (V (Proc.devRef .tc main_v1)))) := by
  after_results_simp
  simp only [tref_ofBuf_toBuf]
  rfl

/-- The same read at `(e, j)`, every index word a row of the table: the table buffer's row, column `j`. -/
theorem take_after_apply (V : Valuation τ sig (Elt Ideal))
    (hsrc : ∀ e, InRange 50000 ((V (Proc.devRef .tc main_v1) : IVec S1000000 32) (ix1 e))) (e : Fin 1000000) (j : Fin 128) :
    (StableHlo.after hostOps1 V (Proc.devRef .tc main_v19) : Vec Ideal S1000000x128 .f32) (ix2 e j)
      = (V (Proc.devRef .tc main_v18) : Vec Ideal S50000x128 .f32)
          (ix2 (nodeOf ((V (Proc.devRef .tc main_v1) : IVec S1000000 32) (ix1 e))) j) := by
  have h19 : ∀ X : Vec Ideal S1000000x128 .f32,
      ((StableHlo.TRef.of main_v19 : StableHlo.TRef sig ⟨S1000000x128, .f32⟩).toBuf X : Vec Ideal S1000000x128 .f32) = X :=
    fun X => eq_of_heq (cast_heq _ X)
  have h18 : ((StableHlo.TRef.of main_v18 : StableHlo.TRef sig ⟨S50000x128, .f32⟩).ofBuf (V (Proc.devRef .tc main_v18))
      : Vec Ideal S50000x128 .f32) = V (Proc.devRef .tc main_v18) := eq_of_heq (cast_heq _ _)
  have h1 : ((StableHlo.TRef.of main_v1 : StableHlo.TRef sig ⟨S1000000, .i32⟩).ofBuf (V (Proc.devRef .tc main_v1))
      : IVec S1000000 32) = V (Proc.devRef .tc main_v1) := eq_of_heq (cast_heq _ _)
  rw [take_after, h19, h18, h1]
  exact takeRows_apply _ _ hsrc e j

variable (m : (ℓ : Loc nD τ sig) → Buf (Elt Ideal) ℓ) (ρ : Dev nD → PrngReg) (c : Dev nD)

/-- The index vector the take reads: row 0 of the edge list, cut out and flattened before region 0, which has no window on
    it and leaves it as it was. -/
theorem src_words :
    (W2 (F := Ideal) m ρ c (dr main_v1) : IVec S1000000 32)
      = shapeCast S1000000 (extractStridedSlice S1x1000000 ![0, 0] (aEdges m c) slices_S2x1000000_S1x1000000_0_0)
          shapeCasts_S1x1000000_S1000000 := by
  refine (W2_of_ne m ρ c main_v1 (by decide)).trans ?_
  show StableHlo.after hostOps0 (W0 (F := Ideal) m ρ c) (Proc.devRef .tc main_v1) = _
  after_results
  rfl

/-- Its entry `e` is the source word of edge `e`. -/
theorem src_words_apply (e : Fin 1000000) :
    (W2 (F := Ideal) m ρ c (dr main_v1) : IVec S1000000 32) (ix1 e) = srcOf (aEdges m c) e := by
  rw [src_words]
  rw [shapeCast_apply _ _ (ix1 e) (ix2 (0 : Fin 1) e)
    (by rw [Shape.rowMajor_val_two, Shape.rowMajor_val_one]; show 0 * 1000000 + e.val = e.val; omega)]
  exact extractStridedSlice_apply _ _ _ _ (ix2 (0 : Fin 2) e) fun a => by
    match a with
    | ⟨0, _⟩ => rfl
    | ⟨1, _⟩ => show e.val = 0 + e.val; omega

end SrcTake

open SrcTake

variable (m : (ℓ : Loc nD τ sig) → Buf (Elt Ideal) ℓ) (ρ : Dev nD → PrngReg) (c : Dev nD)

/-- The gathered source rows. -/
theorem xsrc_value (hsrc : ∀ e, InRange nN (srcOf (aEdges m c) e)) :
    rows (bXsrc m ρ c) = gatherRows (rows (bX0 m ρ c)) (srcOf (aEdges m c)) := by
  funext e j
  have h := take_after_apply (W2 (F := Ideal) m ρ c) (fun e' => by rw [src_words_apply]; exact hsrc e') e j
  rw [src_words_apply] at h
  exact h

end Cert.KernelIdeal.Legs

end
-- ==== Proof.KRegion1.lean ====
/-
  Region 1: every block of edges is projected twice and multiplied by the gathered source rows; the two products
  are written side by side into one 256-wide array.

  The grid has 200 points; point `t` reads rows `5000 t … 5000 t + 4999` of the two edge-feature arrays and of the
  gathered source rows, reads the four transposed projection weights whole, and writes the same rows of the
  256-wide output: columns 0–127 hold `((f₁ U₁) U₂) ⊙ x`, columns 128–255 hold `((f₂ V₁) V₂) ⊙ x`, with `U`, `V` the
  weights as stored `[in, out]` after the host's transposes. Every row lies in the block of point `row / 5000`, so
  the output array is that one function of the arrays the region finds; with the transposes read back to the
  `[out, in]` weights, the two halves are the two messages of the specification.
-/
import proofs.«416041_j69114613727529_2_alg».proof.Proof.KArgs
import Idealize.ShloMosaic.Lib.Pipeline.Value
import Idealize.ShloMosaic.Lib.ValueLayout

-- membership in a rectangle whose long axis has 5000 coordinates
set_option maxRecDepth 16384

noncomputable section

open scoped BigOperators

namespace Cert.KernelIdeal.Legs.Region1

open Idealize.ShloMosaic Idealize.ShloMosaic.TcCoe Idealize.ShloMosaic.ValueIdx Idealize.ShloMosaic.RowDims
open Idealize.SL.Sem
open Cert.KernelIdeal Cert.KernelIdeal.Gen Cert.Spec

/-! ## The body's arithmetic at one entry -/

/-- A row through two weight matrices stored `[in, out]`, then times another row, entry by entry. -/
theorem projRow_apply {I : Nat} (f : FVec Ideal ⟨2, ![5000, I]⟩ .f32) (w1 : FVec Ideal ⟨2, ![I, 64]⟩ .f32)
    (w2 : FVec Ideal ⟨2, ![64, 128]⟩ .f32) (xs : FVec Ideal ⟨2, ![5000, 128]⟩ .f32)
    (hb : FTy.bits .bf16 < FTy.bits .f32) (p : Fin 5000) (q : Fin 128) :
    mulf (matmul (DotDims.plain 5000 64 128) none
        (truncf .bf16 (matmul (DotDims.plain 5000 I 64) none (truncf .bf16 f hb) (truncf .bf16 w1 hb)
          (constant ⟨2, ![5000, 64]⟩ .f32 0x00000000#32)) hb)
        (truncf .bf16 w2 hb) (constant ⟨2, ![5000, 128]⟩ .f32 0x00000000#32)) xs (ix2 p q)
      = (∑ k : Fin 64, (∑ r : Fin I, f (ix2 p r) * w1 (ix2 r k)) * w2 (ix2 k q)) * xs (ix2 p q) := by
  rw [mulf_apply]
  unfold matmul
  rw [matmul_plain_zero_apply]
  congr 1
  refine Finset.sum_congr rfl fun k _ => ?_
  rw [truncf_apply, truncf_apply, matmul_plain_zero_apply]
  rfl

/-- The first store's payload, entry by entry. -/
theorem pay_left_apply (f : Vec Ideal S5000x54 .f32) (xs : Vec Ideal S5000x128 .f32) (w1 : Vec Ideal S54x64 .f32)
    (w2 : Vec Ideal S64x128 .f32) (p : Fin 5000) (q : Fin 128) :
    k1_pay2 f xs w1 w2 (ix2 p q)
      = (∑ k : Fin 64, (∑ r : Fin 54, f (ix2 p r) * w1 (ix2 r k)) * w2 (ix2 k q)) * xs (ix2 p q) := by
  unfold k1_pay2 k1_pay1
  simp only [shapeCast_self]
  exact projRow_apply f w1 w2 xs _ p q

/-- The second store's payload, entry by entry. -/
theorem pay_right_apply (f : Vec Ideal S5000x18 .f32) (xs : Vec Ideal S5000x128 .f32) (w1 : Vec Ideal S18x64 .f32)
    (w2 : Vec Ideal S64x128 .f32) (p : Fin 5000) (q : Fin 128) :
    k1_pay3 f xs w1 w2 (ix2 p q)
      = (∑ k : Fin 64, (∑ r : Fin 18, f (ix2 p r) * w1 (ix2 r k)) * w2 (ix2 k q)) * xs (ix2 p q) := by
  unfold k1_pay3 k1_pay1
  simp only [shapeCast_self]
  exact projRow_apply f w1 w2 xs _ p q

/-! ## The output block after the body: two stores, one per half -/

theorem hz : (![0, 0] : Fin 2 → Nat) = fun _ => 0 := funext fun a => by fin_cases a <;> rfl

/-- The block of every window at a grid point: the three edge-indexed inputs and the output move with the point along
    the rows, the four weights stay whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt200 (t : Fin cfg1.N) : t.val < 200 := by
  have h := t.isLt
  have e : cfg1.N = 200 := N_1
  omega

/-- Row `p` of the block of point `t` is a row of the edge arrays. -/
theorem row_lt (t : Fin cfg1.N) (p : Fin 5000) : 5000 * t.val + p.val < 1000000 := by
  have := lt200 t
  omega

/-- Of two stores, an index outside the later one's rectangle and inside the earlier one's reads the earlier payload. -/
theorem canon_pair_earlier {S : Shape} {e : EltTy} {Val : EltTy → Type} [∀ e, Nonempty (Val e)] (rA rB : Rect S)
    (wA : rA.shape.Idx → Val e) (wB : rB.shape.Idx → Val e) (y : S.Idx) (x : rB.shape.Idx)
    (hA : y ∉ rA.set) (hB : y = rB.emb x) :
    View.canon [(⟨rA, wA⟩ : View.Piece Val S e), ⟨rB, wB⟩] y = wB x := by
  rw [View.canon_cons_of_not_mem _ _ hA, hB, View.canon_cons_emb]

/-- An index inside the later store's rectangle reads the later payload. -/
theorem canon_pair_later {S : Shape} {e : EltTy} {Val : EltTy → Type} [∀ e, Nonempty (Val e)] (rA rB : Rect S)
    (wA : rA.shape.Idx → Val e) (wB : rB.shape.Idx → Val e) (y : S.Idx) (x : rA.shape.Idx) (hA : y = rA.emb x) :
    View.canon [(⟨rA, wA⟩ : View.Piece Val S e), ⟨rB, wB⟩] y = wA x := by
  rw [hA, View.canon_cons_emb]

/-- The output block after the body, entry by entry: the first store's payload on the left 128 columns, the second's
    on the right. -/
theorem out_apply (x0 : Vec Ideal S5000x54 .f32) (x1 : Vec Ideal S5000x18 .f32) (x2 : Vec Ideal S5000x128 .f32)
    (x3 : Vec Ideal S54x64 .f32) (x4 : Vec Ideal S64x128 .f32) (x5 : Vec Ideal S18x64 .f32) (x6 : Vec Ideal S64x128 .f32)
    (p : Fin 5000) (q : Fin 256) :
    out1_7 x0 x1 x2 x3 x4 x5 x6 (ix2 p q)
      = if h : q.val < 128 then k1_pay2 x0 x2 x3 x4 (ix2 p ⟨q.val, h⟩)
        else k1_pay3 x1 x2 x5 x6 (ix2 p ⟨q.val - 128, by have := q.isLt; omega⟩) := by
  unfold out1_7
  simp only [View.ld_unit_zero (S := S5000x54) hz, View.ld_unit_zero (S := S5000x18) hz,
    View.ld_unit_zero (S := S5000x128) hz, View.ld_unit_zero (S := S54x64) hz, View.ld_unit_zero (S := S64x128) hz,
    View.ld_unit_zero (S := S18x64) hz]
  by_cases h : q.val < 128
  · rw [dif_pos h]
    refine canon_pair_earlier r1_7 r1_6 _ _ (ix2 p q) (ix2 p ⟨q.val, h⟩) ?_ ?_
    · rw [Rect.mem_set_unit]
      intro hm
      have := (hm 1).1
      change 128 ≤ q.val at this
      omega
    · funext a; apply Fin.ext
      match a with
      | ⟨0, _⟩ => show p.val = 0 + 1 * p.val; omega
      | ⟨1, _⟩ => show q.val = 0 + 1 * q.val; omega
  · rw [dif_neg h]
    refine canon_pair_later r1_7 r1_6 _ _ (ix2 p q) (ix2 p ⟨q.val - 128, by have := q.isLt; omega⟩) ?_
    funext a; apply Fin.ext
    match a with
    | ⟨0, _⟩ => show p.val = 0 + 1 * p.val; omega
    | ⟨1, _⟩ => show q.val = 128 + 1 * (q.val - 128); omega

section Generic
-- the arrays as the region finds them: a parameter, instantiated at the run's contents below
variable (V : (c : Dev nD) → (b : Ref sig .tc) → Buf (Elt Ideal) ((c : Thread nD τ).loc b))

/-! ## The windows' blocks at a grid point, at their literal types -/

abbrev bF1 (c : Dev nD) (t : Fin cfg1.N) : Vec Ideal S5000x54 .f32 := iblk1 V c 0 t
abbrev bF2 (c : Dev nD) (t : Fin cfg1.N) : Vec Ideal S5000x18 .f32 := iblk1 V c 1 t
abbrev bXs (c : Dev nD) (t : Fin cfg1.N) : Vec Ideal S5000x128 .f32 := iblk1 V c 2 t
abbrev bU1 (c : Dev nD) (t : Fin cfg1.N) : Vec Ideal S54x64 .f32 := iblk1 V c 3 t
abbrev bU2 (c : Dev nD) (t : Fin cfg1.N) : Vec Ideal S64x128 .f32 := iblk1 V c 4 t
abbrev bV1 (c : Dev nD) (t : Fin cfg1.N) : Vec Ideal S18x64 .f32 := iblk1 V c 5 t
abbrev bV2 (c : Dev nD) (t : Fin cfg1.N) : Vec Ideal S64x128 .f32 := iblk1 V c 6 t

/-- The arrays the region finds, at their literal types. -/
abbrev vF1 (c : Dev nD) : M2 nE 54 := V c main_arg1
abbrev vF2 (c : Dev nD) : M2 nE 18 := V c main_arg2
abbrev vXs (c : Dev nD) : M2 nE 128 := V c main_v19
abbrev vU1 (c : Dev nD) : M2 54 64 := V c main_v5
abbrev vU2 (c : Dev nD) : M2 64 128 := V c main_v6
abbrev vV1 (c : Dev nD) : M2 18 64 := V c main_v7
abbrev vV2 (c : Dev nD) : M2 64 128 := V c main_v8

/-- Row `p` of the block of point `t` is row `5000 t + p` of the array. -/
theorem bF1_apply (c : Dev nD) (t : Fin cfg1.N) (p : Fin 5000) (r : Fin 54) :
    bF1 V c t (ix2 p r) = vF1 V c (ix2 ⟨5000 * t.val + p.val, row_lt t p⟩ r) := by
  obtain ⟨e0, e1, -⟩ := idx1 t
  unfold bF1 iblk1
  rw [View.read_apply]
  show vF1 V c _ = _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 54 + 1 * r.val = r.val; rw [e1]; omega

theorem bF2_apply (c : Dev nD) (t : Fin cfg1.N) (p : Fin 5000) (r : Fin 18) :
    bF2 V c t (ix2 p r) = vF2 V c (ix2 ⟨5000 * t.val + p.val, row_lt t p⟩ r) := by
  obtain ⟨-, -, e0, e1, -⟩ := idx1 t
  unfold bF2 iblk1
  rw [View.read_apply]
  show vF2 V c _ = _
  congr 1
  funext a; apply Fin.ext
  match a with
  | ⟨0, _⟩ => show win1_1.index t (0 : Fin 2) * 5000 + 1 * p.val = 5000 * t.val + p.val; rw [e0]; omega
  | ⟨1, _⟩ => show win1_1.index t (1 : Fin 2) * 18 + 1 * r.val = r.val; rw [e1]; omega

theorem bXs_apply (c : Dev nD) (t : Fin cfg1.N) (p : Fin 5000) (j : Fin 128) :
    bXs V c t (ix2 p j) = vXs V c (ix2 ⟨5000 * t.val + p.val, row_lt t p⟩ j) := by
  obtain ⟨-, -, -, -, e0, e1, -⟩ := idx1 t
  unfold bXs iblk1
  rw [View.read_apply]
  show vXs V c _ = _
  congr 1
  funext a; apply Fin.ext
  match a with
  | ⟨0, _⟩ => show win1_2.index t (0 : Fin 2) * 5000 + 1 * p.val = 5000 * t.val + p.val; rw [e0]; omega
  | ⟨1, _⟩ => show win1_2.index t (1 : Fin 2) * 128 + 1 * j.val = j.val; rw [e1]; omega

/-- A weight's one block is the weight. -/
theorem bU1_apply (c : Dev nD) (t : Fin cfg1.N) (r : Fin 54) (k : Fin 64) :
    bU1 V c t (ix2 r k) = vU1 V c (ix2 r k) := by
  obtain ⟨-, -, -, -, -, -, e0, e1, -⟩ := idx1 t
  unfold bU1 iblk1
  rw [View.read_apply]
  show vU1 V c _ = _
  congr 1
  funext a; apply Fin.ext
  match a with
  | ⟨0, _⟩ => show win1_3.index t (0 : Fin 2) * 54 + 1 * r.val = r.val; rw [e0]; omega
  | ⟨1, _⟩ => show win1_3.index t (1 : Fin 2) * 64 + 1 * k.val = k.val; rw [e1]; omega

theorem bU2_apply (c : Dev nD) (t : Fin cfg1.N) (k : Fin 64) (j : Fin 128) :
    bU2 V c t (ix2 k j) = vU2 V c (ix2 k j) := by
  obtain ⟨-, -, -, -, -, -, -, -, e0, e1, -⟩ := idx1 t
  unfold bU2 iblk1
  rw [View.read_apply]
  show vU2 V c _ = _
  congr 1
  funext a; apply Fin.ext
  match a with
  | ⟨0, _⟩ => show win1_4.index t (0 : Fin 2) * 64 + 1 * k.val = k.val; rw [e0]; omega
  | ⟨1, _⟩ => show win1_4.index t (1 : Fin 2) * 128 + 1 * j.val = j.val; rw [e1]; omega

theorem bV1_apply (c : Dev nD) (t : Fin cfg1.N) (r : Fin 18) (k : Fin 64) :
    bV1 V c t (ix2 r k) = vV1 V c (ix2 r k) := by
  obtain ⟨-, -, -, -, -, -, -, -, -, -, e0, e1, -⟩ := idx1 t
  unfold bV1 iblk1
  rw [View.read_apply]
  show vV1 V c _ = _
  congr 1
  funext a; apply Fin.ext
  match a with
  | ⟨0, _⟩ => show win1_5.index t (0 : Fin 2) * 18 + 1 * r.val = r.val; rw [e0]; omega
  | ⟨1, _⟩ => show win1_5.index t (1 : Fin 2) * 64 + 1 * k.val = k.val; rw [e1]; omega

theorem bV2_apply (c : Dev nD) (t : Fin cfg1.N) (k : Fin 64) (j : Fin 128) :
    bV2 V c t (ix2 k j) = vV2 V c (ix2 k j) := by
  obtain ⟨-, -, -, -, -, -, -, -, -, -, -, -, e0, e1, -⟩ := idx1 t
  unfold bV2 iblk1
  rw [View.read_apply]
  show vV2 V c _ = _
  congr 1
  funext a; apply Fin.ext
  match a with
  | ⟨0, _⟩ => show win1_6.index t (0 : Fin 2) * 64 + 1 * k.val = k.val; rw [e0]; omega
  | ⟨1, _⟩ => show win1_6.index t (1 : Fin 2) * 128 + 1 * j.val = j.val; rw [e1]; omega

/-! ## The message array as one function of the arrays the region finds -/

/-- A feature row through two weights stored `[in, out]`, times a second row, entry by entry. -/
def projMul {I : Nat} (f : M2 nE I) (u1 : M2 I 64) (u2 : M2 64 128) (xs : M2 nE 128) : Rows nE :=
  fun e j => (∑ k : Fin 64, (∑ r : Fin I, f (ix2 e r) * u1 (ix2 r k)) * u2 (ix2 k j)) * xs (ix2 e j)

/-- Two 128-wide row arrays side by side as one 256-wide array. -/
def sideBySide (L R : Rows nE) : M2 nE 256 := fun i =>
  if h : (i 1).val < 128 then L (i 0) ⟨(i 1).val, h⟩
  else R (i 0) ⟨(i 1).val - 128, by have := idx2_lt1 i; omega⟩

/-- What region 1 leaves in its output array, from the arrays it finds. -/
abbrev msgArr (c : Dev nD) : M2 nE 256 :=
  sideBySide (projMul (vF1 V c) (vU1 V c) (vU2 V c) (vXs V c)) (projMul (vF2 V c) (vV1 V c) (vV2 V c) (vXs V c))

/-- The double sum and product depend on their operands entry by entry. -/
theorem projSum_congr {I : Nat} (a a' : Fin I → EReal) (b b' : Fin I → Fin 64 → EReal) (w w' : Fin 64 → EReal) (x x' : EReal)
    (ha : ∀ r, a r = a' r) (hb : ∀ r k, b r k = b' r k) (hw : ∀ k, w k = w' k) (hx : x = x') :
    (∑ k : Fin 64, (∑ r : Fin I, a r * b r k) * w k) * x = (∑ k : Fin 64, (∑ r : Fin I, a' r * b' r k) * w' k) * x' := by
  subst hx
  have e1 : a = a' := funext ha
  have e2 : b = b' := funext fun r => funext (hb r)
  have e3 : w = w' := funext hw
  rw [e1, e2, e3]

/-- The left payload at a block index, over the arrays. -/
theorem left_blk (c : Dev nD) (t : Fin cfg1.N) (p : Fin 5000) (j : Fin 128) :
    k1_pay2 (bF1 V c t) (bXs V c t) (bU1 V c t) (bU2 V c t) (ix2 p j)
      = projMul (vF1 V c) (vU1 V c) (vU2 V c) (vXs V c) ⟨5000 * t.val + p.val, row_lt t p⟩ j :=
  (pay_left_apply (bF1 V c t) (bXs V c t) (bU1 V c t) (bU2 V c t) p j).trans
    (projSum_congr (fun r => bF1 V c t (ix2 p r)) (fun r => vF1 V c (ix2 ⟨5000 * t.val + p.val, row_lt t p⟩ r))
      (fun r k => bU1 V c t (ix2 r k)) (fun r k => vU1 V c (ix2 r k))
      (fun k => bU2 V c t (ix2 k j)) (fun k => vU2 V c (ix2 k j))
      (bXs V c t (ix2 p j)) (vXs V c (ix2 ⟨5000 * t.val + p.val, row_lt t p⟩ j))
      (fun r => bF1_apply V c t p r) (fun r k => bU1_apply V c t r k) (fun k => bU2_apply V c t k j)
      (bXs_apply V c t p j))

/-- The right payload at a block index, over the arrays. -/
theorem right_blk (c : Dev nD) (t : Fin cfg1.N) (p : Fin 5000) (j : Fin 128) :
    k1_pay3 (bF2 V c t) (bXs V c t) (bV1 V c t) (bV2 V c t) (ix2 p j)
      = projMul (vF2 V c) (vV1 V c) (vV2 V c) (vXs V c) ⟨5000 * t.val + p.val, row_lt t p⟩ j :=
  (pay_right_apply (bF2 V c t) (bXs V c t) (bV1 V c t) (bV2 V c t) p j).trans
    (projSum_congr (fun r => bF2 V c t (ix2 p r)) (fun r => vF2 V c (ix2 ⟨5000 * t.val + p.val, row_lt t p⟩ r))
      (fun r k => bV1 V c t (ix2 r k)) (fun r k => vV1 V c (ix2 r k))
      (fun k => bV2 V c t (ix2 k j)) (fun k => vV2 V c (ix2 k j))
      (bXs V c t (ix2 p j)) (vXs V c (ix2 ⟨5000 * t.val + p.val, row_lt t p⟩ j))
      (fun r => bF2_apply V c t p r) (fun r k => bV1_apply V c t r k) (fun k => bV2_apply V c t k j)
      (bXs_apply V c t p j))

/-- What point `t` writes back is block `t` of the message array. -/
theorem flushed_eq (c : Dev nD) (t : Fin cfg1.N) :
    (dat1 V c).flushed 7 t = ((cfg1.win 7).blk t).view.read (Elt Ideal) (msgArr V c) := by
  show (cfg1.win 7).cut (grid1.coords t) ((dat1 V c).after 7 t) = _
  rw [after1_7]
  obtain ⟨-, -, -, -, -, -, -, -, -, -, -, -, -, -, e0, e1⟩ := idx1 t
  funext y
  obtain ⟨p, q, rfl⟩ : ∃ (p : Fin 5000) (q : Fin 256), y = ix2 p q := ⟨y 0, y 1, eq_ix2 y⟩
  have hemb : ((cfg1.win 7).blk t).view.emb (ix2 p q)
      = (ix2 ⟨5000 * t.val + p.val, row_lt t p⟩ q : S1000000x256.Idx) := by
    funext a; apply Fin.ext
    match a with
    | ⟨0, _⟩ => show win1_7.index t (0 : Fin 2) * 5000 + 1 * p.val = 5000 * t.val + p.val; rw [e0]; omega
    | ⟨1, _⟩ => show win1_7.index t (1 : Fin 2) * 256 + 1 * q.val = q.val; rw [e1]; omega
  show out1_7 (bF1 V c t) (bF2 V c t) (bXs V c t) (bU1 V c t) (bU2 V c t) (bV1 V c t) (bV2 V c t) (ix2 p q)
    = msgArr V c (((cfg1.win 7).blk t).view.emb (ix2 p q))
  rw [hemb]
  refine (out_apply (bF1 V c t) (bF2 V c t) (bXs V c t) (bU1 V c t) (bU2 V c t) (bV1 V c t) (bV2 V c t) p q).trans ?_
  show _ = if h : q.val < 128 then _ else _
  by_cases h : q.val < 128
  · rw [dif_pos h, dif_pos h]
    exact left_blk V c t p ⟨q.val, h⟩
  · rw [dif_neg h, dif_neg h]
    exact right_blk V c t p ⟨q.val - 128, by have := q.isLt; omega⟩

/-! ## From the blocks to the array -/

/-- An index of the output array is in point `t`'s block iff each coordinate is in the block's range on its axis. -/
theorem mem_blk (t : Fin cfg1.N) (i : S1000000x256.Idx) :
    i ∈ ((cfg1.win 7).blk t).view.set ↔ ∀ a : Fin 2, win1_7.index t a * S5000x256.size a ≤ (i a).val
      ∧ (i a).val < win1_7.index t a * S5000x256.size a + S5000x256.size a := by
  show i ∈ ((View.whole main_v20).slice (win1_7.rect t)).set ↔ _
  rw [View.set_slice_whole, Rect.mem_set_unit]
  exact Iff.rfl

/-- Row `r` of the output array lies in the block of point `r / 5000`. -/
theorem cover (i : S1000000x256.Idx) :
    ∃ t : Fin cfg1.N, (cfg1.win 7).flush t = true ∧ i ∈ ((cfg1.win 7).blk t).view.set := by
  have h0 : (i 0).val < 1000000 := idx2_lt0 i
  have h1 : (i 1).val < 256 := idx2_lt1 i
  have hN : cfg1.N = 200 := N_1
  refine ⟨⟨(i 0).val / 5000, by omega⟩, flush1_7 _, ?_⟩
  obtain ⟨-, -, -, -, -, -, -, -, -, -, -, -, -, -, e0, e1⟩ := idx1 ⟨(i 0).val / 5000, by omega⟩
  rw [mem_blk]
  intro a
  match a with
  | ⟨0, _⟩ =>
    show win1_7.index ⟨(i 0).val / 5000, _⟩ (0 : Fin 2) * 5000 ≤ (i 0).val
      ∧ (i 0).val < win1_7.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, _⟩ (1 : Fin 2) * 256 ≤ (i 1).val
      ∧ (i 1).val < win1_7.index ⟨(i 0).val / 5000, _⟩ (1 : Fin 2) * 256 + 256
    rw [e1]
    omega

/-- The output array after the region: the two products side by side, over the arrays the region finds. -/
theorem final_V (c : Dev nD) : (dat1 V c).arrAt 7 cfg1.N = msgArr V c :=
  (dat1 V c).arrAt_eq_of_cover 7 (msgArr V c) (fun t _ => flushed_eq V c t) cover

end Generic

/-! ## The two halves, and the weights as stored -/

/-- The left half of two arrays side by side is the first. -/
theorem leftHalf_sideBySide (L R : Rows nE) : leftHalf (sideBySide L R) = L := by
  funext e j
  show (if h : (Fin.castAdd 128 j).val < 128 then L e ⟨(Fin.castAdd 128 j).val, h⟩ else _) = L e j
  rw [dif_pos (by show j.val < 128; exact j.isLt)]
  rfl

/-- The right half is the second. -/
theorem rightHalf_sideBySide (L R : Rows nE) : rightHalf (sideBySide L R) = R := by
  funext e j
  show (if h : (Fin.natAdd 128 j).val < 128 then _ else R e ⟨(Fin.natAdd 128 j).val - 128, _⟩) = R e j
  rw [dif_neg (by show ¬ 128 + j.val < 128; omega)]
  congr 1
  apply Fin.ext
  show 128 + j.val - 128 = j.val
  omega

/-- With the weights transposed from their stored `[out, in]` form, the double sum is the two-layer projection, and the
    product is the message. -/
theorem projMul_transpose {I : Nat} (f : M2 nE I) (W1 : M2 64 I) (W2 : M2 128 64) (xs : M2 nE 128)
    (h1 : (⟨2, ![64, I]⟩ : Shape).Transposes [1, 0] ⟨2, ![I, 64]⟩)
    (h2 : (⟨2, ![128, 64]⟩ : Shape).Transposes [1, 0] ⟨2, ![64, 128]⟩) :
    projMul f (transpose ⟨2, ![I, 64]⟩ [1, 0] W1 h1) (transpose ⟨2, ![64, 128]⟩ [1, 0] W2 h2) xs
      = msg (proj f W1 W2) (rows xs) := by
  funext e j
  unfold projMul msg proj dotW rows
  refine congrArg (· * xs (ix2 e j)) (Finset.sum_congr rfl fun k _ => ?_)
  rw [transpose_ix2_apply W2 h2 k j]
  refine congrArg (· * W2 (ix2 j k)) (Finset.sum_congr rfl fun r _ => ?_)
  rw [transpose_ix2_apply W1 h1 r k]

/-! ## What the region finds in its arrays -/

variable (m : (ℓ : Loc nD τ sig) → Buf (Elt Ideal) ℓ) (ρ : Dev nD → PrngReg) (c : Dev nD)

/-- A buffer that no operation of a host stretch writes keeps its contents over the stretch. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The first edge features reach region 1 as launched. -/
theorem entry_f1 : W3 m ρ c (dr main_arg1) = aF1 m c :=
  calc W3 m ρ c (Proc.devRef .tc main_arg1)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

/-- The second edge features reach region 1 as launched. -/
theorem entry_f2 : W3 m ρ c (dr main_arg2) = aF2 m c :=
  calc W3 m ρ c (Proc.devRef .tc main_arg2)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- The first projection's first weight reaches region 1 transposed. -/
theorem entry_w11 : (W3 m ρ c (dr main_v5) : M2 54 64)
    = transpose S54x64 [1, 0] (aF1W1 m c) transposes_S64x54_S54x64_1_0 :=
  calc W3 m ρ c (Proc.devRef .tc main_v5)
    _ = W2 m ρ c (Proc.devRef .tc main_v5) := by host_keeps hostOps1
    _ = W1 m ρ c (Proc.devRef .tc main_v5) := W2_of_ne m ρ c main_v5 (by decide)
    _ = transpose S54x64 [1, 0] (aF1W1 m c) transposes_S64x54_S54x64_1_0 := by
        show StableHlo.after hostOps0 (W0 m ρ c) (Proc.devRef .tc main_v5) = _
        after_results

/-- The first projection's second weight reaches region 1 transposed. -/
theorem entry_w12 : (W3 m ρ c (dr main_v6) : M2 64 128)
    = transpose S64x128 [1, 0] (aF1W2 m c) transposes_S128x64_S64x128_1_0 :=
  calc W3 m ρ c (Proc.devRef .tc main_v6)
    _ = W2 m ρ c (Proc.devRef .tc main_v6) := by host_keeps hostOps1
    _ = W1 m ρ c (Proc.devRef .tc main_v6) := W2_of_ne m ρ c main_v6 (by decide)
    _ = transpose S64x128 [1, 0] (aF1W2 m c) transposes_S128x64_S64x128_1_0 := by
        show StableHlo.after hostOps0 (W0 m ρ c) (Proc.devRef .tc main_v6) = _
        after_results

/-- The second projection's first weight reaches region 1 transposed. -/
theorem entry_w21 : (W3 m ρ c (dr main_v7) : M2 18 64)
    = transpose S18x64 [1, 0] (aF2W1 m c) transposes_S64x18_S18x64_1_0 :=
  calc W3 m ρ c (Proc.devRef .tc main_v7)
    _ = W2 m ρ c (Proc.devRef .tc main_v7) := by host_keeps hostOps1
    _ = W1 m ρ c (Proc.devRef .tc main_v7) := W2_of_ne m ρ c main_v7 (by decide)
    _ = transpose S18x64 [1, 0] (aF2W1 m c) transposes_S64x18_S18x64_1_0 := by
        show StableHlo.after hostOps0 (W0 m ρ c) (Proc.devRef .tc main_v7) = _
        after_results

/-- The second projection's second weight reaches region 1 transposed. -/
theorem entry_w22 : (W3 m ρ c (dr main_v8) : M2 64 128)
    = transpose S64x128 [1, 0] (aF2W2 m c) transposes_S128x64_S64x128_1_0 :=
  calc W3 m ρ c (Proc.devRef .tc main_v8)
    _ = W2 m ρ c (Proc.devRef .tc main_v8) := by host_keeps hostOps1
    _ = W1 m ρ c (Proc.devRef .tc main_v8) := W2_of_ne m ρ c main_v8 (by decide)
    _ = transpose S64x128 [1, 0] (aF2W2 m c) transposes_S128x64_S64x128_1_0 := by
        show StableHlo.after hostOps0 (W0 m ρ c) (Proc.devRef .tc main_v8) = _
        after_results

/-! ## The message array -/

/-- The message array after region 1: the two messages side by side. -/
theorem bMsg_eq : bMsg m ρ c
    = sideBySide (msg (proj (aF1 m c) (aF1W1 m c) (aF1W2 m c)) (rows (bXsrc m ρ c)))
        (msg (proj (aF2 m c) (aF2W1 m c) (aF2W2 m c)) (rows (bXsrc m ρ c))) := by
  have hL : projMul (vF1 (V3 m ρ) c) (vU1 (V3 m ρ) c) (vU2 (V3 m ρ) c) (vXs (V3 m ρ) c)
      = msg (proj (aF1 m c) (aF1W1 m c) (aF1W2 m c)) (rows (bXsrc m ρ c)) := by
    have e1 : vF1 (V3 m ρ) c = aF1 m c := entry_f1 m ρ c
    have e2 : vU1 (V3 m ρ) c = transpose S54x64 [1, 0] (aF1W1 m c) transposes_S64x54_S54x64_1_0 := entry_w11 m ρ c
    have e3 : vU2 (V3 m ρ) c = transpose S64x128 [1, 0] (aF1W2 m c) transposes_S128x64_S64x128_1_0 := entry_w12 m ρ c
    have e4 : vXs (V3 m ρ) c = bXsrc m ρ c := rfl
    rw [e1, e2, e3, e4]
    exact projMul_transpose _ _ _ _ _ _
  have hR : projMul (vF2 (V3 m ρ) c) (vV1 (V3 m ρ) c) (vV2 (V3 m ρ) c) (vXs (V3 m ρ) c)
      = msg (proj (aF2 m c) (aF2W1 m c) (aF2W2 m c)) (rows (bXsrc m ρ c)) := by
    have e1 : vF2 (V3 m ρ) c = aF2 m c := entry_f2 m ρ c
    have e2 : vV1 (V3 m ρ) c = transpose S18x64 [1, 0] (aF2W1 m c) transposes_S64x18_S18x64_1_0 := entry_w21 m ρ c
    have e3 : vV2 (V3 m ρ) c = transpose S64x128 [1, 0] (aF2W2 m c) transposes_S128x64_S64x128_1_0 := entry_w22 m ρ c
    have e4 : vXs (V3 m ρ) c = bXsrc m ρ c := rfl
    rw [e1, e2, e3, e4]
    exact projMul_transpose _ _ _ _ _ _
  have h := (W4_arr m ρ c 7).trans (final_V (V3 m ρ) c)
  rw [← hL, ← hR]
  exact h

end Cert.KernelIdeal.Legs.Region1

namespace Cert.KernelIdeal.Legs

open Idealize.ShloMosaic Idealize.ShloMosaic.TcCoe Idealize.ShloMosaic.ValueIdx
open Idealize.SL.Sem
open Cert.KernelIdeal Cert.KernelIdeal.Gen Cert.Spec

variable (m : (ℓ : Loc nD τ sig) → Buf (Elt Ideal) ℓ) (ρ : Dev nD → PrngReg) (c : Dev nD)

/-- The left half of the messages: the first edge feature's projection times the source rows. -/
theorem msg_left : leftHalf (bMsg m ρ c) = msg (proj (aF1 m c) (aF1W1 m c) (aF1W2 m c)) (rows (bXsrc m ρ c)) := by
  rw [Region1.bMsg_eq, Region1.leftHalf_sideBySide]

/-- The right half: the second edge feature's projection times the source rows. -/
theorem msg_right : rightHalf (bMsg m ρ c) = msg (proj (aF2 m c) (aF2W1 m c) (aF2W2 m c)) (rows (bXsrc m ρ c)) := by
  rw [Region1.bMsg_eq, Region1.rightHalf_sideBySide]

end Cert.KernelIdeal.Legs

end
-- ==== Proof.KAgg.lean ====
/-
  The scatter-add between regions 1 and 2: one pass over the 256-wide messages, then the two column halves; column
  by column this is the sum of each half over the edges arriving at a node.
-/
import proofs.«416041_j69114613727529_2_alg».proof.Proof.KArgs
import Idealize.ShloMosaic.Lib.ValueLayout
import Idealize.ShloMosaic.Lib.IdealHost

noncomputable section

namespace Cert.KernelIdeal.Legs

open Idealize.ShloMosaic Idealize.ShloMosaic.TcCoe Idealize.ShloMosaic.ValueIdx Idealize.ShloMosaic.RowDims
open Idealize.SL.Sem
open Cert.KernelIdeal Cert.KernelIdeal.Gen Cert.Spec
open scoped BigOperators

namespace Agg

/-! ## The pieces of the stretch, each read at an index, over arrays of literal extents -/

/-- Row 1 of the `[2, E]` edge list, flattened to a vector, holds at `e` the destination word of edge `e`. -/
theorem flatRow1_apply (ei : I2 2 nE) (hs : (⟨2, ![2, nE]⟩ : Shape).Slices ![1, 0] ⟨2, ![1, nE]⟩)
    (hc : (⟨2, ![1, nE]⟩ : Shape).ShapeCasts ⟨1, ![nE]⟩) (e : Fin nE) :
    shapeCast ⟨1, ![nE]⟩ (extractStridedSlice ⟨2, ![1, nE]⟩ ![1, 0] ei hs) hc (ix1 e) = dstOf ei e := by
  rw [shapeCast_1a_a_apply]
  exact slice2_axis0_apply 1 ei hs (0 : Fin 1) e (1 : Fin 2) rfl

/-- A vector of words laid out as a one-column matrix holds at `(e, 0)` the word at `e`. -/
theorem column_apply (v : I1 nE) (h : (⟨1, ![nE]⟩ : Shape).BroadcastsInDim ⟨2, ![nE, 1]⟩ ![0]) (e : Fin nE) :
    broadcastInDim ⟨2, ![nE, 1]⟩ ![0] h v (ix2 e 0) = v (ix1 e) :=
  broadcastInDim_apply ![0] h v (ix2 e 0) (ix1 e) fun a => by
    match a with
    | ⟨0, _⟩ =>
      show e.val = if nE = 1 then 0 else e.val
      rw [if_neg (by decide)]

/-- On the extended reals the host's accumulating scatter is the exact sum, whatever the shapes. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The row scatter-add into the zero table: entry `(n, k)` is the sum of the update entries `(e, k)` over the rows
    `e` whose index word, read signed, is `n`. -/
theorem scatterZero_apply (wf : ScatterDims.WF ⟨2, ![nN, 256]⟩ ⟨2, ![nE, 1]⟩ ⟨2, ![nE, 256]⟩ [1] [0] [0] 1)
    (hz : (⟨0, ![]⟩ : Shape).BroadcastsInDim ⟨2, ![nN, 256]⟩ ![])
    (idx : IVec ⟨2, ![nE, 1]⟩ 32) (upd : M2 nE 256) (n : Fin nN) (k : Fin 256) :
    Host.scatterAdd (F := Ideal) (φ := .f32) (rowScatter nN 256 nE wf)
        (broadcastInDim ⟨2, ![nN, 256]⟩ ![] hz (constant (F := Ideal) ⟨0, ![]⟩ .f32 0x00000000#32)) idx upd (ix2 n k)
      = ∑ e : Fin nE, if (idx (ix2 e 0)).toInt = (n.val : Int) then upd (ix2 e k) else 0 := by
  rw [scatterAdd_ideal, rowScatterAdd_apply, broadcastInDim_scalar_apply, constant_apply, Ideal.ofBits_zero_f32, zero_add]

/-- The printed dimension numbers of the scatter are those of a row scatter-add. -/
theorem scatterDims_eq : scatter_S50000x256_S1000000x1_S1000000x256_1_0_0_1
    = rowScatter nN 256 nE scatter_S50000x256_S1000000x1_S1000000x256_1_0_0_1_wf := rfl

/-- The accumulated table: the messages `u` scattered by the words `v` into zeros. -/
abbrev tableOf (v : I1 nE) (u : M2 nE 256) : M2 nN 256 :=
  Host.scatterAdd (F := Ideal) scatter_S50000x256_S1000000x1_S1000000x256_1_0_0_1
    (broadcastInDim S50000x256 ![] bcast_S_S50000x256 (constant (F := Ideal) S_ .f32 0x00000000#32))
    (broadcastInDim S1000000x1 ![0] bcast_S1000000_S1000000x1_0 v) u

/-- Entry `(n, k)` of the table: column `k` of the messages summed over the edges whose word is `n`. -/
theorem tableOf_apply (v : I1 nE) (u : M2 nE 256) (n : Fin nN) (k : Fin 256) :
    tableOf v u (ix2 n k) = ∑ e : Fin nE, if (v (ix1 e)).toInt = (n.val : Int) then u (ix2 e k) else 0 := by
  unfold tableOf
  rw [scatterDims_eq, scatterZero_apply]
  refine Finset.sum_congr rfl fun e _ => ?_
  rw [column_apply]

/-! ## The two host stretches read, over any entry contents -/

/-- Before region 0 the host cuts row 1 out of the edge list and flattens it. -/
theorem stretch0_v3 (V : Valuation τ sig (Elt Ideal)) :
    (StableHlo.after hostOps0 V (Proc.devRef .tc main_v3) : I1 nE)
      = shapeCast S1000000 (extractStridedSlice S1x1000000 ![1, 0] (V (Proc.devRef .tc main_arg3))
          slices_S2x1000000_S1x1000000_1_0) shapeCasts_S1x1000000_S1000000 := by
  after_results <;> rfl

/-- Between regions 1 and 2 the first slice is the table's left 128 columns. -/
theorem stretch2_v24 (V : Valuation τ sig (Elt Ideal)) :
    (StableHlo.after hostOps2 V (Proc.devRef .tc main_v24) : M2 nN 128)
      = extractStridedSlice S50000x128 ![0, 0]
          (tableOf (V (Proc.devRef .tc main_v3)) (V (Proc.devRef .tc main_v20))) slices_S50000x256_S50000x128_0_0 := by
  after_results <;> rfl

/-- And the second slice its right 128 columns. -/
theorem stretch2_v25 (V : Valuation τ sig (Elt Ideal)) :
    (StableHlo.after hostOps2 V (Proc.devRef .tc main_v25) : M2 nN 128)
      = extractStridedSlice S50000x128 ![0, 128]
          (tableOf (V (Proc.devRef .tc main_v3)) (V (Proc.devRef .tc main_v20))) slices_S50000x256_S50000x128_0_128 := by
  after_results <;> rfl

variable (m : (ℓ : Loc nD τ sig) → Buf (Elt Ideal) ℓ) (ρ : Dev nD → PrngReg) (c : Dev nD)

/-! ## The destination words, from the launch to the scatter -/

/-- Before region 0 they are row 1 of the launch's edge list. -/
theorem dstW1 : (W1 (F := Ideal) m ρ c (dr main_v3) : I1 nE)
    = shapeCast S1000000 (extractStridedSlice S1x1000000 ![1, 0] (aEdges m c) slices_S2x1000000_S1x1000000_1_0)
        shapeCasts_S1x1000000_S1000000 :=
  stretch0_v3 (W0 (F := Ideal) m ρ c)

/-- Region 0 has no window on them. -/
theorem dstW2 : W2 (F := Ideal) m ρ c (dr main_v3) = W1 (F := Ideal) m ρ c (dr main_v3) :=
  W2_of_ne m ρ c main_v3 (by decide)

/-- The gather stretch writes them nowhere. -/
theorem dstW3 : W3 (F := Ideal) m ρ c (dr main_v3) = W2 (F := Ideal) m ρ c (dr main_v3) :=
  StableHlo.after_of_forall_not_mem (b := Proc.devRef .tc main_v3) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- Region 1 has no window on them. -/
theorem dstW4 : W4 (F := Ideal) m ρ c (dr main_v3) = W3 (F := Ideal) m ρ c (dr main_v3) :=
  W4_of_ne m ρ c main_v3 (by decide)

/-- When the scatter runs, the word at `e` is the destination of edge `e`. -/
theorem dstW4_apply (e : Fin nE) : (W4 (F := Ideal) m ρ c (dr main_v3) : I1 nE) (ix1 e) = dstOf (aEdges m c) e := by
  rw [dstW4, dstW3, dstW2, dstW1]
  exact flatRow1_apply (aEdges m c) _ _ e

/-! ## The table's two halves -/

/-- Entry `(n, k)` of the table the stretch builds: column `k` of the messages summed over the edges arriving at
    node `n`. -/
theorem table_apply (n : Fin nN) (k : Fin 256) :
    tableOf (W4 (F := Ideal) m ρ c (dr main_v3)) (bMsg m ρ c) (ix2 n k)
      = ∑ e : Fin nE, if (dstOf (aEdges m c) e).toInt = (n.val : Int) then bMsg m ρ c (ix2 e k) else 0 := by
  rw [tableOf_apply]
  refine Finset.sum_congr rfl fun e _ => ?_
  rw [dstW4_apply]

end Agg

open Agg

variable (m : (ℓ : Loc nD τ sig) → Buf (Elt Ideal) ℓ) (ρ : Dev nD → PrngReg) (c : Dev nD)

/-- The first aggregate: the left message half summed into destination nodes. -/
theorem agg1_value : rows (bAgg1 m ρ c) = agg (leftHalf (bMsg m ρ c)) (dstOf (aEdges m c)) := by
  funext n j
  refine (congrFun (stretch2_v24 (W4 (F := Ideal) m ρ c)) (ix2 n j)).trans ?_
  refine (slice2_axis1_apply 0 _ _ n j (Fin.castAdd 128 j) ?_).trans (table_apply m ρ c n _)
  show j.val = 0 + j.val
  rw [Nat.zero_add]

/-- The second aggregate: the right message half summed into destination nodes. -/
theorem agg2_value : rows (bAgg2 m ρ c) = agg (rightHalf (bMsg m ρ c)) (dstOf (aEdges m c)) := by
  funext n j
  refine (congrFun (stretch2_v25 (W4 (F := Ideal) m ρ c)) (ix2 n j)).trans ?_
  exact (slice2_axis1_apply 128 _ _ n j (Fin.natAdd 128 j) rfl).trans (table_apply m ρ c n _)

end Cert.KernelIdeal.Legs

end
-- ==== Proof.KRegion2Body.lean ====
/-
  Region 2's body at an entry. Every layer acts on one node's row at a time, so what the body stores at row `p` of its
  output block is a function `nodeRow` of row `p` of the three blocks it reads — the two aggregates' and the embedded
  features' — and of the weights. The body sees each weight as the host transposed it, `[in, out]`; read back as
  stored (`flip2`, `flip3`) it is the launch array.
-/
import proofs.«416041_j69114613727529_2_alg».proof.Proof.KArgs
import Idealize.ShloMosaic.Lib.ValueLayout

noncomputable section

open scoped BigOperators

namespace Cert.KernelIdeal.Legs

open Idealize.ShloMosaic Idealize.ShloMosaic.TcCoe Idealize.ShloMosaic.ValueIdx
open Idealize.SL.Sem
open Cert.KernelIdeal Cert.KernelIdeal.Gen Cert.Spec

/-- A weight the host stored transposed, read back as stored `[out, in]`. -/
def flip2 {a b : Nat} (x : M2 a b) : M2 b a := fun i => x (ix2 (i 1) (i 0))
/-- The same for a stack of weights, the last two axes exchanged. -/
def flip3 {n a b : Nat} (x : T3 n a b) : T3 n b a := fun i => x (ix3 (i 0) (i 2) (i 1))

/-- One node's row through a convolution branch: `Spec.conv` depends on the node's two rows only. -/
def convRow (Wrel : M2 128 128) (brel : V1 128) (Wroot Wl : M2 128 128) (bl : V1 128) (a h : Fin 128 → EReal) :
    Fin 128 → EReal :=
  fun j => swish (lin Wl bl (fun k => lin Wrel brel a k + dotW Wroot h k) j)
/-- One node's row through the join. -/
def joinRow (Wc : M2 128 256) (bc : V1 128) (h1 h2 h : Fin 128 → EReal) : Fin 128 → EReal :=
  fun j => ((∑ k : Fin 128, h1 k * Wc (ix2 j (Fin.castAdd 128 k)))
      + (∑ k : Fin 128, h2 k * Wc (ix2 j (Fin.natAdd 128 k)))) + bc (ix1 j) + h j
/-- One node's row through a gated residual layer. -/
def resRow (Ws : T3 3 128 128) (bs : M2 3 128) (i : Fin 3) (h : Fin 128 → EReal) : Fin 128 → EReal :=
  fun j => swish ((∑ k : Fin 128, h k * Ws (ix3 i j k)) + bs (ix2 i j)) + h j

/-- One node's row through the whole region: the two branches, the join, the three residual layers. -/
def nodeRow (W1r : M2 128 128) (b1r : V1 128) (W1o W1l : M2 128 128) (b1l : V1 128)
    (W2r : M2 128 128) (b2r : V1 128) (W2o W2l : M2 128 128) (b2l : V1 128)
    (Wc : M2 128 256) (bc : V1 128) (Ws : T3 3 128 128) (bs : M2 3 128) (a1 a2 h : Fin 128 → EReal) : Fin 128 → EReal :=
  resRow Ws bs 2 (resRow Ws bs 1 (resRow Ws bs 0
    (joinRow Wc bc (convRow W1r b1r W1o W1l b1l a1 h) (convRow W2r b2r W2o W2l b2l a2 h) h)))

/-! ## The body's layers at an entry

Every layer is a product of the block by a square weight into the zero accumulator, a bias row broadcast down the
block, and the gate; read at row `p`, column `q` each is the corresponding row function of `Spec` applied to row `p`.
The lemmas carry the row of each operand as a hypothesis, so that they compose along the body's dataflow. -/

namespace Region2Body

/-- The gate at an index. -/
theorem gate_apply {s : Shape} {φ : FTy} (V : FVec Ideal s φ) (i : s.Idx) : mulf V (logistic V) i = swish (V i) := rfl

/-- A product of a block by a [128,128] matrix into the zero accumulator, at an entry. -/
theorem mm_apply {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) :=
  RowDims.matmul_plain_zero_apply none a w p q

/-- The same with row `p` of the left operand and column `q` of the right one named. -/
theorem mm_row {φ₁ φ₂ : FTy} (a : FVec Ideal S5000x128 φ₁) (w : FVec Ideal S128x128 φ₂) (p : Fin 5000) (q : Fin 128)
    (ar R : Fin 128 → EReal) (ha : ∀ k, a (ix2 p k) = ar k) (hw : ∀ k, w (ix2 k q) = R k) :
    matmul dot_S5000x128_S128x128_S5000x128_1_0_0_1_n_n none a w (constant S5000x128 .f32 0x00000000#32) (ix2 p q)
      = ∑ k : Fin 128, ar k * R k :=
  (mm_apply a w p q).trans (Finset.sum_congr rfl fun k _ => by rw [ha k, hw k])

/-- A 128-vector laid as one row and broadcast down the block, at an entry. -/
theorem bias_apply (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ _ p q).trans (shapeCast_a_1a_apply b _ 0 q)

/-- A dense layer of the body at an entry: the product plus the broadcast bias is `lin` of the row. -/
theorem lin_row {φ₁ φ₂ : FTy} (a : FVec Ideal S5000x128 φ₁) (w : FVec Ideal S128x128 φ₂) (b : Vec Ideal S128 .f32)
    (W : M2 128 128) (p : Fin 5000) (ar : Fin 128 → EReal) (ha : ∀ k, a (ix2 p k) = ar k)
    (hw : ∀ k j, w (ix2 k j) = W (ix2 j k)) (q : Fin 128) :
    addf (matmul dot_S5000x128_S128x128_S5000x128_1_0_0_1_n_n none a w (constant S5000x128 .f32 0x00000000#32))
        (broadcastTo S5000x128 (shapeCast S1x128 b shapeCasts_S128_S1x128) broadcasts_S1x128_S5000x128) (ix2 p q)
      = lin W b ar q :=
  congrArg₂ (· + ·) (mm_row a w p q ar (fun k => W (ix2 q k)) ha (fun k => hw k q)) (bias_apply b p q)

/-- The bias-free product is `dotW` of the row. -/
theorem dot_row {φ₁ φ₂ : FTy} (a : FVec Ideal S5000x128 φ₁) (w : FVec Ideal S128x128 φ₂)
    (W : M2 128 128) (p : Fin 5000) (ar : Fin 128 → EReal) (ha : ∀ k, a (ix2 p k) = ar k)
    (hw : ∀ k j, w (ix2 k j) = W (ix2 j k)) (q : Fin 128) :
    matmul dot_S5000x128_S128x128_S5000x128_1_0_0_1_n_n none a w (constant S5000x128 .f32 0x00000000#32) (ix2 p q)
      = dotW W ar q :=
  mm_row a w p q ar (fun k => W (ix2 q k)) ha (fun k => hw k q)

/-- The first branch: the body's term is `convRow` of the two rows. -/
theorem pay5_row (v0 v6 : Vec Ideal S5000x128 .f32) (v9 v12 : Vec Ideal S128x128 .f32) (v16 : Vec Ideal S128 .f32)
    (v22 : Vec Ideal S128x128 .f32) (v27 : Vec Ideal S128 .f32) (p : Fin 5000) (ar hr : Fin 128 → EReal)
    (h0 : ∀ k, v0 (ix2 p k) = ar k) (h6 : ∀ k, v6 (ix2 p k) = hr k) (q : Fin 128) :
    k2_pay5 (F := Ideal) v0 v6 v9 v12 v16 v22 v27 (ix2 p q)
      = convRow (flip2 v9) v16 (flip2 v12) (flip2 v22) v27 ar hr q := by
  unfold k2_pay5 k2_pay4 k2_pay3 convRow
  dsimp only
  refine (gate_apply _ _).trans (congrArg swish ?_)
  refine lin_row _ _ v27 (flip2 v22) p _ (fun k => ?_) (fun k j => congrFun (shapeCast_self v22 _) (ix2 k j)) q
  refine congrArg₂ (· + ·)
    (lin_row _ _ v16 (flip2 v9) p ar (fun k => ?_) (fun k j => congrFun (shapeCast_self v9 _) (ix2 k j)) k)
    (dot_row _ _ (flip2 v12) p hr (fun k => ?_) (fun k j => congrFun (shapeCast_self v12 _) (ix2 k j)) k)
  · exact (congrFun (shapeCast_self v0 _) (ix2 p k)).trans (h0 k)
  · exact (congrFun (shapeCast_self v6 _) (ix2 p k)).trans (h6 k)

/-- The second branch and the join: the body's term is `joinRow` of the first branch's row, the second branch's row
    (`convRow` of the second aggregate's row and the features' row) and the features' row. The two halves of the
    transposed join weight are its rows `0 … 127` and `128 … 255`. -/
theorem pay8_row (v5 : FVec Ideal S5000x128 .bf16) (v7 : FVec Ideal S5000x128 .f32) (v8 : FVec Ideal S5000x128 .bf16)
    (v32 : FVec Ideal S5000x128 .f32) (v35 : FVec Ideal S128x128 .bf16) (v37 : FVec Ideal S128x128 .f32)
    (v40 : Vec Ideal S128 .f32) (v46 : Vec Ideal S128x128 .f32) (v51 : Vec Ideal S128 .f32) (v57 : Vec Ideal S256x128 .f32)
    (v67 : Vec Ideal S128 .f32) (W2r W2o : M2 128 128) (p : Fin 5000) (a2 hr h1 : Fin 128 → EReal)
    (h5 : ∀ k, v5 (ix2 p k) = a2 k) (h7 : ∀ k, v7 (ix2 p k) = hr k) (h8 : ∀ k, v8 (ix2 p k) = hr k)
    (h32 : ∀ k, v32 (ix2 p k) = h1 k) (h35 : ∀ k j, v35 (ix2 k j) = W2r (ix2 j k))
    (h37 : ∀ k j, v37 (ix2 k j) = W2o (ix2 j k)) (q : Fin 128) :
    k2_pay8 (F := Ideal) v5 v7 v8 v32 v35 v37 v40 v46 v51 v57 v67 (ix2 p q)
      = joinRow (flip2 v57) v67 h1 (convRow W2r v40 W2o (flip2 v46) v51 a2 hr) hr q := by
  unfold k2_pay8 joinRow
  refine congrArg₂ (· + ·) (congrArg₂ (· + ·) (congrArg₂ (· + ·) ?_ ?_) (bias_apply v67 p q)) (h7 q)
  · refine mm_row _ _ p q h1 _ h32 (fun k => ?_)
    exact (slice2_axis0_apply 0 _ _ k q (Fin.castAdd 128 k) (Nat.zero_add _).symm).trans
      (congrFun (shapeCast_self v57 _) _)
  · refine mm_row _ _ p q _ _ (fun k => ?_) (fun k => ?_)
    · unfold convRow
      refine (gate_apply _ _).trans (congrArg swish ?_)
      refine lin_row _ _ v51 (flip2 v46) p _ (fun k' => ?_) (fun k j => congrFun (shapeCast_self v46 _) (ix2 k j)) k
      exact congrArg₂ (· + ·) (lin_row _ _ v40 W2r p a2 h5 h35 k') (dot_row _ _ W2o p hr h8 h37 k')
    · exact (slice2_axis0_apply 128 _ _ k q (Fin.natAdd 128 k) rfl).trans (congrFun (shapeCast_self v57 _) _)

/-- The first residual layer's product: the joined row against slice 0 of the stacked transposed weights. -/
theorem pay9_row (v5 : FVec Ideal S5000x128 .bf16) (v7 : FVec Ideal S5000x128 .f32) (v8 : FVec Ideal S5000x128 .bf16)
    (v32 : FVec Ideal S5000x128 .f32) (v35 : FVec Ideal S128x128 .bf16) (v37 : FVec Ideal S128x128 .f32)
    (v40 : Vec Ideal S128 .f32) (v46 : Vec Ideal S128x128 .f32) (v51 : Vec Ideal S128 .f32) (v57 : Vec Ideal S256x128 .f32)
    (v67 : Vec Ideal S128 .f32) (v72 : Vec Ideal S1x128x128 .f32) (Ws : T3 3 128 128) (p : Fin 5000) (J : Fin 128 → EReal)
    (hJ : ∀ k, k2_pay8 (F := Ideal) v5 v7 v8 v32 v35 v37 v40 v46 v51 v57 v67 (ix2 p k) = J k)
    (hw : ∀ k j, v72 (ix3 (0 : Fin 1) k j) = Ws (ix3 0 j k)) (q : Fin 128) :
    k2_pay9 (F := Ideal) v5 v7 v8 v32 v35 v37 v40 v46 v51 v57 v67 v72 (ix2 p q)
      = ∑ k : Fin 128, J k * Ws (ix3 0 q k) := by
  unfold k2_pay9
  exact mm_row _ _ p q J _ hJ (fun k => (shapeCast_1ab_ab_apply v72 _ k q).trans (hw k q))

/-- The first residual layer's bias row, cast to a vector and back. -/
theorem pay10_eq (v75 : Vec Ideal S1x128 .f32) : k2_pay10 (F := Ideal) v75 = v75 := by
  unfold k2_pay10
  exact shapeCast_shapeCast v75 _ _

/-- One gated residual layer of the body over a slice `w` of the stacked transposed weights and a slice `b` of the
    stacked biases: at an entry it is `resRow` of the row, when `w`, `b` are slice `i`. -/
theorem res_row (h : FVec Ideal S5000x128 .f32) (w : Vec Ideal S1x128x128 .f32) (b : Vec Ideal S1x128 .f32)
    (Ws : T3 3 128 128) (bs : M2 3 128) (i : Fin 3) (p : Fin 5000) (hr : Fin 128 → EReal)
    (hh : ∀ k, h (ix2 p k) = hr k) (hw : ∀ k j, w (ix3 (0 : Fin 1) k j) = Ws (ix3 i j k))
    (hb : ∀ j, b (ix2 (0 : Fin 1) j) = bs (ix2 i j)) (q : Fin 128) :
    addf (mulf
        (addf (matmul dot_S5000x128_S128x128_S5000x128_1_0_0_1_n_n none (truncf .bf16 h bitsLt_bf16_f32)
            (truncf .bf16 (shapeCast S128x128 w shapeCasts_S1x128x128_S128x128) bitsLt_bf16_f32)
            (constant S5000x128 .f32 0x00000000#32))
          (broadcastTo S5000x128 (shapeCast S1x128 (shapeCast S128 b shapeCasts_S1x128_S128) shapeCasts_S128_S1x128)
            broadcasts_S1x128_S5000x128))
        (logistic
          (addf (matmul dot_S5000x128_S128x128_S5000x128_1_0_0_1_n_n none (truncf .bf16 h bitsLt_bf16_f32)
              (truncf .bf16 (shapeCast S128x128 w shapeCasts_S1x128x128_S128x128) bitsLt_bf16_f32)
              (constant S5000x128 .f32 0x00000000#32))
            (broadcastTo S5000x128 (shapeCast S1x128 (shapeCast S128 b shapeCasts_S1x128_S128) shapeCasts_S128_S1x128)
              broadcasts_S1x128_S5000x128)))) h (ix2 p q)
      = resRow Ws bs i hr q := by
  unfold resRow
  refine congrArg₂ (· + ·) ((gate_apply _ _).trans (congrArg swish ?_)) (hh q)
  refine congrArg₂ (· + ·) (mm_row _ _ p q hr _ hh (fun k => ?_)) ?_
  · exact (shapeCast_1ab_ab_apply w _ k q).trans (hw k q)
  · refine (broadcastTo_1b_ab_apply _ _ p q).trans ?_
    exact (congrFun (shapeCast_shapeCast b _ _) (ix2 (0 : Fin 1) q)).trans (hb q)

/-- The three residual layers: the first one's product and bias come in already formed. -/
theorem pay1_row (v71 v78 : FVec Ideal S5000x128 .f32) (v79 : FVec Ideal S1x128 .f32) (v85 : Vec Ideal S1x128x128 .f32)
    (v88 : Vec Ideal S1x128 .f32) (v98 : Vec Ideal S1x128x128 .f32) (v101 : Vec Ideal S1x128 .f32)
    (Ws : T3 3 128 128) (bs : M2 3 128) (p : Fin 5000) (J : Fin 128 → EReal)
    (h71 : ∀ k, v71 (ix2 p k) = J k) (h78 : ∀ j, v78 (ix2 p j) = ∑ k : Fin 128, J k * Ws (ix3 0 j k))
    (h79 : ∀ j, v79 (ix2 (0 : Fin 1) j) = bs (ix2 0 j))
    (h85 : ∀ k j, v85 (ix3 (0 : Fin 1) k j) = Ws (ix3 1 j k)) (h88 : ∀ j, v88 (ix2 (0 : Fin 1) j) = bs (ix2 1 j))
    (h98 : ∀ k j, v98 (ix3 (0 : Fin 1) k j) = Ws (ix3 2 j k)) (h101 : ∀ j, v101 (ix2 (0 : Fin 1) j) = bs (ix2 2 j))
    (q : Fin 128) :
    k2_pay1 (F := Ideal) v71 v78 v79 v85 v88 v98 v101 (ix2 p q)
      = resRow Ws bs 2 (resRow Ws bs 1 (resRow Ws bs 0 J)) q := by
  unfold k2_pay1
  refine res_row _ v98 v101 Ws bs 2 p _ (fun k => ?_) h98 h101 q
  refine res_row _ v85 v88 Ws bs 1 p _ (fun k => ?_) h85 h88 k
  unfold resRow
  refine congrArg₂ (· + ·) ((gate_apply _ _).trans (congrArg swish ?_)) (h71 k)
  exact congrArg₂ (· + ·) (h78 k) ((broadcastTo_1b_ab_apply v79 _ p k).trans (h79 k))

/-- Slice `o` of the stacked weights, loaded as a [1,128,128] block, at an entry. -/
theorem ld_slice3 (x : Vec Ideal S3x128x128 .f32) (o : Nat) (ho : o < 3)
    (inb : ∀ a, (![o, 0, 0] : Fin 3 → Nat) a + S1x128x128.size a ≤ S3x128x128.size a) (k j : Fin 128) :
    View.ld x (Rect.unit (s := S3x128x128) ![o, 0, 0] S1x128x128.size inb) (ix3 (0 : Fin 1) k j)
      = x (ix3 (⟨o, ho⟩ : Fin 3) k j) := by
  show x _ = x _
  refine congrArg x (funext fun a => Fin.ext ?_)
  match a with
  | ⟨0, _⟩ => show o + 1 * 0 = o; omega
  | ⟨1, _⟩ => show 0 + 1 * k.val = k.val; omega
  | ⟨2, _⟩ => show 0 + 1 * j.val = j.val; omega

/-- Slice `o` of the stacked biases, loaded as a [1,128] block, at an entry. -/
theorem ld_slice2 (x : Vec Ideal S3x128 .f32) (o : Nat) (ho : o < 3)
    (inb : ∀ a, (![o, 0] : Fin 2 → Nat) a + S1x128.size a ≤ S3x128.size a) (j : Fin 128) :
    View.ld x (Rect.unit (s := S3x128) ![o, 0] S1x128.size inb) (ix2 (0 : Fin 1) j) = x (ix2 (⟨o, ho⟩ : Fin 3) j) := by
  show x _ = x _
  refine congrArg x (funext fun a => Fin.ext ?_)
  match a with
  | ⟨0, _⟩ => show o + 1 * 0 = o; omega
  | ⟨1, _⟩ => show 0 + 1 * j.val = j.val; omega

end Region2Body

open Region2Body

/-- THE BODY AT AN ENTRY: what the body stores at row `p`, column `q` of its output block is `nodeRow` of row `p` of its
    three input blocks, with each weight block read back as stored. -/
theorem out2_17_apply (x0 x1 x2 : Vec Ideal S5000x128 .f32) (x3 : Vec Ideal S128x128 .f32) (x4 : Vec Ideal S128 .f32)
    (x5 x6 : Vec Ideal S128x128 .f32) (x7 : Vec Ideal S128 .f32) (x8 x9 : Vec Ideal S128x128 .f32) (x10 : Vec Ideal S128 .f32)
    (x11 : Vec Ideal S128x128 .f32) (x12 : Vec Ideal S128 .f32) (x13 : Vec Ideal S256x128 .f32) (x14 : Vec Ideal S128 .f32)
    (x15 : Vec Ideal S3x128x128 .f32) (x16 : Vec Ideal S3x128 .f32) (p : Fin 5000) (q : Fin 128) :
    out2_17 (F := Ideal) x0 x1 x2 x3 x4 x5 x6 x7 x8 x9 x10 x11 x12 x13 x14 x15 x16 (ix2 p q)
      = nodeRow (flip2 x3) x4 (flip2 x5) (flip2 x9) x10 (flip2 x6) x7 (flip2 x8) (flip2 x11) x12 (flip2 x13) x14
          (flip3 x15) x16 (fun k => x0 (ix2 p k)) (fun k => x1 (ix2 p k)) (fun k => x2 (ix2 p k)) q := by
  have hz : (![0, 0] : Fin 2 → Nat) = fun _ => 0 := by
    funext a; match a with | ⟨0, _⟩ => rfl | ⟨1, _⟩ => rfl
  have hz1 : (![0] : Fin 1 → Nat) = fun _ => 0 := by
    funext a; match a with | ⟨0, _⟩ => rfl
  -- the joined row, once: it feeds the first residual layer twice (its product and its skip)
  have hJ : ∀ k, k2_pay8 (F := Ideal) (k2_pay2 x1) (k2_pay3 x2) (k2_pay4 x2) (k2_pay5 x0 x2 x3 x5 x4 x9 x10) (k2_pay6 x6)
        (k2_pay7 x8) x7 x11 x12 x13 x14 (ix2 p k)
      = joinRow (flip2 x13) x14
          (convRow (flip2 x3) x4 (flip2 x5) (flip2 x9) x10 (fun k => x0 (ix2 p k)) (fun k => x2 (ix2 p k)))
          (convRow (flip2 x6) x7 (flip2 x8) (flip2 x11) x12 (fun k => x1 (ix2 p k)) (fun k => x2 (ix2 p k)))
          (fun k => x2 (ix2 p k)) k := fun k =>
    pay8_row _ _ _ _ _ _ x7 x11 x12 x13 x14 (flip2 x6) (flip2 x8) p _ _ _
      (fun k => congrFun (shapeCast_self x1 _) (ix2 p k)) (fun k => congrFun (shapeCast_self x2 _) (ix2 p k))
      (fun k => congrFun (shapeCast_self x2 _) (ix2 p k))
      (fun k => pay5_row x0 x2 x3 x5 x4 x9 x10 p _ _ (fun _ => rfl) (fun _ => rfl) k)
      (fun k j => congrFun (shapeCast_self x6 _) (ix2 k j)) (fun k j => congrFun (shapeCast_self x8 _) (ix2 k j)) k
  unfold out2_17
  rw [View.canon_unit_zero hz]
  simp only [View.ld_unit_zero (S := S5000x128) hz, View.ld_unit_zero (S := S128x128) hz,
    View.ld_unit_zero (S := S256x128) hz, View.ld_unit_zero (S := S128) hz1]
  unfold nodeRow
  refine pay1_row _ _ _ _ _ _ _ (flip3 x15) x16 p _ hJ (fun j => ?_) (fun j => ?_) (fun k j => ?_) (fun j => ?_)
    (fun k j => ?_) (fun j => ?_) q
  · exact pay9_row _ _ _ _ _ _ x7 x11 x12 x13 x14 _ (flip3 x15) p _ hJ (fun k j => ld_slice3 x15 0 (by omega) _ k j) j
  · exact (congrFun (pay10_eq _) _).trans (ld_slice2 x16 0 (by omega) _ j)
  · exact ld_slice3 x15 1 (by omega) _ k j
  · exact ld_slice2 x16 1 (by omega) _ j
  · exact ld_slice3 x15 2 (by omega) _ k j
  · exact ld_slice2 x16 2 (by omega) _ j

end Cert.KernelIdeal.Legs

end
-- ==== Proof.KRegion2.lean ====
/-
  Region 2: per block of nodes, the two convolution branches, their join with the skip connection, and the three
  gated residual layers.

  The body's value at an entry of a block is `nodeRow` of that row of the three node blocks it reads, the weight blocks
  read back as stored. Here: each block as rows of its array (a node array is cut into ten blocks of 5000 rows, a
  weight or bias is one block); the array the ten write-backs leave, for any contents the region finds; those contents
  for the weights and biases (the host's transposes of the launch arrays, and the launch arrays); and the node array
  after the region as the specification's layers.
-/
import proofs.«416041_j69114613727529_2_alg».proof.Proof.KArgs
import proofs.«416041_j69114613727529_2_alg».proof.Proof.KRegion2Body
import Idealize.ShloMosaic.Lib.ValueLayout

noncomputable section

open scoped BigOperators

namespace Cert.KernelIdeal.Legs

open Idealize.ShloMosaic Idealize.ShloMosaic.TcCoe Idealize.ShloMosaic.ValueIdx
open Idealize.SL.Sem
open Cert.KernelIdeal Cert.KernelIdeal.Gen Cert.Spec

/-- The specification's layers composed, at a node, are `nodeRow` of that node's rows. -/
theorem spec_rows (W1r : M2 128 128) (b1r : V1 128) (W1o W1l : M2 128 128) (b1l : V1 128)
    (W2r : M2 128 128) (b2r : V1 128) (W2o W2l : M2 128 128) (b2l : V1 128)
    (Wc : M2 128 256) (bc : V1 128) (Ws : T3 3 128 128) (bs : M2 3 128) (a1 a2 h : Rows nN) (n : Fin nN) (j : Fin 128) :
    res Ws bs 2 (res Ws bs 1 (res Ws bs 0 (join Wc bc (conv W1r b1r W1o W1l b1l a1 h) (conv W2r b2r W2o W2l b2l a2 h) h))) n j
      = nodeRow W1r b1r W1o W1l b1l W2r b2r W2o W2l b2l Wc bc Ws bs (a1 n) (a2 n) (h n) j := rfl

/-! ## The blocks the body reads, off the arrays as the region finds them

The three node arrays and the output are cut into ten blocks of 5000 rows, point `t` taking rows `5000 t … 5000 t + 4999`;
every weight and bias is one block, the whole array, at every point. -/

section Blocks

variable (V : (c : Dev nD) → (b : Ref sig .tc) → Buf (Elt Ideal) ((c : Thread nD τ).loc b)) (c : Dev nD)

/-- The block indices of the three row-blocked inputs and of the output: the point's number on the rows, zero on the
    columns. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_17.index t (0 : Fin 2) = t.val ∧ win2_17.index t (1 : Fin 2) = 0 :=
  (by decide +kernel : ∀ t : Fin grid2.N, _)

/-- The first aggregate's block at a point, at an entry: the array's entry in the point's rows. -/
theorem iblk2_0_apply (t : Fin cfg2.N) (p : Fin 5000) (k : Fin 128) (n : Fin 50000) (hn : n.val = t.val * 5000 + p.val) :
    (iblk2 V c 0 t : Vec Ideal S5000x128 .f32) (ix2 p k) = (V c main_v24 : M2 nN 128) (ix2 n k) := by
  obtain ⟨e0, e1, -⟩ := idx_rows t
  unfold iblk2
  rw [View.read_apply]
  show V c main_v24 _ = V c main_v24 _
  congr 1
  funext a
  apply Fin.ext
  match a with
  | ⟨0, _⟩ => show win2_0.index t 0 * 5000 + 1 * p.val = n.val; rw [e0, hn]; omega
  | ⟨1, _⟩ => show win2_0.index t 1 * 128 + 1 * k.val = k.val; rw [e1]; omega

/-- The second aggregate's, the same. -/
theorem iblk2_1_apply (t : Fin cfg2.N) (p : Fin 5000) (k : Fin 128) (n : Fin 50000) (hn : n.val = t.val * 5000 + p.val) :
    (iblk2 V c 1 t : Vec Ideal S5000x128 .f32) (ix2 p k) = (V c main_v25 : M2 nN 128) (ix2 n k) := by
  obtain ⟨-, -, e0, e1, -⟩ := idx_rows t
  unfold iblk2
  rw [View.read_apply]
  show V c main_v25 _ = V c main_v25 _
  congr 1
  funext a
  apply Fin.ext
  match a with
  | ⟨0, _⟩ => show win2_1.index t 0 * 5000 + 1 * p.val = n.val; rw [e0, hn]; omega
  | ⟨1, _⟩ => show win2_1.index t 1 * 128 + 1 * k.val = k.val; rw [e1]; omega

/-- The embedded features', the same. -/
theorem iblk2_2_apply (t : Fin cfg2.N) (p : Fin 5000) (k : Fin 128) (n : Fin 50000) (hn : n.val = t.val * 5000 + p.val) :
    (iblk2 V c 2 t : Vec Ideal S5000x128 .f32) (ix2 p k) = (V c main_v18 : M2 nN 128) (ix2 n k) := by
  obtain ⟨-, -, -, -, e0, e1, -⟩ := idx_rows t
  unfold iblk2
  rw [View.read_apply]
  show V c main_v18 _ = V c main_v18 _
  congr 1
  funext a
  apply Fin.ext
  match a with
  | ⟨0, _⟩ => show win2_2.index t 0 * 5000 + 1 * p.val = n.val; rw [e0, hn]; omega
  | ⟨1, _⟩ => show win2_2.index t 1 * 128 + 1 * k.val = k.val; rw [e1]; omega

/-- A weight's or bias's block index is zero on every axis, at every point. -/
theorem idx_w3 : ∀ t : Fin cfg2.N, ∀ a, win2_3.index t a = 0 :=
  (by decide +kernel : ∀ t : Fin grid2.N, ∀ a, win2_3.index t a = 0)
theorem idx_w4 : ∀ t : Fin cfg2.N, ∀ a, win2_4.index t a = 0 :=
  (by decide +kernel : ∀ t : Fin grid2.N, ∀ a, win2_4.index t a = 0)
theorem idx_w5 : ∀ t : Fin cfg2.N, ∀ a, win2_5.index t a = 0 :=
  (by decide +kernel : ∀ t : Fin grid2.N, ∀ a, win2_5.index t a = 0)
theorem idx_w6 : ∀ t : Fin cfg2.N, ∀ a, win2_6.index t a = 0 :=
  (by decide +kernel : ∀ t : Fin grid2.N, ∀ a, win2_6.index t a = 0)
theorem idx_w7 : ∀ t : Fin cfg2.N, ∀ a, win2_7.index t a = 0 :=
  (by decide +kernel : ∀ t : Fin grid2.N, ∀ a, win2_7.index t a = 0)
theorem idx_w8 : ∀ t : Fin cfg2.N, ∀ a, win2_8.index t a = 0 :=
  (by decide +kernel : ∀ t : Fin grid2.N, ∀ a, win2_8.index t a = 0)
theorem idx_w9 : ∀ t : Fin cfg2.N, ∀ a, win2_9.index t a = 0 :=
  (by decide +kernel : ∀ t : Fin grid2.N, ∀ a, win2_9.index t a = 0)
theorem idx_w10 : ∀ t : Fin cfg2.N, ∀ a, win2_10.index t a = 0 :=
  (by decide +kernel : ∀ t : Fin grid2.N, ∀ a, win2_10.index t a = 0)
theorem idx_w11 : ∀ t : Fin cfg2.N, ∀ a, win2_11.index t a = 0 :=
  (by decide +kernel : ∀ t : Fin grid2.N, ∀ a, win2_11.index t a = 0)
theorem idx_w12 : ∀ t : Fin cfg2.N, ∀ a, win2_12.index t a = 0 :=
  (by decide +kernel : ∀ t : Fin grid2.N, ∀ a, win2_12.index t a = 0)
theorem idx_w13 : ∀ t : Fin cfg2.N, ∀ a, win2_13.index t a = 0 :=
  (by decide +kernel : ∀ t : Fin grid2.N, ∀ a, win2_13.index t a = 0)
theorem idx_w14 : ∀ t : Fin cfg2.N, ∀ a, win2_14.index t a = 0 :=
  (by decide +kernel : ∀ t : Fin grid2.N, ∀ a, win2_14.index t a = 0)
theorem idx_w15 : ∀ t : Fin cfg2.N, ∀ a, win2_15.index t a = 0 :=
  (by decide +kernel : ∀ t : Fin grid2.N, ∀ a, win2_15.index t a = 0)
theorem idx_w16 : ∀ t : Fin cfg2.N, ∀ a, win2_16.index t a = 0 :=
  (by decide +kernel : ∀ t : Fin grid2.N, ∀ a, win2_16.index t a = 0)

/-- So its block is the whole array, as the region finds it: a block at zero offsets of the array's own sizes. -/
theorem iblk2_3 (t : Fin cfg2.N) : (iblk2 V c 3 t : Vec Ideal S128x128 .f32) = V c main_v9 :=
  Memref.read_access_unit_zero (Elt Ideal) main_v9 (off := fun a => win2_3.index t a * S128x128.size a)
    (funext fun a => by rw [idx_w3 t a, Nat.zero_mul]) (fun a => by rw [idx_w3 t a, Nat.zero_mul, Nat.zero_add]) (V c main_v9)
theorem iblk2_4 (t : Fin cfg2.N) : (iblk2 V c 4 t : Vec Ideal S128 .f32) = V c main_arg12 :=
  Memref.read_access_unit_zero (Elt Ideal) main_arg12 (off := fun a => win2_4.index t a * S128.size a)
    (funext fun a => by rw [idx_w4 t a, Nat.zero_mul]) (fun a => by rw [idx_w4 t a, Nat.zero_mul, Nat.zero_add]) (V c main_arg12)
theorem iblk2_5 (t : Fin cfg2.N) : (iblk2 V c 5 t : Vec Ideal S128x128 .f32) = V c main_v10 :=
  Memref.read_access_unit_zero (Elt Ideal) main_v10 (off := fun a => win2_5.index t a * S128x128.size a)
    (funext fun a => by rw [idx_w5 t a, Nat.zero_mul]) (fun a => by rw [idx_w5 t a, Nat.zero_mul, Nat.zero_add]) (V c main_v10)
theorem iblk2_6 (t : Fin cfg2.N) : (iblk2 V c 6 t : Vec Ideal S128x128 .f32) = V c main_v11 :=
  Memref.read_access_unit_zero (Elt Ideal) main_v11 (off := fun a => win2_6.index t a * S128x128.size a)
    (funext fun a => by rw [idx_w6 t a, Nat.zero_mul]) (fun a => by rw [idx_w6 t a, Nat.zero_mul, Nat.zero_add]) (V c main_v11)
theorem iblk2_7 (t : Fin cfg2.N) : (iblk2 V c 7 t : Vec Ideal S128 .f32) = V c main_arg15 :=
  Memref.read_access_unit_zero (Elt Ideal) main_arg15 (off := fun a => win2_7.index t a * S128.size a)
    (funext fun a => by rw [idx_w7 t a, Nat.zero_mul]) (fun a => by rw [idx_w7 t a, Nat.zero_mul, Nat.zero_add]) (V c main_arg15)
theorem iblk2_8 (t : Fin cfg2.N) : (iblk2 V c 8 t : Vec Ideal S128x128 .f32) = V c main_v12 :=
  Memref.read_access_unit_zero (Elt Ideal) main_v12 (off := fun a => win2_8.index t a * S128x128.size a)
    (funext fun a => by rw [idx_w8 t a, Nat.zero_mul]) (fun a => by rw [idx_w8 t a, Nat.zero_mul, Nat.zero_add]) (V c main_v12)
theorem iblk2_9 (t : Fin cfg2.N) : (iblk2 V c 9 t : Vec Ideal S128x128 .f32) = V c main_v13 :=
  Memref.read_access_unit_zero (Elt Ideal) main_v13 (off := fun a => win2_9.index t a * S128x128.size a)
    (funext fun a => by rw [idx_w9 t a, Nat.zero_mul]) (fun a => by rw [idx_w9 t a, Nat.zero_mul, Nat.zero_add]) (V c main_v13)
theorem iblk2_10 (t : Fin cfg2.N) : (iblk2 V c 10 t : Vec Ideal S128 .f32) = V c main_arg18 :=
  Memref.read_access_unit_zero (Elt Ideal) main_arg18 (off := fun a => win2_10.index t a * S128.size a)
    (funext fun a => by rw [idx_w10 t a, Nat.zero_mul]) (fun a => by rw [idx_w10 t a, Nat.zero_mul, Nat.zero_add]) (V c main_arg18)
theorem iblk2_11 (t : Fin cfg2.N) : (iblk2 V c 11 t : Vec Ideal S128x128 .f32) = V c main_v14 :=
  Memref.read_access_unit_zero (Elt Ideal) main_v14 (off := fun a => win2_11.index t a * S128x128.size a)
    (funext fun a => by rw [idx_w11 t a, Nat.zero_mul]) (fun a => by rw [idx_w11 t a, Nat.zero_mul, Nat.zero_add]) (V c main_v14)
theorem iblk2_12 (t : Fin cfg2.N) : (iblk2 V c 12 t : Vec Ideal S128 .f32) = V c main_arg20 :=
  Memref.read_access_unit_zero (Elt Ideal) main_arg20 (off := fun a => win2_12.index t a * S128.size a)
    (funext fun a => by rw [idx_w12 t a, Nat.zero_mul]) (fun a => by rw [idx_w12 t a, Nat.zero_mul, Nat.zero_add]) (V c main_arg20)
theorem iblk2_13 (t : Fin cfg2.N) : (iblk2 V c 13 t : Vec Ideal S256x128 .f32) = V c main_v15 :=
  Memref.read_access_unit_zero (Elt Ideal) main_v15 (off := fun a => win2_13.index t a * S256x128.size a)
    (funext fun a => by rw [idx_w13 t a, Nat.zero_mul]) (fun a => by rw [idx_w13 t a, Nat.zero_mul, Nat.zero_add]) (V c main_v15)
theorem iblk2_14 (t : Fin cfg2.N) : (iblk2 V c 14 t : Vec Ideal S128 .f32) = V c main_arg22 :=
  Memref.read_access_unit_zero (Elt Ideal) main_arg22 (off := fun a => win2_14.index t a * S128.size a)
    (funext fun a => by rw [idx_w14 t a, Nat.zero_mul]) (fun a => by rw [idx_w14 t a, Nat.zero_mul, Nat.zero_add]) (V c main_arg22)
theorem iblk2_15 (t : Fin cfg2.N) : (iblk2 V c 15 t : Vec Ideal S3x128x128 .f32) = V c main_v16 :=
  Memref.read_access_unit_zero (Elt Ideal) main_v16 (off := fun a => win2_15.index t a * S3x128x128.size a)
    (funext fun a => by rw [idx_w15 t a, Nat.zero_mul]) (fun a => by rw [idx_w15 t a, Nat.zero_mul, Nat.zero_add]) (V c main_v16)
theorem iblk2_16 (t : Fin cfg2.N) : (iblk2 V c 16 t : Vec Ideal S3x128 .f32) = V c main_arg27 :=
  Memref.read_access_unit_zero (Elt Ideal) main_arg27 (off := fun a => win2_16.index t a * S3x128.size a)
    (funext fun a => by rw [idx_w16 t a, Nat.zero_mul]) (fun a => by rw [idx_w16 t a, Nat.zero_mul, Nat.zero_add]) (V c main_arg27)

/-- The array the region leaves, from the contents `V` it finds: at node `n`, `nodeRow` of the three arrays' rows at
    `n`, each transposed weight read back as stored. -/
def Gv : S50000x128.Idx → EReal := fun i =>
  nodeRow (flip2 (V c main_v9 : M2 128 128)) (V c main_arg12 : V1 128) (flip2 (V c main_v10 : M2 128 128))
    (flip2 (V c main_v13 : M2 128 128)) (V c main_arg18 : V1 128)
    (flip2 (V c main_v11 : M2 128 128)) (V c main_arg15 : V1 128) (flip2 (V c main_v12 : M2 128 128))
    (flip2 (V c main_v14 : M2 128 128)) (V c main_arg20 : V1 128)
    (flip2 (V c main_v15 : M2 256 128)) (V c main_arg22 : V1 128) (flip3 (V c main_v16 : T3 3 128 128)) (V c main_arg27 : M2 3 128)
    (fun k => (V c main_v24 : M2 nN 128) (ix2 (i 0) k)) (fun k => (V c main_v25 : M2 nN 128) (ix2 (i 0) k))
    (fun k => (V c main_v18 : M2 nN 128) (ix2 (i 0) k)) (i 1)

/-- What point `t` writes back is block `t` of that array. -/
theorem flushed2_eq (t : Fin cfg2.N) :
    (dat2 V c).flushed 17 t = ((cfg2.win 17).blk t).view.read (Elt Ideal) (Gv V c) := by
  show (cfg2.win 17).cut (grid2.coords t) ((dat2 V c).after 17 t) = _
  rw [after2_17]
  funext y
  obtain ⟨p, q, rfl⟩ : ∃ (p : Fin 5000) (q : Fin 128), y = ix2 p q := ⟨y 0, y 1, eq_ix2 y⟩
  have hN : cfg2.N = 10 := N_2
  have ht : t.val < 10 := hN ▸ t.isLt
  -- the row of the array that row p of the point's block is
  let n : Fin 50000 := ⟨t.val * 5000 + p.val, by have := p.isLt; omega⟩
  obtain ⟨-, -, -, -, -, -, e0, e1⟩ := idx_rows t
  have he : ((cfg2.win 17).blk t).view.emb (ix2 p q) = (ix2 n q : S50000x128.Idx) := by
    funext a
    apply Fin.ext
    match a with
    | ⟨0, _⟩ => show win2_17.index t 0 * 5000 + 1 * p.val = t.val * 5000 + p.val; rw [e0]; omega
    | ⟨1, _⟩ => show win2_17.index t 1 * 128 + 1 * q.val = q.val; rw [e1]; omega
  rw [View.read_apply, he]
  refine (out2_17_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) (iblk2 V c 11 t) (iblk2 V c 12 t)
    (iblk2 V c 13 t) (iblk2 V c 14 t) (iblk2 V c 15 t) (iblk2 V c 16 t) p q).trans ?_
  rw [iblk2_3 V c t, iblk2_4 V c t, iblk2_5 V c t, iblk2_6 V c t, iblk2_7 V c t, iblk2_8 V c t, iblk2_9 V c t,
    iblk2_10 V c t, iblk2_11 V c t, iblk2_12 V c t, iblk2_13 V c t, iblk2_14 V c t, iblk2_15 V c t, iblk2_16 V c t]
  have h0 : (fun k => (iblk2 V c 0 t : Vec Ideal S5000x128 .f32) (ix2 p k)) = fun k => (V c main_v24 : M2 nN 128) (ix2 n k) :=
    funext fun k => iblk2_0_apply V c t p k n rfl
  have h1 : (fun k => (iblk2 V c 1 t : Vec Ideal S5000x128 .f32) (ix2 p k)) = fun k => (V c main_v25 : M2 nN 128) (ix2 n k) :=
    funext fun k => iblk2_1_apply V c t p k n rfl
  have h2 : (fun k => (iblk2 V c 2 t : Vec Ideal S5000x128 .f32) (ix2 p k)) = fun k => (V c main_v18 : M2 nN 128) (ix2 n k) :=
    funext fun k => iblk2_2_apply V c t p k n rfl
  rw [h0, h1, h2]
  rfl

/-- An index of the array is in point `t`'s block iff each coordinate is in the block's range on its axis. -/
theorem mem_blk17 (t : Fin cfg2.N) (i : S50000x128.Idx) :
    i ∈ ((cfg2.win 17).blk t).view.set ↔ ∀ a : Fin 2, win2_17.index t a * S5000x128.size a ≤ (i a).val
      ∧ (i a).val < win2_17.index t a * S5000x128.size a + S5000x128.size a := by
  show i ∈ ((View.whole main_v26).slice (win2_17.rect t)).set ↔ _
  rw [View.set_slice_whole, Rect.mem_set_unit]
  exact Iff.rfl

/-- Row `r` of the array lies in the block of point `r / 5000`, which is written back. -/
theorem cover17 (i : S50000x128.Idx) :
    ∃ t : Fin cfg2.N, (cfg2.win 17).flush t = true ∧ i ∈ ((cfg2.win 17).blk t).view.set := by
  have hi0 : (i 0).val < 50000 := (i 0).isLt
  have hi1 : (i 1).val < 128 := (i 1).isLt
  have hN : cfg2.N = 10 := N_2
  have hlt : (i 0).val / 5000 < cfg2.N := by rw [hN]; omega
  refine ⟨⟨(i 0).val / 5000, hlt⟩, flush2_17 _, ?_⟩
  rw [mem_blk17]
  obtain ⟨-, -, -, -, -, -, e0, e1⟩ := idx_rows ⟨(i 0).val / 5000, hlt⟩
  intro a
  match a with
  | ⟨0, _⟩ =>
    show win2_17.index ⟨(i 0).val / 5000, hlt⟩ 0 * 5000 ≤ (i 0).val
      ∧ (i 0).val < win2_17.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win2_17.index ⟨(i 0).val / 5000, hlt⟩ 1 * 128 ≤ (i 1).val
      ∧ (i 1).val < win2_17.index ⟨(i 0).val / 5000, hlt⟩ 1 * 128 + 128
    rw [e1]; omega

/-- The output array after the region: the ten blocks tile it. -/
theorem arr17 : (dat2 V c).arrAt 17 cfg2.N = Gv V c :=
  (dat2 V c).arrAt_eq_of_cover 17 (Gv V c) (fun t _ => flushed2_eq V c t) cover17

end Blocks

/-! ## The arrays as region 2 finds them

Before region 2 the host writes the transposed weights (once, before region 0), the gathered rows, the scattered
aggregates and their temporaries; regions 0 and 1 write their own outputs. A transposed weight is therefore still the
transpose of the launch array, and a bias is the launch array itself. -/

section Entry

variable (m : (ℓ : Loc nD τ sig) → Buf (Elt Ideal) ℓ) (ρ : Dev nD → PrngReg) (c : Dev nD)

/-- The buffers the host operations before region 0 write. -/
abbrev wl0 : List (Ref sig .tc) := [main_v0, main_v1, main_v2, main_v3, main_v4, main_v5, main_v6, main_v7, main_v8, main_v9, main_v10, main_v11, main_v12, main_v13, main_v14, main_v15, main_v16, main_v17]
/-- The buffers the host operations between regions 0 and 1 write. -/
abbrev wl1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v19]
/-- The buffers the host operations between regions 1 and 2 write. -/
abbrev wl2 : List (Ref sig .tc) := [main_cst, main_v21, main_v22, main_v23, main_v24, main_v25]

theorem wr0 : (hostOps0 : List (HloOp τ sig (Elt Ideal))).Forall fun op =>
    op.writes ⊆ (wl0.map (Proc.devRef (τ := τ) .tc)).toFinset := by
  simp only [hostOps0, wl0, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

theorem wr1 : (hostOps1 : List (HloOp τ sig (Elt Ideal))).Forall fun op =>
    op.writes ⊆ (wl1.map (Proc.devRef (τ := τ) .tc)).toFinset := by
  simp only [hostOps1, wl1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

theorem wr2 : (hostOps2 : List (HloOp τ sig (Elt Ideal))).Forall fun op =>
    op.writes ⊆ (wl2.map (Proc.devRef (τ := τ) .tc)).toFinset := by
  simp only [hostOps2, wl2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer that neither the host operations after region 0 nor regions 0 and 1 write holds at region 2's entry what it
    held at region 0's. -/
theorem W5_eq_W1 (b : Ref sig .tc) (h2 : b ∉ wl2) (h1a : ∀ w, Pipeline.arrRef spec1 w ≠ b) (h1 : b ∉ wl1)
    (h0a : ∀ w, Pipeline.arrRef spec0 w ≠ b) :
    W5 (F := Ideal) m ρ c (Proc.devRef .tc b) = W1 m ρ c (Proc.devRef .tc b) :=
  (StableHlo.after_of_writes_sub hostOps2 _ wr2 h2).trans <|
    (W4_of_ne m ρ c b h1a).trans <|
      (StableHlo.after_of_writes_sub hostOps1 _ wr1 h1).trans (W2_of_ne m ρ c b h0a)

/-- A launch array that nothing writes before region 2 is there as launched. -/
theorem W5_arg (b : Ref sig .tc) (h2 : b ∉ wl2) (h1a : ∀ w, Pipeline.arrRef spec1 w ≠ b) (h1 : b ∉ wl1)
    (h0a : ∀ w, Pipeline.arrRef spec0 w ≠ b) (h0 : b ∉ wl0) :
    W5 (F := Ideal) m ρ c (Proc.devRef .tc b) = m ((c : Thread nD τ).loc b) :=
  (W5_eq_W1 m ρ c b h2 h1a h1 h0a).trans (StableHlo.after_of_writes_sub hostOps0 _ wr0 h0)

/-- The six biases are the launch arrays. -/
theorem V5_c1rB : (V5 m ρ c main_arg12 : V1 128) = aC1rB m c :=
  W5_arg m ρ c main_arg12 (by decide) (by decide) (by decide) (by decide) (by decide)
theorem V5_c2rB : (V5 m ρ c main_arg15 : V1 128) = aC2rB m c :=
  W5_arg m ρ c main_arg15 (by decide) (by decide) (by decide) (by decide) (by decide)
theorem V5_l1B : (V5 m ρ c main_arg18 : V1 128) = aL1B m c :=
  W5_arg m ρ c main_arg18 (by decide) (by decide) (by decide) (by decide) (by decide)
theorem V5_l2B : (V5 m ρ c main_arg20 : V1 128) = aL2B m c :=
  W5_arg m ρ c main_arg20 (by decide) (by decide) (by decide) (by decide) (by decide)
theorem V5_catB : (V5 m ρ c main_arg22 : V1 128) = aCatB m c :=
  W5_arg m ρ c main_arg22 (by decide) (by decide) (by decide) (by decide) (by decide)
theorem V5_linsB : (V5 m ρ c main_arg27 : M2 3 128) = aLinsB m c :=
  W5_arg m ρ c main_arg27 (by decide) (by decide) (by decide) (by decide) (by decide)

/-- The eight weights are the launch arrays transposed. -/
theorem V5_c1rWt : (V5 m ρ c main_v9 : M2 128 128)
    = transpose S128x128 [1, 0] (aC1rW m c) transposes_S128x128_S128x128_1_0 :=
  (W5_eq_W1 m ρ c main_v9 (by decide) (by decide) (by decide) (by decide)).trans (by
    show StableHlo.after hostOps0 (W0 m ρ c) (Proc.devRef .tc main_v9) = _
    after_results)
theorem V5_c1oWt : (V5 m ρ c main_v10 : M2 128 128)
    = transpose S128x128 [1, 0] (aC1oW m c) transposes_S128x128_S128x128_1_0 :=
  (W5_eq_W1 m ρ c main_v10 (by decide) (by decide) (by decide) (by decide)).trans (by
    show StableHlo.after hostOps0 (W0 m ρ c) (Proc.devRef .tc main_v10) = _
    after_results)
theorem V5_c2rWt : (V5 m ρ c main_v11 : M2 128 128)
    = transpose S128x128 [1, 0] (aC2rW m c) transposes_S128x128_S128x128_1_0 :=
  (W5_eq_W1 m ρ c main_v11 (by decide) (by decide) (by decide) (by decide)).trans (by
    show StableHlo.after hostOps0 (W0 m ρ c) (Proc.devRef .tc main_v11) = _
    after_results)
theorem V5_c2oWt : (V5 m ρ c main_v12 : M2 128 128)
    = transpose S128x128 [1, 0] (aC2oW m c) transposes_S128x128_S128x128_1_0 :=
  (W5_eq_W1 m ρ c main_v12 (by decide) (by decide) (by decide) (by decide)).trans (by
    show StableHlo.after hostOps0 (W0 m ρ c) (Proc.devRef .tc main_v12) = _
    after_results)
theorem V5_l1Wt : (V5 m ρ c main_v13 : M2 128 128)
    = transpose S128x128 [1, 0] (aL1W m c) transposes_S128x128_S128x128_1_0 :=
  (W5_eq_W1 m ρ c main_v13 (by decide) (by decide) (by decide) (by decide)).trans (by
    show StableHlo.after hostOps0 (W0 m ρ c) (Proc.devRef .tc main_v13) = _
    after_results)
theorem V5_l2Wt : (V5 m ρ c main_v14 : M2 128 128)
    = transpose S128x128 [1, 0] (aL2W m c) transposes_S128x128_S128x128_1_0 :=
  (W5_eq_W1 m ρ c main_v14 (by decide) (by decide) (by decide) (by decide)).trans (by
    show StableHlo.after hostOps0 (W0 m ρ c) (Proc.devRef .tc main_v14) = _
    after_results)
theorem V5_catWt : (V5 m ρ c main_v15 : M2 256 128)
    = transpose S256x128 [1, 0] (aCatW m c) transposes_S128x256_S256x128_1_0 :=
  (W5_eq_W1 m ρ c main_v15 (by decide) (by decide) (by decide) (by decide)).trans (by
    show StableHlo.after hostOps0 (W0 m ρ c) (Proc.devRef .tc main_v15) = _
    after_results)
theorem V5_linsWt : (V5 m ρ c main_v16 : T3 3 128 128)
    = transpose S3x128x128 [0, 2, 1] (aLinsW m c) transposes_S3x128x128_S3x128x128_0_2_1 :=
  (W5_eq_W1 m ρ c main_v16 (by decide) (by decide) (by decide) (by decide)).trans (by
    show StableHlo.after hostOps0 (W0 m ρ c) (Proc.devRef .tc main_v16) = _
    after_results)

/-- A matrix transposed, read back as stored, is the matrix. -/
theorem flip2_transpose {a b : Nat} (W : M2 a b) (h : (⟨2, ![a, b]⟩ : Shape).Transposes [1, 0] ⟨2, ![b, a]⟩) :
    flip2 (transpose ⟨2, ![b, a]⟩ [1, 0] W h : M2 b a) = W := by
  funext i
  obtain ⟨j, k, rfl⟩ : ∃ (j : Fin a) (k : Fin b), i = ix2 j k := ⟨i 0, i 1, eq_ix2 i⟩
  exact transpose_ix2_apply W h k j

/-- A stack of matrices, each transposed, read back as stored, is the stack. -/
theorem flip3_transpose {n a b : Nat} (W : T3 n a b) (h : (⟨3, ![n, a, b]⟩ : Shape).Transposes [0, 2, 1] ⟨3, ![n, b, a]⟩) :
    flip3 (transpose ⟨3, ![n, b, a]⟩ [0, 2, 1] W h : T3 n b a) = W := by
  funext i
  obtain ⟨l, j, k, rfl⟩ : ∃ (l : Fin n) (j : Fin a) (k : Fin b), i = ix3 l j k := ⟨i 0, i 1, i 2, eq_ix3 i⟩
  exact transpose_ix3_021_apply W h l k j

/-- So each weight block, read back as stored, is the launch array. -/
theorem flip_c1rW : flip2 (V5 m ρ c main_v9 : M2 128 128) = aC1rW m c := by
  rw [V5_c1rWt]; exact flip2_transpose _ _
theorem flip_c1oW : flip2 (V5 m ρ c main_v10 : M2 128 128) = aC1oW m c := by
  rw [V5_c1oWt]; exact flip2_transpose _ _
theorem flip_c2rW : flip2 (V5 m ρ c main_v11 : M2 128 128) = aC2rW m c := by
  rw [V5_c2rWt]; exact flip2_transpose _ _
theorem flip_c2oW : flip2 (V5 m ρ c main_v12 : M2 128 128) = aC2oW m c := by
  rw [V5_c2oWt]; exact flip2_transpose _ _
theorem flip_l1W : flip2 (V5 m ρ c main_v13 : M2 128 128) = aL1W m c := by
  rw [V5_l1Wt]; exact flip2_transpose _ _
theorem flip_l2W : flip2 (V5 m ρ c main_v14 : M2 128 128) = aL2W m c := by
  rw [V5_l2Wt]; exact flip2_transpose _ _
theorem flip_catW : flip2 (V5 m ρ c main_v15 : M2 256 128) = aCatW m c := by
  rw [V5_catWt]; exact flip2_transpose _ _
theorem flip_linsW : flip3 (V5 m ρ c main_v16 : T3 3 128 128) = aLinsW m c := by
  rw [V5_linsWt]; exact flip3_transpose _ _

end Entry

/-! ## The node array after region 2 -/

section Value

variable (m : (ℓ : Loc nD τ sig) → Buf (Elt Ideal) ℓ) (ρ : Dev nD → PrngReg) (c : Dev nD)

/-- The node array after region 2 is what the ten write-backs leave, from the contents region 2 finds. -/
theorem bH_eq : (bH m ρ c : M2 nN 128) = Gv (V5 m ρ) c :=
  (W6_arr m ρ c 17).trans (arr17 (V5 m ρ) c)

/-- The node array after region 2, from the two aggregates and the embedded features as the region finds them. -/
theorem h_value : rows (bH m ρ c) =
    res (aLinsW m c) (aLinsB m c) 2 (res (aLinsW m c) (aLinsB m c) 1 (res (aLinsW m c) (aLinsB m c) 0
      (join (aCatW m c) (aCatB m c)
        (conv (aC1rW m c) (aC1rB m c) (aC1oW m c) (aL1W m c) (aL1B m c) (rows (bAgg1 m ρ c)) (rows (bX0' m ρ c)))
        (conv (aC2rW m c) (aC2rB m c) (aC2oW m c) (aL2W m c) (aL2B m c) (rows (bAgg2 m ρ c)) (rows (bX0' m ρ c)))
        (rows (bX0' m ρ c))))) := by
  funext n j
  rw [spec_rows]
  show (bH m ρ c : M2 nN 128) (ix2 n j) = _
  rw [bH_eq m ρ c]
  unfold Gv
  rw [flip_c1rW m ρ c, flip_c1oW m ρ c, flip_c2rW m ρ c, flip_c2oW m ρ c, flip_l1W m ρ c, flip_l2W m ρ c, flip_catW m ρ c,
    flip_linsW m ρ c, V5_c1rB m ρ c, V5_c2rB m ρ c, V5_l1B m ρ c, V5_l2B m ρ c, V5_catB m ρ c, V5_linsB m ρ c]
  rfl

end Value

end Cert.KernelIdeal.Legs

end
-- ==== Proof.KStats.lean ====
/-
  The graph statistics between regions 2 and 3: node counts, the per-graph averages of `h` and of `h²` in one
  pass over their concatenation, the variance recovered from the two, and both gathered back to the nodes; with
  every batch index a graph the bounds masks never select the fill value.
-/
import proofs.«416041_j69114613727529_2_alg».proof.Proof.KArgs
import Idealize.ShloMosaic.Lib.IdealHost
import Idealize.ShloMosaic.Lib.ValueIdxRank1
import Idealize.ShloMosaic.Lib.Pipeline.Value

noncomputable section

open scoped BigOperators

namespace Cert.KernelIdeal.Legs.Stats

open Idealize.ShloMosaic Idealize.ShloMosaic.TcCoe Idealize.ShloMosaic.ValueIdx Idealize.ShloMosaic.RowDims
open Idealize.SL.Sem
open Cert.KernelIdeal Cert.KernelIdeal.Gen Cert.Spec

/-! ## A scatter-add into a vector -/

/-- The dimension numbers of `x.at[idx].add(u)` for a table `[N]`, scatter indices `[R, 1]` and updates `[R]`. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The update entry `r` reads its one start-index component at `(r, 0)` of the scatter indices. -/
theorem vecScatter_siIdx {N R : Nat} (wf : ScatterDims.WF ⟨1, ![N]⟩ ⟨2, ![R, 1]⟩ ⟨1, ![R]⟩ [] [0] [0] 1) (r : Fin R) :
    (vecScatter N R wf).siIdx (ix1 r) ⟨List.idxOf (0 : Fin 1) (vecScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's one axis the window starts at the scatter index of the update's entry, read signed. -/
theorem vecScatter_start {N R w : Nat} (wf : ScatterDims.WF ⟨1, ![N]⟩ ⟨2, ![R, 1]⟩ ⟨1, ![R]⟩ [] [0] [0] 1)
    (idx : IVec ⟨2, ![R, 1]⟩ w) (r : Fin R) :
    (vecScatter N R wf).start (ix1 r) idx 0 = (idx (ix2 r 0)).toInt := by
  unfold ScatterDims.start
  rw [dif_pos (show (0 : Fin 1) ∈ (vecScatter N R wf).scatterDimsToOperandDims from List.mem_singleton.mpr rfl),
    vecScatter_siIdx wf r]

/-- The table's one axis is an inserted axis: its window coordinate is `0`. -/
theorem vecScatter_window {N R : Nat} (wf : ScatterDims.WF ⟨1, ![N]⟩ ⟨2, ![R, 1]⟩ ⟨1, ![R]⟩ [] [0] [0] 1) (r : Fin R) :
    (vecScatter N R wf).window (ix1 r) 0 = 0 := rfl

/-- Update entry `r` lands on table entry `a` exactly when its start index, read signed, is `a`. -/
theorem vecScatter_resultIdx?_eq_some_iff {N R w : Nat}
    (wf : ScatterDims.WF ⟨1, ![N]⟩ ⟨2, ![R, 1]⟩ ⟨1, ![R]⟩ [] [0] [0] 1)
    (idx : IVec ⟨2, ![R, 1]⟩ w) (r : Fin R) (a : Fin N) :
    (vecScatter N R wf).resultIdx? (ix1 r) idx = some (ix1 a) ↔ (idx (ix2 r 0)).toInt = (a.val : Int) := by
  have hs0 := vecScatter_start wf idx r
  have hw0 := vecScatter_window wf r
  unfold ScatterDims.resultIdx?
  constructor
  · -- landed at a: the window is inside the table, and its coordinate is a
    intro h
    split at h
    · rename_i hin
      have hf := Option.some.inj h
      have e0 := congrArg (fun f => (f 0).val) hf
      simp only [hs0, hw0] at e0
      have h0 := hin 0
      rw [hs0, hw0] at h0
      have ea : ((ix1 a : (⟨1, ![N]⟩ : Shape).Idx) 0).val = a.val := rfl
      rw [ea] at e0
      omega
    · exact absurd h (by simp)
  · -- the start index is an entry of the table: the window is inside, at a
    intro hv
    have hin : ∀ a' : Fin 1, 0 ≤ (vecScatter N R wf).start (ix1 r) idx a' + (vecScatter N R wf).window (ix1 r) a'
        ∧ (vecScatter N R wf).start (ix1 r) idx a' + (vecScatter N R wf).window (ix1 r) a' < (⟨1, ![N]⟩ : Shape).size a' := by
      intro a'
      match a' with
      | ⟨0, _⟩ =>
        show 0 ≤ (vecScatter N R wf).start (ix1 r) idx 0 + (vecScatter N R wf).window (ix1 r) 0
          ∧ (vecScatter N R wf).start (ix1 r) idx 0 + (vecScatter N R wf).window (ix1 r) 0 < (N : Int)
        rw [hs0, hw0, hv]; have := a.isLt; constructor <;> omega
    rw [dif_pos hin]
    congr 1
    funext a'
    refine Fin.ext ?_
    match a' with
    | ⟨0, _⟩ =>
      show ((vecScatter N R wf).start (ix1 r) idx 0 + (vecScatter N R wf).window (ix1 r) 0).toNat = a.val
      rw [hs0, hw0, hv]; omega

/-- The accumulated vector at `a`: the table's entry plus the updates' entries over the positions whose start
    index is `a`. -/
theorem vecScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (a : Fin N) :
    Ideal.hostScatterAdd (vecScatter N R wf) x idx upd (ix1 a)
      = x (ix1 a) + ∑ r : Fin R, if (idx (ix2 r 0)).toInt = (a.val : Int) then upd (ix1 r) else 0 := by
  unfold Ideal.hostScatterAdd
  congr 1
  -- the sum over the update entries that land on a, as a sum over their positions
  rw [Finset.sum_filter, ← Equiv.sum_comp (idxEquiv1 (n := R)).symm]
  refine Finset.sum_congr rfl fun r _ => ?_
  show (if (vecScatter N R wf).resultIdx? (ix1 r) idx = some (ix1 a) then upd (ix1 r) else 0) = _
  simp only [vecScatter_resultIdx?_eq_some_iff]

/-! ## Words as extended reals -/

/-- The f32 pattern `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-! ## The layout operations of the stretch, each read at an entry -/

/-- A vector as a column reads, at `(r, 0)`, the vector at `r`. -/
theorem col_apply {α : Type} (h : S50000.BroadcastsInDim S50000x1 ![0]) (v : S50000.Idx → α) (r : Fin 50000) :
    broadcastInDim S50000x1 ![0] h v (ix2 r 0) = v (ix1 r) :=
  broadcastInDim_apply _ h v _ (ix1 r) fun a => by match a with | ⟨0, _⟩ => rfl

/-- A vector laid along the rows of a rectangle (`[n] → [n, 1] → [n, k]`) reads, at `(g, q)`, the vector at `g`. -/
theorem rowsBcast_apply {α : Type} (h₁ : S512.BroadcastsInDim S512x1 ![0]) (h₂ : S512x1.BroadcastsInDim S512x256 ![0, 1])
    (v : S512.Idx → α) (g : Fin 512) (q : Fin 256) :
    broadcastInDim S512x256 ![0, 1] h₂ (broadcastInDim S512x1 ![0] h₁ v) (ix2 g q) = v (ix1 g) :=
  (broadcastInDim_apply _ h₂ _ _ (ix2 g (0 : Fin 1)) fun a => by match a with | ⟨0, _⟩ => rfl | ⟨1, _⟩ => rfl).trans
    (broadcastInDim_apply _ h₁ v _ (ix1 g) fun a => by match a with | ⟨0, _⟩ => rfl)

/-- A vector laid along the columns of a rectangle (`[k] → [1, k] → [n, k]`) reads, at `(g, j)`, the vector at `j`. -/
theorem colsBcast_apply {α : Type} (h₁ : S128.BroadcastsInDim S1x128 ![1]) (h₂ : S1x128.BroadcastsInDim S512x128 ![0, 1])
    (v : S128.Idx → α) (g : Fin 512) (j : Fin 128) :
    broadcastInDim S512x128 ![0, 1] h₂ (broadcastInDim S1x128 ![1] h₁ v) (ix2 g j) = v (ix1 j) :=
  (broadcastInDim_apply _ h₂ _ _ (ix2 (0 : Fin 1) j) fun a => by match a with | ⟨0, _⟩ => rfl | ⟨1, _⟩ => rfl).trans
    (broadcastInDim_apply _ h₁ v _ (ix1 j) fun a => by match a with | ⟨0, _⟩ => rfl)

/-- A node vector repeated along the feature axis reads, at `(n, j)`, the vector at `n`. -/
theorem nodeBcast_apply {α : Type} (h : S50000.BroadcastsInDim S50000x128 ![0]) (v : S50000.Idx → α) (n : Fin 50000) (j : Fin 128) :
    broadcastInDim S50000x128 ![0] h v (ix2 n j) = v (ix1 n) :=
  broadcastInDim_apply _ h v _ (ix1 n) fun a => by match a with | ⟨0, _⟩ => rfl

/-- The left 128 columns of a `[512, 256]` array. -/
theorem sliceL_apply {α : Type} (h : S512x256.Slices ![0, 0] S512x128) (x : S512x256.Idx → α) (g : Fin 512) (j : Fin 128) :
    extractStridedSlice S512x128 ![0, 0] x h (ix2 g j) = x (ix2 g (Fin.castAdd 128 j)) :=
  extractStridedSlice_apply _ x h _ _ fun a => by
    match a with
    | ⟨0, _⟩ => exact (Nat.zero_add g.val).symm
    | ⟨1, _⟩ => exact (Nat.zero_add j.val).symm

/-- The right 128 columns of a `[512, 256]` array. -/
theorem sliceR_apply {α : Type} (h : S512x256.Slices ![0, 128] S512x128) (x : S512x256.Idx → α) (g : Fin 512) (j : Fin 128) :
    extractStridedSlice S512x128 ![0, 128] x h (ix2 g j) = x (ix2 g (Fin.natAdd 128 j)) :=
  extractStridedSlice_apply _ x h _ _ fun a => by
    match a with
    | ⟨0, _⟩ => exact (Nat.zero_add g.val).symm
    | ⟨1, _⟩ => rfl

/-- Two `[n, 128]` arrays side by side, read in the left half. -/
theorem catL_apply {α : Type} (h : Shape.Concatenates [S50000x128, S50000x128] S50000x256 1) (x₁ x₂ : S50000x128.Idx → α)
    (r : Fin 50000) (j : Fin 128) :
    concatenate S50000x256 1 [⟨S50000x128, x₁⟩, ⟨S50000x128, x₂⟩] h (ix2 r (Fin.castAdd 128 j)) = x₁ (ix2 r j) :=
  concatenate_pair_apply_left 1 x₁ x₂ h _ rfl (ix2 r j) fun b => by match b with | ⟨0, _⟩ => rfl | ⟨1, _⟩ => rfl

/-- Two `[n, 128]` arrays side by side, read in the right half. -/
theorem catR_apply {α : Type} (h : Shape.Concatenates [S50000x128, S50000x128] S50000x256 1) (x₁ x₂ : S50000x128.Idx → α)
    (r : Fin 50000) (j : Fin 128) :
    concatenate S50000x256 1 [⟨S50000x128, x₁⟩, ⟨S50000x128, x₂⟩] h (ix2 r (Fin.natAdd 128 j)) = x₂ (ix2 r j) :=
  concatenate_pair_apply_right 1 x₁ x₂ h _ rfl rfl (ix2 r j)
    (fun b hb => by match b with | ⟨0, _⟩ => rfl | ⟨1, _⟩ => exact absurd rfl hb)
    (Nat.add_comm j.val 128)

/-- The count scatter at a graph: the table's entry plus the updates of the nodes whose batch word is that graph. -/
theorem scatterVec_apply (x : FVec Ideal S512 .f32) (idx : IVec S50000x1 32) (upd : FVec Ideal S50000 .f32) (a : Fin 512) :
    Host.scatterAdd scatter_S512_S50000x1_S50000_n_0_0_1 x idx upd (ix1 a)
      = x (ix1 a) + ∑ r : Fin 50000, if (idx (ix2 r 0)).toInt = (a.val : Int) then upd (ix1 r) else 0 :=
  vecScatterAdd_apply scatter_S512_S50000x1_S50000_n_0_0_1_wf x idx upd a

/-- The row scatter at a graph and a column: the table's entry plus that column of the rows whose batch word is that graph. -/
theorem scatterRows_apply (x : FVec Ideal S512x256 .f32) (idx : IVec S50000x1 32) (upd : FVec Ideal S50000x256 .f32)
    (a : Fin 512) (q : Fin 256) :
    Host.scatterAdd scatter_S512x256_S50000x1_S50000x256_1_0_0_1 x idx upd (ix2 a q)
      = x (ix2 a q) + ∑ r : Fin 50000, if (idx (ix2 r 0)).toInt = (a.val : Int) then upd (ix2 r q) else 0 :=
  rowScatterAdd_apply scatter_S512x256_S50000x1_S50000x256_1_0_0_1_wf x idx upd a q

/-- The table gather at a node and a column: the table's row the node's start index selects, clamped. -/
theorem gatherRows_apply (tbl : FVec Ideal S512x128 .f32) (idx : IVec S50000x1 32) (n : Fin 50000) (j : Fin 128) :
    Host.gather gather_S512x128_S50000x1_S50000x128_1_0_n_n_0_1_1128 tbl idx (ix2 n j)
      = tbl (ix2 (graphOf (idx (ix2 n 0))) j) :=
  rowGather_apply (by decide) gather_S512x128_S50000x1_S50000x128_1_0_n_n_0_1_1128_wf tbl idx n j

/-! ## The statistics as functions of the node array, the batch words and the mean scale -/

/-- Each graph's node count, at least one: ones scattered by the batch words into zeros, against ones. -/
def cntT (b : IVec S50000 32) : FVec Ideal S512 .f32 :=
  maximumf
    (Host.scatterAdd scatter_S512_S50000x1_S50000_n_0_0_1
      (broadcastInDim S512 ![] bcast_S_S512 (constant (F := Ideal) S_ .f32 0x00000000#32))
      (broadcastInDim S50000x1 ![0] bcast_S50000_S50000x1_0 b)
      (broadcastInDim S50000 ![] bcast_S_S50000 (constant (F := Ideal) S_ .f32 0x3F800000#32)))
    (broadcastInDim S512 ![] bcast_S_S512 (constant (F := Ideal) S_ .f32 0x3F800000#32))

/-- The per-graph averages of `h` (left half) and of `h²` (right half): the rows of their concatenation scattered by
    the batch words into zeros, each entry divided by its graph's count. -/
def momT (h : FVec Ideal S50000x128 .f32) (b : IVec S50000 32) : FVec Ideal S512x256 .f32 :=
  Host.divf
    (Host.scatterAdd scatter_S512x256_S50000x1_S50000x256_1_0_0_1
      (broadcastInDim S512x256 ![] bcast_S_S512x256 (constant (F := Ideal) S_ .f32 0x00000000#32))
      (broadcastInDim S50000x1 ![0] bcast_S50000_S50000x1_0 b)
      (concatenate S50000x256 1 [⟨S50000x128, h⟩, ⟨S50000x128, mulf h h⟩] concatenates_S50000x128_S50000x128_S50000x256_d1))
    (broadcastInDim S512x256 ![0, 1] bcast_S512x1_S512x256_0_1 (broadcastInDim S512x1 ![0] bcast_S512_S512x1_0 (cntT b)))

/-- The per-graph mean: the left half of the averages. -/
def meanT (h : FVec Ideal S50000x128 .f32) (b : IVec S50000 32) : FVec Ideal S512x128 .f32 :=
  extractStridedSlice S512x128 ![0, 0] (momT h b) slices_S512x256_S512x128_0_0

/-- The per-graph variance `E[h²] − μ² (2 s − s²)`. -/
def varT (h : FVec Ideal S50000x128 .f32) (b : IVec S50000 32) (ms : FVec Ideal S128 .f32) : FVec Ideal S512x128 .f32 :=
  subf (extractStridedSlice S512x128 ![0, 128] (momT h b) slices_S512x256_S512x128_0_128)
    (mulf (mulf (meanT h b) (meanT h b))
      (broadcastInDim S512x128 ![0, 1] bcast_S1x128_S512x128_0_1 (broadcastInDim S1x128 ![1] bcast_S128_S1x128_1
        (subf (mulf (broadcastInDim S128 ![] bcast_S_S128 (constant (F := Ideal) S_ .f32 0x40000000#32)) ms) (mulf ms ms)))))

/-- A graph's count is the specification's. -/
theorem cntT_apply (b : IVec S50000 32) (g : Fin nG) : cntT b (ix1 g) = cnt (words b) g := by
  unfold cntT cnt
  rw [maximumf_apply, scatterVec_apply, broadcastInDim_scalar_apply, broadcastInDim_scalar_apply, constant_apply,
    constant_apply, Ideal.ofBits_zero_f32, Ideal.ofBits_one_f32, zero_add]
  refine congrArg (fun s => max s (1 : EReal)) (Finset.sum_congr rfl fun r _ => ?_)
  rw [col_apply, broadcastInDim_scalar_apply, constant_apply, Ideal.ofBits_one_f32]
  rfl

/-- The left half of the averages is the per-graph mean of `h`. -/
theorem momT_left (h : FVec Ideal S50000x128 .f32) (b : IVec S50000 32) (g : Fin nG) (j : Fin 128) :
    momT h b (ix2 g (Fin.castAdd 128 j)) = segMean (words b) (rows h) g j := by
  unfold momT segMean
  rw [hostDivf_apply, scatterRows_apply, rowsBcast_apply, cntT_apply, broadcastInDim_scalar_apply, constant_apply,
    Ideal.ofBits_zero_f32, zero_add]
  refine congrArg (fun s => Ideal.div s (cnt (words b) g)) (Finset.sum_congr rfl fun r _ => ?_)
  rw [col_apply, catL_apply]
  rfl

/-- The right half of the averages is the per-graph mean of `h²`. -/
theorem momT_right (h : FVec Ideal S50000x128 .f32) (b : IVec S50000 32) (g : Fin nG) (j : Fin 128) :
    momT h b (ix2 g (Fin.natAdd 128 j)) = segMean (words b) (fun n j => rows h n j * rows h n j) g j := by
  unfold momT segMean
  rw [hostDivf_apply, scatterRows_apply, rowsBcast_apply, cntT_apply, broadcastInDim_scalar_apply, constant_apply,
    Ideal.ofBits_zero_f32, zero_add]
  refine congrArg (fun s => Ideal.div s (cnt (words b) g)) (Finset.sum_congr rfl fun r _ => ?_)
  rw [col_apply, catR_apply, mulf_apply]
  rfl

/-- The mean at a graph and a feature. -/
theorem meanT_apply (h : FVec Ideal S50000x128 .f32) (b : IVec S50000 32) (g : Fin nG) (j : Fin 128) :
    meanT h b (ix2 g j) = segMean (words b) (rows h) g j := by
  unfold meanT
  rw [sliceL_apply, momT_left]

/-- The variance at a graph and a feature is the second-moment form. -/
theorem varT_apply (h : FVec Ideal S50000x128 .f32) (b : IVec S50000 32) (ms : FVec Ideal S128 .f32) (g : Fin nG) (j : Fin 128) :
    varT h b ms (ix2 g j) = varMoment (words b) ms (rows h) g j := by
  unfold varT varMoment
  rw [subf_apply, mulf_apply, mulf_apply, sliceR_apply, momT_right, meanT_apply, colsBcast_apply, subf_apply, mulf_apply,
    mulf_apply, broadcastInDim_scalar_apply, constant_apply, ofBits_two_f32]

/-! ## The gather back to the nodes -/

/-- The start indices of the gather: a negative batch word moved up by the table's 512 rows, as a column. -/
def takeIdx (b : IVec S50000 32) : IVec S50000x1 32 :=
  broadcastInDim S50000x1 ![0] bcast_S50000_S50000x1_0
    (select (cmpi .slt b (broadcastInDim S50000 ![] bcast_S_S50000 (constantI S_ 32 0#32)))
      (addi b (broadcastInDim S50000 ![] bcast_S_S50000 (constantI S_ 32 512#32))) b)

/-- The bounds test of a start index: at least `0` and at most `511`. -/
def takeBnd (b : IVec S50000 32) : IVec S50000x1 1 :=
  andi (cmpi .sge (takeIdx b) (broadcastInDim S50000x1 ![] bcast_S_S50000x1 (constantI S_ 32 0#32)))
    (cmpi .sle (takeIdx b) (broadcastInDim S50000x1 ![0, 1] bcast_S1x1_S50000x1_0_1
      (broadcastInDim S1x1 ![1] bcast_S1_S1x1_1 (constantI S1 32 511#32))))

/-- The rows of a `[512, 128]` table the batch words select; a row whose start index fails the bounds test is filled
    with the word `0x7FC00000`. -/
def takeT (tbl : FVec Ideal S512x128 .f32) (b : IVec S50000 32) : FVec Ideal S50000x128 .f32 :=
  select
    (broadcastInDim S50000x128 ![0] bcast_S50000_S50000x128_0
      (Host.reduce IntOp.andi (takeBnd b) (constantI S_ 1 1#1) reducesTo_S50000x1_S50000_d1 h_S_))
    (Host.gather gather_S512x128_S50000x1_S50000x128_1_0_n_n_0_1_1128 tbl (takeIdx b))
    (broadcastInDim S50000x128 ![] bcast_S_S50000x128 (constant (F := Ideal) S_ .f32 0x7FC00000#32))

/-- A word comparison, and a conjunction, of two arrays, entry by entry. -/
theorem cmpiV_apply {s : Shape} {w : Nat} (p : CmpIPredicate) (x y : IVec s w) (i : s.Idx) :
    cmpi p x y i = IntOp.cmpi p (x i) (y i) := rfl
theorem andiV_apply {s : Shape} {w : Nat} (x y : IVec s w) (i : s.Idx) : andi x y i = IntOp.andi (x i) (y i) := rfl
/-- An integer constant array at an entry. -/
theorem constI_apply {s : Shape} {w : Nat} (v : BitVec w) (i : s.Idx) : constantI s w v i = v := rfl

/-- A left fold of the conjunction over words that are all one, from one, is one. -/
theorem foldl_andi_one {ι : Type} (x : ι → BitVec 1) :
    ∀ l : List ι, (∀ i ∈ l, x i = 1#1) → l.foldl (fun r i => IntOp.andi r (x i)) 1#1 = 1#1
  | [], _ => rfl
  | i :: l, h => by
    rw [List.foldl_cons, h i List.mem_cons_self, show IntOp.andi (1#1 : BitVec 1) 1#1 = 1#1 from rfl]
    exact foldl_andi_one x l fun k hk => h k (List.mem_cons_of_mem _ hk)

/-- A conjunction-reduce, from one, of an array whose every entry is one, is one everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_one x _ fun i _ => hx i

/-- A word that names a graph is not negative as a signed word, … -/
theorem slt_zero_of_inRange {v : BitVec 32} (hv : InRange nG v) : IntOp.cmpi .slt v 0#32 = 0#1 := by
  have h0 : (0#32 : BitVec 32).toInt = 0 := by decide
  have : v.slt 0#32 = false := by
    rw [BitVec.slt, h0]; exact decide_eq_false (by have := hv.1; omega)
  show BitVec.ofBool (v.slt 0#32) = 0#1
  rw [this]; rfl

/-- … is at least zero, … -/
theorem sge_zero_of_inRange {v : BitVec 32} (hv : InRange nG v) : IntOp.cmpi .sge v 0#32 = 1#1 := by
  have h0 : (0#32 : BitVec 32).toInt = 0 := by decide
  have : (0#32 : BitVec 32).sle v = true := by
    rw [BitVec.sle, h0]; exact decide_eq_true hv.1
  show BitVec.ofBool ((0#32 : BitVec 32).sle v) = 1#1
  rw [this]; rfl

/-- … and at most 511. -/
theorem sle_511_of_inRange {v : BitVec 32} (hv : InRange nG v) : IntOp.cmpi .sle v 511#32 = 1#1 := by
  have h0 : (511#32 : BitVec 32).toInt = 511 := by decide
  have : v.sle 511#32 = true := by
    rw [BitVec.sle, h0]; exact decide_eq_true (by have h2 : v.toInt < 512 := hv.2; omega)
  show BitVec.ofBool (v.sle 511#32) = 1#1
  rw [this]; rfl

/-- With the batch word a graph, the start index is the batch word itself. -/
theorem takeIdx_apply (b : IVec S50000 32) (n : Fin nN) (hn : InRange nG (b (ix1 n))) :
    takeIdx b (ix2 n 0) = b (ix1 n) := by
  unfold takeIdx
  rw [col_apply, select_apply, cmpiV_apply, broadcastInDim_scalar_apply, constI_apply, slt_zero_of_inRange hn, select_zero]

/-- With the batch word a graph, the start index passes the bounds test. -/
theorem takeBnd_apply (b : IVec S50000 32) (n : Fin nN) (hn : InRange nG (b (ix1 n))) :
    takeBnd b (ix2 n 0) = 1#1 := by
  unfold takeBnd
  rw [andiV_apply, cmpiV_apply, cmpiV_apply, takeIdx_apply b n hn, broadcastInDim_scalar_apply, constI_apply,
    sge_zero_of_inRange hn]
  have e : broadcastInDim S50000x1 ![0, 1] bcast_S1x1_S50000x1_0_1
      (broadcastInDim S1x1 ![1] bcast_S1_S1x1_1 (constantI S1 32 511#32)) (ix2 n 0) = 511#32 := rfl
  rw [e, sle_511_of_inRange hn]
  rfl

/-- With every batch word a graph, the gather reads the table's row of the node's graph: the bounds mask is all ones. -/
theorem takeT_apply (tbl : FVec Ideal S512x128 .f32) (b : IVec S50000 32) (hb : ∀ n, InRange nG (b (ix1 n)))
    (n : Fin nN) (j : Fin 128) : takeT tbl b (ix2 n j) = tbl (ix2 (graphOf (b (ix1 n))) j) := by
  have hmask : Host.reduce IntOp.andi (takeBnd b) (constantI S_ 1 1#1) reducesTo_S50000x1_S50000_d1 h_S_ (ix1 n) = 1#1 :=
    reduce_andi_one _ _ _ _ _ rfl fun i => by
      obtain ⟨r, q, rfl⟩ : ∃ (r : Fin 50000) (q : Fin 1), i = ix2 r q := ⟨i 0, i 1, eq_ix2 i⟩
      obtain rfl : q = 0 := Subsingleton.elim _ _
      exact takeBnd_apply b r (hb r)
  unfold takeT
  rw [select_apply, nodeBcast_apply, hmask, select_one, gatherRows_apply, takeIdx_apply b n (hb n)]

variable (m : (ℓ : Loc nD τ sig) → Buf (Elt Ideal) ℓ) (ρ : Dev nD → PrngReg) (c : Dev nD)

/-! ## The three stretches, buffer by buffer, from any contents -/

/-- The statistics' stretch leaves the per-graph mean at its buffer … -/
theorem stats_mean (V : Valuation τ sig (Elt Ideal)) :
    StableHlo.after hostOps3 V (Proc.devRef .tc main_v41) = meanT (V (dr main_v26)) (V (dr main_arg4)) := by
  after_results; rfl

/-- … and the per-graph variance at its own. -/
theorem stats_var (V : Valuation τ sig (Elt Ideal)) :
    StableHlo.after hostOps3 V (Proc.devRef .tc main_v51)
      = varT (V (dr main_v26)) (V (dr main_arg4)) (V (dr main_arg25)) := by
  after_results_simp; rfl

/-- It writes neither the batch words nor the mean scale. -/
theorem stats_keeps_batch (V : Valuation τ sig (Elt Ideal)) :
    StableHlo.after hostOps3 V (Proc.devRef .tc main_arg4) = V (dr main_arg4) := by
  after_results_simp
theorem stats_keeps_scale (V : Valuation τ sig (Elt Ideal)) :
    StableHlo.after hostOps3 V (Proc.devRef .tc main_arg25) = V (dr main_arg25) := by
  after_results_simp

/-- The first gather leaves the table's rows the batch words select at its result, and keeps the variance, the batch
    words and the mean scale. -/
theorem take1_result (V : Valuation τ sig (Elt Ideal)) :
    StableHlo.after hostOps3_1 V (Proc.devRef .tc main_v52) = takeT (V (dr main_v41)) (V (dr main_arg4)) := by
  after_results_simp
  simp only [StableHlo.TRef.ofBuf, StableHlo.TRef.toBuf, cast_cast, cast_eq]
  rfl
theorem take1_keeps_var (V : Valuation τ sig (Elt Ideal)) :
    StableHlo.after hostOps3_1 V (Proc.devRef .tc main_v51) = V (dr main_v51) := by
  after_results_simp
theorem take1_keeps_batch (V : Valuation τ sig (Elt Ideal)) :
    StableHlo.after hostOps3_1 V (Proc.devRef .tc main_arg4) = V (dr main_arg4) := by
  after_results_simp
theorem take1_keeps_scale (V : Valuation τ sig (Elt Ideal)) :
    StableHlo.after hostOps3_1 V (Proc.devRef .tc main_arg25) = V (dr main_arg25) := by
  after_results_simp

/-- The second gather likewise, and keeps the first one's result. -/
theorem take2_result (V : Valuation τ sig (Elt Ideal)) :
    StableHlo.after hostOps3_2 V (Proc.devRef .tc main_v53) = takeT (V (dr main_v51)) (V (dr main_arg4)) := by
  after_results_simp
  simp only [StableHlo.TRef.ofBuf, StableHlo.TRef.toBuf, cast_cast, cast_eq]
  rfl
theorem take2_keeps_mean (V : Valuation τ sig (Elt Ideal)) :
    StableHlo.after hostOps3_2 V (Proc.devRef .tc main_v52) = V (dr main_v52) := by
  after_results_simp
theorem take2_keeps_batch (V : Valuation τ sig (Elt Ideal)) :
    StableHlo.after hostOps3_2 V (Proc.devRef .tc main_arg4) = V (dr main_arg4) := by
  after_results_simp
theorem take2_keeps_scale (V : Valuation τ sig (Elt Ideal)) :
    StableHlo.after hostOps3_2 V (Proc.devRef .tc main_arg25) = V (dr main_arg25) := by
  after_results_simp

/-! ## The boundaries between regions 2 and 3 -/

/-- The batch words pass the three stretches unwritten: at every boundary from region 2's exit on they are as launched. -/
theorem W9_batch : W9 (F := Ideal) m ρ c (Proc.devRef .tc main_arg4) = m ((c : Thread nD τ).loc main_arg4) :=
  (W10_of_ne m ρ c main_arg4 (by decide)).symm.trans (W10_main_arg4 m ρ c)
theorem W8_batch : W8 (F := Ideal) m ρ c (Proc.devRef .tc main_arg4) = m ((c : Thread nD τ).loc main_arg4) :=
  (take2_keeps_batch (W8 m ρ c)).symm.trans (W9_batch m ρ c)
theorem W7_batch : W7 (F := Ideal) m ρ c (Proc.devRef .tc main_arg4) = m ((c : Thread nD τ).loc main_arg4) :=
  (take1_keeps_batch (W7 m ρ c)).symm.trans (W8_batch m ρ c)
theorem W6_batch : W6 (F := Ideal) m ρ c (Proc.devRef .tc main_arg4) = m ((c : Thread nD τ).loc main_arg4) :=
  (stats_keeps_batch (W6 m ρ c)).symm.trans (W7_batch m ρ c)

/-- So does the mean scale, which region 3 only reads. -/
theorem W9_scale : W9 (F := Ideal) m ρ c (Proc.devRef .tc main_arg25) = m ((c : Thread nD τ).loc main_arg25) :=
  ((W10_arr m ρ c 5).trans (((dat3 (V9 m ρ) c).arrAt_in 5 rfl _).trans (A_eq3 (V9 m ρ) c 5))).symm.trans
    (W10_main_arg25 m ρ c)
theorem W8_scale : W8 (F := Ideal) m ρ c (Proc.devRef .tc main_arg25) = m ((c : Thread nD τ).loc main_arg25) :=
  (take2_keeps_scale (W8 m ρ c)).symm.trans (W9_scale m ρ c)
theorem W7_scale : W7 (F := Ideal) m ρ c (Proc.devRef .tc main_arg25) = m ((c : Thread nD τ).loc main_arg25) :=
  (take1_keeps_scale (W7 m ρ c)).symm.trans (W8_scale m ρ c)
theorem W6_scale : W6 (F := Ideal) m ρ c (Proc.devRef .tc main_arg25) = m ((c : Thread nD τ).loc main_arg25) :=
  (stats_keeps_scale (W6 m ρ c)).symm.trans (W7_scale m ρ c)

/-- After the statistics: the per-graph mean and variance of region 2's node array. -/
theorem W7_mean : W7 (F := Ideal) m ρ c (Proc.devRef .tc main_v41) = meanT (bH m ρ c) (aBatch m c) :=
  (stats_mean (W6 m ρ c)).trans (congrArg (meanT (bH m ρ c)) (W6_batch m ρ c))
theorem W7_var : W7 (F := Ideal) m ρ c (Proc.devRef .tc main_v51) = varT (bH m ρ c) (aBatch m c) (aMs m c) :=
  (stats_var (W6 m ρ c)).trans (congrArg₂ (varT (bH m ρ c)) (W6_batch m ρ c) (W6_scale m ρ c))

/-- The gathered mean, as region 3 finds it. -/
theorem meanG_eq : bMeanG m ρ c = takeT (meanT (bH m ρ c) (aBatch m c)) (aBatch m c) :=
  (take2_keeps_mean (W8 m ρ c)).trans
    ((take1_result (W7 m ρ c)).trans (congrArg₂ takeT (W7_mean m ρ c) (W7_batch m ρ c)))

/-- The gathered variance, as region 3 finds it. -/
theorem varG_eq : bVarG m ρ c = takeT (varT (bH m ρ c) (aBatch m c) (aMs m c)) (aBatch m c) :=
  (take2_result (W8 m ρ c)).trans
    (congrArg₂ takeT ((take1_keeps_var (W7 m ρ c)).trans (W7_var m ρ c)) (W8_batch m ρ c))

end Cert.KernelIdeal.Legs.Stats

namespace Cert.KernelIdeal.Legs

open Idealize.ShloMosaic Idealize.ShloMosaic.TcCoe Idealize.ShloMosaic.ValueIdx
open Idealize.SL.Sem
open Cert.KernelIdeal Cert.KernelIdeal.Gen Cert.Spec
open Stats

variable (m : (ℓ : Loc nD τ sig) → Buf (Elt Ideal) ℓ) (ρ : Dev nD → PrngReg) (c : Dev nD)

/-- The per-node mean: the node's graph's average of `h`. -/
theorem meanG_value (hb : ∀ n, InRange nG (words (aBatch m c) n)) :
    rows (bMeanG m ρ c) = fun n j => segMean (words (aBatch m c)) (rows (bH m ρ c)) (graphOf (words (aBatch m c) n)) j := by
  funext n j
  exact (congrFun (meanG_eq m ρ c) (ix2 n j)).trans
    ((takeT_apply _ _ hb n j).trans (meanT_apply _ _ _ j))

/-- The per-node variance, in the second-moment form. -/
theorem varG_value (hb : ∀ n, InRange nG (words (aBatch m c) n)) :
    rows (bVarG m ρ c) = fun n j => varMoment (words (aBatch m c)) (aMs m c) (rows (bH m ρ c)) (graphOf (words (aBatch m c) n)) j := by
  funext n j
  exact (congrFun (varG_eq m ρ c) (ix2 n j)).trans
    ((takeT_apply _ _ hb n j).trans (varT_apply _ _ _ _ j))

end Cert.KernelIdeal.Legs

end
-- ==== Proof.KRegion3.lean ====
/-
  Region 3: per block of nodes, centre, scale by the inverse root of the regularised variance, shift, and the last
  dense layer.

  The grid has ten points; point t reads rows 5000 t … 5000 t + 4999 of the node array and of the gathered mean and
  variance, the three 128-vectors, the transposed weight and the bias whole, and writes rows 5000 t … 5000 t + 4999 of
  the result. So the result array is ONE function of the arrays the region finds, entry by entry: what a point writes
  is that function's block, and the ten blocks tile the array. The vectors and the bias are found as launched; the
  weight is found transposed, which turns the contraction over its rows into the sum against the stored [out, in]
  weight.
-/
import proofs.«416041_j69114613727529_2_alg».proof.Proof.KArgs
import Idealize.ShloMosaic.Lib.Pipeline.Value
import Idealize.ShloMosaic.Lib.ValueLayout

-- membership in a rectangle of 50000 rows: the structural look recurses once per coordinate of the long axis
set_option maxRecDepth 16384

noncomputable section

open scoped BigOperators

namespace Cert.KernelIdeal.Legs

open Idealize.ShloMosaic Idealize.ShloMosaic.TcCoe Idealize.ShloMosaic.ValueIdx Idealize.ShloMosaic.RowDims
open Idealize.SL.Sem
open Idealize.ShloMosaic.Pipeline (Dat)
open Cert.KernelIdeal Cert.KernelIdeal.Gen Cert.Spec

namespace Region3

/-! ## The body's arithmetic, the blocks, and the result array as one function -/

/-- Where each window's block sits at grid point t: the three node-row inputs and the result move down the rows
    with the point, the vectors and the weight stay put. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0 ∧ win3_4.index t (0 : Fin 1) = 0 ∧ win3_5.index t (0 : Fin 1) = 0
    ∧ win3_6.index t (0 : Fin 2) = 0 ∧ win3_6.index t (1 : Fin 2) = 0
    ∧ win3_7.index t (0 : Fin 1) = 0
    ∧ win3_8.index t (0 : Fin 2) = t.val ∧ win3_8.index t (1 : Fin 2) = 0 :=
  (by decide +kernel : ∀ t : Fin grid3.N, _)

/-- The last layer's contraction is the plain matrix product, [5000,128] by [128,128]: rows against columns. -/
theorem dot_plain : dot_S5000x128_S128x128_S5000x128_1_0_0_1_n_n = DotDims.plain 5000 128 128 := rfl

/-- A 128-vector laid as one row and repeated down the rows reads, at (p, k), its entry k. -/
theorem rowBcast_apply (v : FVec Ideal S128 .f32) (p : Fin 5000) (k : Fin 128) :
    broadcastTo S5000x128 (shapeCast S1x128 v shapeCasts_S128_S1x128) broadcasts_S1x128_S5000x128 (ix2 p k) = v (ix1 k) := by
  rw [broadcastTo_1b_ab_apply, shapeCast_a_1a_apply]

/-- The body's arithmetic at (p, q): the row p of the node block centred by the scaled mean, scaled by the learned weight
    and the inverse root of the regularised variance, shifted, and contracted against column q of the weight; plus the
    bias. A change of float format is the identity on the extended reals. -/
theorem pay_apply (x0 x1 x2 : FVec Ideal S5000x128 .f32) (ms nw nb : FVec Ideal S128 .f32)
    (wt : FVec Ideal S128x128 .f32) (fb : FVec Ideal S128 .f32) (p : Fin 5000) (q : Fin 128) :
    k3_pay1 (F := Ideal) x0 x1 x2 ms nw nb wt fb (ix2 p q)
      = (∑ k : Fin 128, ((nw (ix1 k) * (x0 (ix2 p k) - x1 (ix2 p k) * ms (ix1 k)))
          * Ideal.rsqrt (x2 (ix2 p k) + epsW) + nb (ix1 k)) * wt (ix2 k q)) + fb (ix1 q) := by
  unfold k3_pay1
  rw [dot_plain, addf_apply]
  refine congrArg₂ (· + ·) ?_ (rowBcast_apply fb p q)
  refine (matmul_plain_zero_apply none _ _ p q).trans (Finset.sum_congr rfl fun k _ => ?_)
  refine congrArg₂ (· * ·) ?_ ?_
  · -- the normalised, scaled and shifted row at column k
    simp only [truncf_apply, addf_apply, mulf_apply, subf_apply, shapeCast_self, rowBcast_apply, broadcast_apply]
    rfl
  · -- the weight, stored [in, out], at (k, q)
    simp only [truncf_apply, shapeCast_self]

theorem hz2 : (![0, 0] : Fin 2 → Nat) = fun _ => 0 := funext fun a => by fin_cases a <;> rfl
theorem hz1 : (![0] : Fin 1 → Nat) = fun _ => 0 := funext fun a => by fin_cases a <;> rfl

/-- Entry (n, j) of the result, from the arrays the region reads: row n centred by the scaled mean, scaled by the
    inverse root of the regularised variance and the learned weight, shifted, then through the last dense layer whose
    weight is stored [in, out]. -/
def outRows (h mean var : M2 nN 128) (nw nb ms : V1 128) (wt : M2 128 128) (fb : V1 128) (n : Fin nN) (j : Fin 128) : EReal :=
  (∑ k : Fin 128, ((nw (ix1 k) * (h (ix2 n k) - mean (ix2 n k) * ms (ix1 k)))
      * Ideal.rsqrt (var (ix2 n k) + epsW) + nb (ix1 k)) * wt (ix2 k j)) + fb (ix1 j)

/-- The same as one array. -/
def outFn (h mean var : M2 nN 128) (nw nb ms : V1 128) (wt : M2 128 128) (fb : V1 128) : M2 nN 128 :=
  fun i => outRows h mean var nw nb ms wt fb (i 0) (i 1)

/-- Row p of the block of grid point t is node row 5000 t + p. -/
def rowOf (t : Fin cfg3.N) (p : Fin 5000) : Fin nN :=
  ⟨t.val * 5000 + p.val, by
    show t.val * 5000 + p.val < 50000
    have := t.isLt; have hN : cfg3.N = 10 := N_3; have := p.isLt; omega⟩

variable (V : (c : Dev nD) → (b : Ref sig .tc) → Buf (Elt Ideal) ((c : Thread nD τ).loc b))

/-- The node array's block at point t, at (p, k), is the array at (5000 t + p, k). -/
theorem rowBlk_read0 (c : Dev nD) (t : Fin cfg3.N) (p : Fin 5000) (k : Fin 128) :
    (iblk3 V c 0 t : FVec Ideal S5000x128 .f32) (ix2 p k) = (V c main_v26 : M2 nN 128) (ix2 (rowOf t p) k) := by
  obtain ⟨e0, e1, -⟩ := idx_facts t
  show V c main_v26 (((cfg3.win 0).blk t).view.emb (ix2 p k)) = V c main_v26 (ix2 (rowOf t p) k)
  refine congrArg (V c main_v26) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- The same for the gathered means … -/
theorem rowBlk_read1 (c : Dev nD) (t : Fin cfg3.N) (p : Fin 5000) (k : Fin 128) :
    (iblk3 V c 1 t : FVec Ideal S5000x128 .f32) (ix2 p k) = (V c main_v52 : M2 nN 128) (ix2 (rowOf t p) k) := by
  obtain ⟨-, -, e0, e1, -⟩ := idx_facts t
  show V c main_v52 (((cfg3.win 1).blk t).view.emb (ix2 p k)) = V c main_v52 (ix2 (rowOf t p) k)
  refine congrArg (V c main_v52) (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * k.val = k.val; omega

/-- … and the gathered variances. -/
theorem rowBlk_read2 (c : Dev nD) (t : Fin cfg3.N) (p : Fin 5000) (k : Fin 128) :
    (iblk3 V c 2 t : FVec Ideal S5000x128 .f32) (ix2 p k) = (V c main_v53 : M2 nN 128) (ix2 (rowOf t p) k) := by
  obtain ⟨-, -, -, -, e0, e1, -⟩ := idx_facts t
  show V c main_v53 (((cfg3.win 2).blk t).view.emb (ix2 p k)) = V c main_v53 (ix2 (rowOf t p) k)
  refine congrArg (V c main_v53) (funext fun a => Fin.ext ?_)
  match a with
  | ⟨0, _⟩ => show win3_2.index t (0 : Fin 2) * 5000 + 1 * p.val = t.val * 5000 + p.val; omega
  | ⟨1, _⟩ => show win3_2.index t (1 : Fin 2) * 128 + 1 * k.val = k.val; omega

/-- A vector window's block is the whole vector, at every point: the learned weight … -/
theorem vecBlk_read3 (c : Dev nD) (t : Fin cfg3.N) (k : Fin 128) :
    (iblk3 V c 3 t : FVec Ideal S128 .f32) (ix1 k) = (V c main_arg23 : V1 128) (ix1 k) := by
  obtain ⟨-, -, -, -, -, -, e, -⟩ := idx_facts t
  show V c main_arg23 (((cfg3.win 3).blk t).view.emb (ix1 k)) = V c main_arg23 (ix1 k)
  refine congrArg (V c main_arg23) (funext fun a => Fin.ext ?_)
  match a with
  | ⟨0, _⟩ => show win3_3.index t (0 : Fin 1) * 128 + 1 * k.val = k.val; omega

/-- … the learned shift … -/
theorem vecBlk_read4 (c : Dev nD) (t : Fin cfg3.N) (k : Fin 128) :
    (iblk3 V c 4 t : FVec Ideal S128 .f32) (ix1 k) = (V c main_arg24 : V1 128) (ix1 k) := by
  obtain ⟨-, -, -, -, -, -, -, e, -⟩ := idx_facts t
  show V c main_arg24 (((cfg3.win 4).blk t).view.emb (ix1 k)) = V c main_arg24 (ix1 k)
  refine congrArg (V c main_arg24) (funext fun a => Fin.ext ?_)
  match a with
  | ⟨0, _⟩ => show win3_4.index t (0 : Fin 1) * 128 + 1 * k.val = k.val; omega

/-- … the mean scale … -/
theorem vecBlk_read5 (c : Dev nD) (t : Fin cfg3.N) (k : Fin 128) :
    (iblk3 V c 5 t : FVec Ideal S128 .f32) (ix1 k) = (V c main_arg25 : V1 128) (ix1 k) := by
  obtain ⟨-, -, -, -, -, -, -, -, e, -⟩ := idx_facts t
  show V c main_arg25 (((cfg3.win 5).blk t).view.emb (ix1 k)) = V c main_arg25 (ix1 k)
  refine congrArg (V c main_arg25) (funext fun a => Fin.ext ?_)
  match a with
  | ⟨0, _⟩ => show win3_5.index t (0 : Fin 1) * 128 + 1 * k.val = k.val; omega

/-- … the last layer's bias … -/
theorem vecBlk_read7 (c : Dev nD) (t : Fin cfg3.N) (k : Fin 128) :
    (iblk3 V c 7 t : FVec Ideal S128 .f32) (ix1 k) = (V c main_arg29 : V1 128) (ix1 k) := by
  obtain ⟨-, -, -, -, -, -, -, -, -, -, -, e, -⟩ := idx_facts t
  show V c main_arg29 (((cfg3.win 7).blk t).view.emb (ix1 k)) = V c main_arg29 (ix1 k)
  refine congrArg (V c main_arg29) (funext fun a => Fin.ext ?_)
  match a with
  | ⟨0, _⟩ => show win3_7.index t (0 : Fin 1) * 128 + 1 * k.val = k.val; omega

/-- … and so is the weight's block the whole weight. -/
theorem matBlk_read6 (c : Dev nD) (t : Fin cfg3.N) (k q : Fin 128) :
    (iblk3 V c 6 t : FVec Ideal S128x128 .f32) (ix2 k q) = (V c main_v17 : M2 128 128) (ix2 k q) := by
  obtain ⟨-, -, -, -, -, -, -, -, -, e0, e1, -⟩ := idx_facts t
  show V c main_v17 (((cfg3.win 6).blk t).view.emb (ix2 k q)) = V c main_v17 (ix2 k q)
  refine congrArg (V c main_v17) (funext fun a => Fin.ext ?_)
  match a with
  | ⟨0, _⟩ => show win3_6.index t (0 : Fin 2) * 128 + 1 * k.val = k.val; omega
  | ⟨1, _⟩ => show win3_6.index t (1 : Fin 2) * 128 + 1 * q.val = q.val; omega

/-- Entry (p, q) of the result's block at point t sits in the result array at (5000 t + p, q). -/
theorem outBlk_emb (t : Fin cfg3.N) (p : Fin 5000) (q : Fin 128) :
    ((cfg3.win 8).blk t).view.emb (ix2 p q) = (ix2 (rowOf t p) q : S50000x128.Idx) := by
  obtain ⟨-, -, -, -, -, -, -, -, -, -, -, -, e0, e1⟩ := idx_facts t
  refine funext fun a => Fin.ext ?_
  match a with
  | ⟨0, _⟩ => show win3_8.index t (0 : Fin 2) * 5000 + 1 * p.val = t.val * 5000 + p.val; omega
  | ⟨1, _⟩ => show win3_8.index t (1 : Fin 2) * 128 + 1 * q.val = q.val; omega

/-- What the body computes from the blocks at point t, at (p, q): entry (5000 t + p, q) of the whole-array function. -/
theorem blockOut_apply (c : Dev nD) (t : Fin cfg3.N) (p : Fin 5000) (q : Fin 128) :
    k3_pay1 (F := Ideal) (iblk3 V c 0 t) (iblk3 V c 1 t) (iblk3 V c 2 t) (iblk3 V c 5 t) (iblk3 V c 3 t) (iblk3 V c 4 t)
        (iblk3 V c 6 t) (iblk3 V c 7 t) (ix2 p q)
      = outRows (V c main_v26) (V c main_v52) (V c main_v53) (V c main_arg23) (V c main_arg24) (V c main_arg25)
          (V c main_v17) (V c main_arg29) (rowOf t p) q := by
  refine (pay_apply (iblk3 V c 0 t) (iblk3 V c 1 t) (iblk3 V c 2 t) (iblk3 V c 5 t) (iblk3 V c 3 t) (iblk3 V c 4 t)
    (iblk3 V c 6 t) (iblk3 V c 7 t) p q).trans ?_
  unfold outRows
  refine congrArg₂ (· + ·) (Finset.sum_congr rfl fun k _ => ?_) (vecBlk_read7 V c t q)
  rw [rowBlk_read0 V c t p k, rowBlk_read1 V c t p k, rowBlk_read2 V c t p k, vecBlk_read3 V c t k, vecBlk_read4 V c t k,
    vecBlk_read5 V c t k, matBlk_read6 V c t k q]

/-- What point t writes back is block t of the whole-array function of the arrays the region finds. -/
theorem flushed_eq (c : Dev nD) (t : Fin cfg3.N) :
    (dat3 V c).flushed 8 t = ((cfg3.win 8).blk t).view.read (Elt Ideal)
      (outFn (V c main_v26) (V c main_v52) (V c main_v53) (V c main_arg23) (V c main_arg24) (V c main_arg25)
        (V c main_v17) (V c main_arg29)) := by
  show (cfg3.win 8).cut (grid3.coords t) ((dat3 V c).after 8 t) = _
  rw [after3_8]
  unfold out3_8
  rw [View.canon_unit_zero hz2]
  simp only [View.ld_unit_zero (S := S5000x128) hz2, View.ld_unit_zero (S := S128) hz1, View.ld_unit_zero (S := S128x128) hz2]
  refine funext fun (j : S5000x128.Idx) => ?_
  obtain ⟨p, q, rfl⟩ : ∃ (p : Fin 5000) (q : Fin 128), j = ix2 p q := ⟨j 0, j 1, eq_ix2 j⟩
  refine (blockOut_apply V c t p q).trans ?_
  show _ = outFn (V c main_v26) (V c main_v52) (V c main_v53) (V c main_arg23) (V c main_arg24) (V c main_arg25)
    (V c main_v17) (V c main_arg29) (((cfg3.win 8).blk t).view.emb (ix2 p q))
  rw [outBlk_emb t p q]
  rfl

/-- An index of the result array is in point t's block iff each coordinate is in the block's range on its axis. -/
theorem mem_blk8 (t : Fin cfg3.N) (i : S50000x128.Idx) :
    i ∈ ((cfg3.win 8).blk t).view.set ↔ ∀ a : Fin 2, win3_8.index t a * S5000x128.size a ≤ (i a).val
      ∧ (i a).val < win3_8.index t a * S5000x128.size a + S5000x128.size a := by
  show i ∈ ((View.whole main_v54).slice (win3_8.rect t)).set ↔ _
  rw [View.set_slice_whole, Rect.mem_set_unit]
  exact Iff.rfl

/-- The ten blocks of 5000 rows tile the result array: row r lies in the block of point r / 5000, and every point
    writes its block back. -/
theorem covered8 (i : S50000x128.Idx) :
    ∃ t : Fin cfg3.N, (cfg3.win 8).flush t = true ∧ i ∈ ((cfg3.win 8).blk t).view.set := by
  have h0 : (i 0).val < 50000 := idx2_lt0 i
  have h1 : (i 1).val < 128 := idx2_lt1 i
  have hN : cfg3.N = 10 := N_3
  let t : Fin cfg3.N := ⟨(i 0).val / 5000, by rw [hN]; omega⟩
  have ht : t.val = (i 0).val / 5000 := rfl
  obtain ⟨-, -, -, -, -, -, -, -, -, -, -, -, e0, e1⟩ := idx_facts t
  refine ⟨t, flush3_8 t, ?_⟩
  rw [mem_blk8]
  intro a
  match a with
  | ⟨0, _⟩ =>
    show win3_8.index t (0 : Fin 2) * 5000 ≤ (i 0).val ∧ (i 0).val < win3_8.index t (0 : Fin 2) * 5000 + 5000
    omega
  | ⟨1, _⟩ =>
    show win3_8.index t (1 : Fin 2) * 128 ≤ (i 1).val ∧ (i 1).val < win3_8.index t (1 : Fin 2) * 128 + 128
    omega

/-- The result array after the region: the whole-array function of the arrays the region finds. -/
theorem out_array (c : Dev nD) : (dat3 V c).arrAt 8 cfg3.N
    = outFn (V c main_v26) (V c main_v52) (V c main_v53) (V c main_arg23) (V c main_arg24) (V c main_arg25)
        (V c main_v17) (V c main_arg29) :=
  (dat3 V c).arrAt_eq_of_cover 8 _ (fun t _ => flushed_eq V c t) covered8

/-! ## What the region finds in its arrays -/

section Entry

variable (m : (ℓ : Loc nD τ sig) → Buf (Elt Ideal) ℓ) (ρ : Dev nD → PrngReg) (c : Dev nD)

/-- No operation of a host stretch writes the buffer: each operation's one result is another reference. -/
local macro "not_written " ops:term : tactic => `(tactic| (
  refine List.forall_iff_forall_mem.mp ?_
  simp only [$ops:term, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- An input window's array is, after the region, what the region found; an argument no operation writes is, after the
    region, as launched: so the region found the learned weight as launched … -/
theorem entry_nw : (V9 m ρ c main_arg23 : V1 128) = aNw m c :=
  ((W10_arr m ρ c 3).trans (((dat3 (V9 m ρ) c).arrAt_in 3 rfl _).trans (A_eq3 (V9 m ρ) c 3))).symm.trans
    (W10_main_arg23 m ρ c)
/-- … the learned shift … -/
theorem entry_nb : (V9 m ρ c main_arg24 : V1 128) = aNb m c :=
  ((W10_arr m ρ c 4).trans (((dat3 (V9 m ρ) c).arrAt_in 4 rfl _).trans (A_eq3 (V9 m ρ) c 4))).symm.trans
    (W10_main_arg24 m ρ c)
/-- … the mean scale … -/
theorem entry_ms : (V9 m ρ c main_arg25 : V1 128) = aMs m c :=
  ((W10_arr m ρ c 5).trans (((dat3 (V9 m ρ) c).arrAt_in 5 rfl _).trans (A_eq3 (V9 m ρ) c 5))).symm.trans
    (W10_main_arg25 m ρ c)
/-- … and the last layer's bias. -/
theorem entry_fb : (V9 m ρ c main_arg29 : V1 128) = aFB m c :=
  ((W10_arr m ρ c 7).trans (((dat3 (V9 m ρ) c).arrAt_in 7 rfl _).trans (A_eq3 (V9 m ρ) c 7))).symm.trans
    (W10_main_arg29 m ρ c)

/-- The last layer's weight reaches the region transposed: the first host stretch transposes the launched weight into
    its buffer, and no later operation and no earlier region writes that buffer. -/
theorem entry_wt : (V9 m ρ c main_v17 : M2 128 128)
    = transpose S128x128 [1, 0] (aFW m c) transposes_S128x128_S128x128_1_0 :=
  calc W9 m ρ c (Proc.devRef .tc main_v17)
    _ = W8 m ρ c (Proc.devRef .tc main_v17) :=
          StableHlo.after_of_forall_not_mem (b := Proc.devRef .tc main_v17) _ _ (by not_written hostOps3_2)
    _ = W7 m ρ c (Proc.devRef .tc main_v17) :=
          StableHlo.after_of_forall_not_mem (b := Proc.devRef .tc main_v17) _ _ (by not_written hostOps3_1)
    _ = W6 m ρ c (Proc.devRef .tc main_v17) :=
          StableHlo.after_of_forall_not_mem (b := Proc.devRef .tc main_v17) _ _ (by not_written hostOps3)
    _ = W5 m ρ c (Proc.devRef .tc main_v17) := W6_of_ne m ρ c main_v17 (by decide)
    _ = W4 m ρ c (Proc.devRef .tc main_v17) :=
          StableHlo.after_of_forall_not_mem (b := Proc.devRef .tc main_v17) _ _ (by not_written hostOps2)
    _ = W3 m ρ c (Proc.devRef .tc main_v17) := W4_of_ne m ρ c main_v17 (by decide)
    _ = W2 m ρ c (Proc.devRef .tc main_v17) :=
          StableHlo.after_of_forall_not_mem (b := Proc.devRef .tc main_v17) _ _ (by not_written hostOps1)
    _ = W1 m ρ c (Proc.devRef .tc main_v17) := W2_of_ne m ρ c main_v17 (by decide)
    _ = transpose S128x128 [1, 0] (W0 m ρ c (Proc.devRef .tc main_arg28)) transposes_S128x128_S128x128_1_0 := by
          show StableHlo.after hostOps0 (W0 m ρ c) (Proc.devRef .tc main_v17) = _
          after_results
    _ = transpose S128x128 [1, 0] (aFW m c) transposes_S128x128_S128x128_1_0 := rfl

end Entry

end Region3

open Region3

variable (m : (ℓ : Loc nD τ sig) → Buf (Elt Ideal) ℓ) (ρ : Dev nD → PrngReg) (c : Dev nD)

/-- The result after region 3, from the node array and the gathered statistics as the region finds them. -/
theorem out_value : rows (bOut m ρ c) = fun n j => lin (aFW m c) (aFB m c)
    (fun k => (aNw m c (ix1 k) * (rows (bH' m ρ c) n k - rows (bMeanG m ρ c) n k * aMs m c (ix1 k)))
      * Ideal.rsqrt (rows (bVarG m ρ c) n k + epsW) + aNb m c (ix1 k)) j := by
  funext n j
  -- the result buffer after the region is the whole-array function of what the region found
  show W10 m ρ c (Proc.devRef .tc (Pipeline.arrRef spec3 8)) (ix2 n j) = _
  refine (congrFun ((W10_arr m ρ c 8).trans (out_array (V9 m ρ) c)) (ix2 n j)).trans ?_
  show outRows (V9 m ρ c main_v26) (V9 m ρ c main_v52) (V9 m ρ c main_v53) (V9 m ρ c main_arg23) (V9 m ρ c main_arg24)
    (V9 m ρ c main_arg25) (V9 m ρ c main_v17) (V9 m ρ c main_arg29) n j = _
  -- the vectors and the bias as launched, the weight transposed
  rw [entry_nw m ρ c, entry_nb m ρ c, entry_ms m ρ c, entry_wt m ρ c, entry_fb m ρ c]
  unfold outRows lin dotW
  refine congrArg₂ (· + ·) (Finset.sum_congr rfl fun k _ => ?_) rfl
  -- entry (k, j) of the transposed weight is entry (j, k) of the stored one
  rw [transpose_ix2_apply]
  rfl

end Cert.KernelIdeal.Legs

end
-- ==== Proof.KCarry.lean ====
/-
  Buffers that outlive the boundary they were written at: no later host operation and no later region writes them.
-/
import proofs.«416041_j69114613727529_2_alg».proof.Proof.KArgs

noncomputable section

namespace Cert.KernelIdeal.Legs

open Idealize.ShloMosaic Idealize.ShloMosaic.TcCoe Idealize.ShloMosaic.ValueIdx
open Idealize.SL.Sem
open Cert.KernelIdeal Cert.KernelIdeal.Gen Cert.Spec

variable (m : (ℓ : Loc nD τ sig) → Buf (Elt Ideal) ℓ) (ρ : Dev nD → PrngReg) (c : Dev nD)

namespace Carry

/-- The gather stretch between regions 0 and 1 reads the embedded features and writes them nowhere. -/
theorem x0_W3 : W3 (F := Ideal) m ρ c (dr main_v18) = W2 (F := Ideal) m ρ c (dr main_v18) :=
  StableHlo.after_of_forall_not_mem (b := Proc.devRef .tc main_v18) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- Region 1 has no window on the embedded features: they leave it as they entered. -/
theorem x0_W4 : W4 (F := Ideal) m ρ c (dr main_v18) = W3 (F := Ideal) m ρ c (dr main_v18) :=
  W4_of_ne m ρ c main_v18 (by decide)

/-- The scatter-add stretch between regions 1 and 2 writes its own table and slices only. -/
theorem x0_W5 : W5 (F := Ideal) m ρ c (dr main_v18) = W4 (F := Ideal) m ρ c (dr main_v18) :=
  StableHlo.after_of_forall_not_mem (b := Proc.devRef .tc main_v18) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The first statistics stretch after region 2 leaves the node array alone. -/
theorem h_W7 : W7 (F := Ideal) m ρ c (dr main_v26) = W6 (F := Ideal) m ρ c (dr main_v26) :=
  StableHlo.after_of_forall_not_mem (b := Proc.devRef .tc main_v26) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- So does the second. -/
theorem h_W8 : W8 (F := Ideal) m ρ c (dr main_v26) = W7 (F := Ideal) m ρ c (dr main_v26) :=
  StableHlo.after_of_forall_not_mem (b := Proc.devRef .tc main_v26) _ _ (List.forall_iff_forall_mem.mp (by
    simp only [hostOps3_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- And the third. -/
theorem h_W9 : W9 (F := Ideal) m ρ c (dr main_v26) = W8 (F := Ideal) m ρ c (dr main_v26) :=
  StableHlo.after_of_forall_not_mem (b := Proc.devRef .tc main_v26) _ _ (List.forall_iff_forall_mem.mp (by
    simp only [hostOps3_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Carry

open Carry

/-- The embedded features are still in place when region 2 starts. -/
theorem x0_carried : bX0' m ρ c = bX0 m ρ c :=
  (x0_W5 m ρ c).trans ((x0_W4 m ρ c).trans (x0_W3 m ρ c))

/-- The node array is still in place when region 3 starts. -/
theorem h_carried : bH' m ρ c = bH m ρ c :=
  (h_W9 m ρ c).trans ((h_W8 m ρ c).trans (h_W7 m ρ c))

end Cert.KernelIdeal.Legs

end
-- ==== Proof.KValue.lean ====
/-
  The idealized kernel's result as one function of its launch arrays: the four regions and the operations between
  them composed.
-/
import proofs.«416041_j69114613727529_2_alg».proof.Proof.KArgs
import proofs.«416041_j69114613727529_2_alg».proof.Proof.KRegion0
import proofs.«416041_j69114613727529_2_alg».proof.Proof.KTake
import proofs.«416041_j69114613727529_2_alg».proof.Proof.KRegion1
import proofs.«416041_j69114613727529_2_alg».proof.Proof.KAgg
import proofs.«416041_j69114613727529_2_alg».proof.Proof.KRegion2
import proofs.«416041_j69114613727529_2_alg».proof.Proof.KStats
import proofs.«416041_j69114613727529_2_alg».proof.Proof.KRegion3
import proofs.«416041_j69114613727529_2_alg».proof.Proof.KCarry

noncomputable section

namespace Cert.KernelIdeal.Legs

open Idealize.ShloMosaic Idealize.ShloMosaic.TcCoe Idealize.ShloMosaic.ValueIdx
open Idealize.SL.Sem
open Cert.KernelIdeal Cert.KernelIdeal.Gen Cert.Spec

variable (m : (ℓ : Loc nD τ sig) → Buf (Elt Ideal) ℓ) (ρ : Dev nD → PrngReg) (c : Dev nD)

/-- The node array after region 2 is the common pre-normalisation array. -/
theorem h_eq_hpre (hsrc : ∀ e, InRange nN (srcOf (aEdges m c) e)) : rows (bH m ρ c) = (hpre (aX m c) (aF1 m c) (aF2 m c) (srcOf (aEdges m c)) (dstOf (aEdges m c))
      (aLinW m c) (aLinB m c) (aF1W1 m c) (aF1W2 m c) (aF2W1 m c) (aF2W2 m c)
      (aC1rW m c) (aC1rB m c) (aC1oW m c) (aC2rW m c) (aC2rB m c) (aC2oW m c)
      (aL1W m c) (aL1B m c) (aL2W m c) (aL2B m c) (aCatW m c) (aCatB m c) (aLinsW m c) (aLinsB m c)) := by
  rw [h_value, x0_carried, agg1_value, agg2_value, msg_left, msg_right, xsrc_value m ρ c hsrc, x0_value]
  rfl

/-- The kernel's result is the second-moment form of the normalised output over that array. -/
theorem kernel_value (hsrc : ∀ e, InRange nN (srcOf (aEdges m c) e)) (hb : ∀ n, InRange nG (words (aBatch m c) n)) :
    rows (bOut m ρ c) = outMoment (words (aBatch m c)) (aNw m c) (aNb m c) (aMs m c) (aFW m c) (aFB m c) (hpre (aX m c) (aF1 m c) (aF2 m c) (srcOf (aEdges m c)) (dstOf (aEdges m c))
      (aLinW m c) (aLinB m c) (aF1W1 m c) (aF1W2 m c) (aF2W1 m c) (aF2W2 m c)
      (aC1rW m c) (aC1rB m c) (aC1oW m c) (aC2rW m c) (aC2rB m c) (aC2oW m c)
      (aL1W m c) (aL1B m c) (aL2W m c) (aL2B m c) (aCatW m c) (aCatB m c) (aLinsW m c) (aLinsB m c)) := by
  rw [out_value, h_carried, meanG_value m ρ c hb, varG_value m ρ c hb, h_eq_hpre m ρ c hsrc]
  rfl

end Cert.KernelIdeal.Legs

end
-- ==== Proof.RArgs.lean ====
/-
  The idealized reference's launch arrays, each at its literal type, and the named intermediate arrays of its run.
-/
import proofs.«416041_j69114613727529_2_alg».proof.Proof.Gen.ReferenceIdeal.Run
import proofs.«416041_j69114613727529_2_alg».proof.Proof.Spec

noncomputable section

namespace Cert.ReferenceIdeal.Legs

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec

variable (m : (ℓ : Loc nD τ sig) → Buf (Elt Ideal) ℓ) (c : Dev nD)

/-- The device's contents at launch. -/
abbrev V0 : Valuation τ sig (Elt Ideal) := launchContents m c

abbrev rX : M2 nN 128 := V0 m c (Proc.devRef .tc main_arg0)
abbrev rF1 : M2 nE 54 := V0 m c (Proc.devRef .tc main_arg1)
abbrev rF2 : M2 nE 18 := V0 m c (Proc.devRef .tc main_arg2)
abbrev rEdges : I2 2 nE := V0 m c (Proc.devRef .tc main_arg3)
abbrev rBatch : I1 nN := V0 m c (Proc.devRef .tc main_arg4)
abbrev rLinW : M2 128 128 := V0 m c (Proc.devRef .tc main_arg5)
abbrev rLinB : V1 128 := V0 m c (Proc.devRef .tc main_arg6)
abbrev rF1W1 : M2 64 54 := V0 m c (Proc.devRef .tc main_arg7)
abbrev rF1W2 : M2 128 64 := V0 m c (Proc.devRef .tc main_arg8)
abbrev rF2W1 : M2 64 18 := V0 m c (Proc.devRef .tc main_arg9)
abbrev rF2W2 : M2 128 64 := V0 m c (Proc.devRef .tc main_arg10)
abbrev rC1rW : M2 128 128 := V0 m c (Proc.devRef .tc main_arg11)
abbrev rC1rB : V1 128 := V0 m c (Proc.devRef .tc main_arg12)
abbrev rC1oW : M2 128 128 := V0 m c (Proc.devRef .tc main_arg13)
abbrev rC2rW : M2 128 128 := V0 m c (Proc.devRef .tc main_arg14)
abbrev rC2rB : V1 128 := V0 m c (Proc.devRef .tc main_arg15)
abbrev rC2oW : M2 128 128 := V0 m c (Proc.devRef .tc main_arg16)
abbrev rL1W : M2 128 128 := V0 m c (Proc.devRef .tc main_arg17)
abbrev rL1B : V1 128 := V0 m c (Proc.devRef .tc main_arg18)
abbrev rL2W : M2 128 128 := V0 m c (Proc.devRef .tc main_arg19)
abbrev rL2B : V1 128 := V0 m c (Proc.devRef .tc main_arg20)
abbrev rCatW : M2 128 256 := V0 m c (Proc.devRef .tc main_arg21)
abbrev rCatB : V1 128 := V0 m c (Proc.devRef .tc main_arg22)
abbrev rNw : V1 128 := V0 m c (Proc.devRef .tc main_arg23)
abbrev rNb : V1 128 := V0 m c (Proc.devRef .tc main_arg24)
abbrev rMs : V1 128 := V0 m c (Proc.devRef .tc main_arg25)
abbrev rLinsW : T3 3 128 128 := V0 m c (Proc.devRef .tc main_arg26)
abbrev rLinsB : M2 3 128 := V0 m c (Proc.devRef .tc main_arg27)
abbrev rFW : M2 128 128 := V0 m c (Proc.devRef .tc main_arg28)
abbrev rFB : V1 128 := V0 m c (Proc.devRef .tc main_arg29)

/-- The run's named arrays: the embedded features; the two convolution branches before their gate; the join; the
    array after each residual layer, the last being the node array before the normalisation; the result. -/
abbrev tX0 : M2 nN 128 := res_main_v15 (V0 m c)
abbrev tPre1 : M2 nN 128 := res_main_v47 (V0 m c)
abbrev tPre2 : M2 nN 128 := res_main_v78 (V0 m c)
abbrev tJoin : M2 nN 128 := res_main_v92 (V0 m c)
abbrev tRes0 : M2 nN 128 := res_main_v109 (V0 m c)
abbrev tRes1 : M2 nN 128 := res_main_v126 (V0 m c)
abbrev tH : M2 nN 128 := res_main_v143 (V0 m c)
abbrev tOut : M2 nN 128 := val4 (V0 m c) (Proc.devRef .tc main_v195)

end Cert.ReferenceIdeal.Legs

end
-- ==== Proof.RDense.lean ====
/-
  A dense layer `y = a Wᵀ + b` of the reference and the gate `y · (1 / (1 + e^{-y}))`, read entry by entry: the lemmas the
  embedding layer and the three residual layers share.
-/
import proofs.«416041_j69114613727529_2_alg».proof.Proof.RArgs
import Idealize.ShloMosaic.Lib.ValueLayout
import Idealize.ShloMosaic.Lib.IdealHost

noncomputable section

open scoped BigOperators

namespace Cert.ReferenceIdeal.Legs

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec
open Idealize.ShloMosaic.RowDims

/-! ## A dense layer and the gate, entry by entry

The layer is `y = a Wᵀ + b`: a plain product of the operand with the transposed weight, plus the bias repeated down the
rows. The gate is `y · (1 / (1 + e^{-y}))`, the constant one being the word `0x3F800000`. -/

/-- The all-ones array reads one at every entry. -/
theorem ones_entry (i : S50000x128.Idx) :
    broadcastInDim S50000x128 ![] bcast_S_S50000x128 (constant (F := Ideal) S_ .f32 0x3F800000#32) i = 1 := by
  rw [broadcastInDim_scalar_apply, constant_apply, Ideal.ofBits_one_f32]

/-- The gate spelt `y · (1 / (1 + e^{-y}))` is `swish y` at every entry. -/
theorem swish_entry (y : FVec Ideal S50000x128 .f32) (i : S50000x128.Idx) :
    mulf y (Host.divf (broadcastInDim S50000x128 ![] bcast_S_S50000x128 (constant (F := Ideal) S_ .f32 0x3F800000#32))
      (addf (broadcastInDim S50000x128 ![] bcast_S_S50000x128 (constant (F := Ideal) S_ .f32 0x3F800000#32))
        (Host.exp (Host.negf y)))) i = swish (y i) := by
  rw [mulf_apply, hostDivf_apply, addf_apply, ones_entry]
  -- what is left is the definition of the logistic function
  rfl

/-- The contraction of a dense layer is the plain rows-by-columns one. -/
theorem dot_plain : dot_S50000x128_S128x128_S50000x128_1_0_0_1_n_n = DotDims.plain 50000 128 128 := rfl

/-- The bias vector, made a one-row matrix and then repeated down the rows, reads its entry `j` at `(n, j)`. -/
theorem bias_entry (bv : FVec Ideal S128 .f32) (n : Fin 50000) (j : Fin 128) :
    broadcastInDim S50000x128 ![0, 1] bcast_S1x128_S50000x128_0_1 (broadcastInDim S1x128 ![1] bcast_S128_S1x128_1 bv) (ix2 n j)
      = bv (ix1 j) := by
  rw [broadcastInDim_apply _ _ _ (ix2 n j) (ix2 (0 : Fin 1) j) (fun a => by
        match a with
        | ⟨0, _⟩ => rfl
        | ⟨1, _⟩ => rfl)]
  exact broadcastInDim_apply _ _ _ (ix2 (0 : Fin 1) j) (ix1 j) (fun a => by
        match a with
        | ⟨0, _⟩ => rfl)

/-- A weight stored `[out, in]`, transposed, reads at `(k, j)` the weight at `(j, k)`. -/
theorem weightT_entry (W : FVec Ideal S128x128 .f32) (k j : Fin 128) :
    transpose S128x128 [1, 0] W transposes_S128x128_S128x128_1_0 (ix2 k j) = W (ix2 j k) :=
  transpose_ix2_apply W _ k j

/-- A dense layer at the entry `(n, j)`: row `n` of the operand against column `j` of the right factor — which is row
    `j` of a weight `W` stored `[out, in]` — plus entry `j` of the bias. -/
theorem dense_entry (a : FVec Ideal S50000x128 .f32) (Wt : FVec Ideal S128x128 .f32) (bv : FVec Ideal S128 .f32)
    (W : Fin 128 → Fin 128 → EReal) (hW : ∀ k j, Wt (ix2 k j) = W j k) (n : Fin 50000) (j : Fin 128) :
    addf (Host.dotGeneral dot_S50000x128_S128x128_S50000x128_1_0_0_1_n_n none a Wt)
        (broadcastInDim S50000x128 ![0, 1] bcast_S1x128_S50000x128_0_1 (broadcastInDim S1x128 ![1] bcast_S128_S1x128_1 bv)) (ix2 n j)
      = (∑ k : Fin 128, a (ix2 n k) * W j k) + bv (ix1 j) := by
  rw [addf_apply, bias_entry, dot_plain]
  refine congrArg (· + bv (ix1 j)) ((dotGeneral_plain_apply none .single a Wt n j).trans ?_)
  exact Finset.sum_congr rfl fun k _ => congrArg (a (ix2 n k) * ·) (hW k j)

end Cert.ReferenceIdeal.Legs

end
-- ==== Proof.RX0.lean ====
/-
  The reference's first dense layer and gate, written out as `1 / (1 + e^{-y})`, entry by entry.
-/
import proofs.«416041_j69114613727529_2_alg».proof.Proof.RDense

noncomputable section

open scoped BigOperators

namespace Cert.ReferenceIdeal.Legs

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec
open Idealize.ShloMosaic.RowDims

variable (m : (ℓ : Loc nD τ sig) → Buf (Elt Ideal) ℓ) (c : Dev nD)

/-- The embedded node features of the reference. -/
theorem ref_x0 : rows (tX0 m c) = x0 (rX m c) (rLinW m c) (rLinB m c) := by
  funext n j
  show res_main_v15 (V0 m c) (ix2 n j) = _
  -- the gate over the dense layer of the node features
  unfold res_main_v15
  rw [swish_entry]
  unfold res_main_v8
  rw [dense_entry _ _ _ (fun j k => rLinW m c (ix2 j k)) (fun k j => weightT_entry _ k j)]
  rfl

end Cert.ReferenceIdeal.Legs

end
-- ==== Proof.RConv.lean ====
/-
  The reference's two convolution branches up to their gate: project the edge features, multiply by the source
  node's row (a source index that is a node is its own wrapped index, and the gather reads that row), sum into the
  destination nodes, combine with the node's own row, and one more dense layer.
-/
import proofs.«416041_j69114613727529_2_alg».proof.Proof.RArgs
import Idealize.ShloMosaic.Lib.Pipeline.Value
import Idealize.ShloMosaic.Lib.ValueLayout

noncomputable section

namespace Cert.ReferenceIdeal.Legs

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec
open Idealize.ShloMosaic.RowDims
open scoped BigOperators

variable (m : (ℓ : Loc nD τ sig) → Buf (Elt Ideal) ℓ) (c : Dev nD)

namespace Conv

/-! The records of the run's products, gather and scatter are the plain matrix product and the row gather / row
    scatter over literal extents. -/
theorem dot128_plain : dot_S50000x128_S128x128_S50000x128_1_0_0_1_n_n = DotDims.plain 50000 128 128 := rfl
theorem dotE64_plain : dot_S1000000x64_S64x128_S1000000x128_1_0_0_1_n_n = DotDims.plain 1000000 64 128 := rfl
theorem dotF54_plain : dot_S1000000x54_S54x64_S1000000x64_1_0_0_1_n_n = DotDims.plain 1000000 54 64 := rfl
theorem dotF18_plain : dot_S1000000x18_S18x64_S1000000x64_1_0_0_1_n_n = DotDims.plain 1000000 18 64 := rfl
theorem gather_row : gather_S50000x128_S1000000x1_S1000000x128_1_0_n_n_0_1_1128
    = rowGather 50000 128 1000000 gather_S50000x128_S1000000x1_S1000000x128_1_0_n_n_0_1_1128_wf := rfl
theorem scatter_row : scatter_S50000x128_S1000000x1_S1000000x128_1_0_0_1
    = rowScatter 50000 128 1000000 scatter_S50000x128_S1000000x1_S1000000x128_1_0_0_1_wf := rfl

/-- A row through a weight stored `[out, in]`: the product with the transposed weight, entry by entry. -/
theorem denseT_apply {M I O : Nat} (x : (⟨2, ![M, I]⟩ : Shape).Idx → EReal) (W : (⟨2, ![O, I]⟩ : Shape).Idx → EReal)
    (h : (⟨2, ![O, I]⟩ : Shape).Transposes [1, 0] ⟨2, ![I, O]⟩) (n : Fin M) (j : Fin O) :
    Host.dotGeneral (F := Ideal) (φ₁ := .f32) (φ₂ := .f32) (DotDims.plain M I O) none x (transpose ⟨2, ![I, O]⟩ [1, 0] W h) (ix2 n j)
      = dotW W (fun k => x (ix2 n k)) j := by
  refine (dotGeneral_plain_apply (φ₁ := .f32) (φ₂ := .f32) none .single x _ n j).trans ?_
  exact Finset.sum_congr rfl fun k _ => by rw [transpose_ix2_apply]

/-- A bias vector laid along every row reads, at `(n, j)`, its entry `j`. -/
theorem bias_apply {α : Type} {M O : Nat} (b : (⟨1, ![O]⟩ : Shape).Idx → α)
    (h₁ : (⟨1, ![O]⟩ : Shape).BroadcastsInDim ⟨2, ![1, O]⟩ ![1])
    (h₂ : (⟨2, ![1, O]⟩ : Shape).BroadcastsInDim ⟨2, ![M, O]⟩ ![0, 1]) (n : Fin M) (j : Fin O) :
    broadcastInDim ⟨2, ![M, O]⟩ ![0, 1] h₂ (broadcastInDim ⟨2, ![1, O]⟩ ![1] h₁ b) (ix2 n j) = b (ix1 j) := by
  have hj := j.isLt
  refine (broadcastInDim_apply _ h₂ _ _ (ix2 (0 : Fin 1) j) fun a => ?_).trans
    (broadcastInDim_apply _ h₁ b _ (ix1 j) fun a => ?_)
  · match a with
    | ⟨0, _⟩ => exact (if_pos rfl).symm
    | ⟨1, _⟩ =>
      show j.val = if O = 1 then 0 else j.val
      split <;> omega
  · match a with
    | ⟨0, _⟩ =>
      show j.val = if O = 1 then 0 else j.val
      split <;> omega

/-- An index vector laid as a one-column array reads, at `(e, 0)`, its entry `e`. -/
theorem col_apply {α : Type} {R : Nat} (v : (⟨1, ![R]⟩ : Shape).Idx → α)
    (h : (⟨1, ![R]⟩ : Shape).BroadcastsInDim ⟨2, ![R, 1]⟩ ![0]) (e : Fin R) :
    broadcastInDim ⟨2, ![R, 1]⟩ ![0] h v (ix2 e (0 : Fin 1)) = v (ix1 e) := by
  have he := e.isLt
  refine broadcastInDim_apply _ h v _ (ix1 e) fun a => ?_
  match a with
  | ⟨0, _⟩ =>
    show e.val = if R = 1 then 0 else e.val
    split <;> omega

/-- A scalar laid over a whole shape reads that scalar everywhere. -/
theorem splat_apply {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 fun a => a.elim0

/-- Row `r` of a two-row index array, as a vector, reads at `e` the array's entry `(r, e)`. -/
theorem rowOf_apply {R : Nat} (r : Fin 2) (ei : (⟨2, ![2, R]⟩ : Shape).Idx → BitVec 32)
    (hs : (⟨2, ![2, R]⟩ : Shape).Slices ![r.val, 0] ⟨2, ![1, R]⟩)
    (hc : (⟨2, ![1, R]⟩ : Shape).ShapeCasts ⟨1, ![R]⟩) (e : Fin R) :
    shapeCast ⟨1, ![R]⟩ (extractStridedSlice ⟨2, ![1, R]⟩ ![r.val, 0] ei hs) hc (ix1 e) = ei (ix2 r e) := by
  refine (shapeCast_apply _ hc (ix1 e) (ix2 (0 : Fin 1) e) ?_).trans
    (extractStridedSlice_apply _ ei hs _ (ix2 r e) fun a => ?_)
  · rw [Shape.rowMajor_val_two, Shape.rowMajor_val_one]
    show 0 * R + e.val = e.val
    omega
  · match a with
    | ⟨0, _⟩ => show r.val = r.val + 0; omega
    | ⟨1, _⟩ => show e.val = 0 + e.val; omega

/-- The host's accumulating scatter at the ideal values is the exact sum. -/
theorem hostScatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The wrap of a negative index, `select (s < 0) (s + K) s`, leaves a non-negative index word as it is. -/
theorem wrap_apply {R : Nat} (s : (⟨1, ![R]⟩ : Shape).Idx → BitVec 32)
    (h : (⟨0, ![]⟩ : Shape).BroadcastsInDim ⟨1, ![R]⟩ ![]) (K : BitVec 32) (e : Fin R)
    (hs : 0 ≤ (s (ix1 e)).toInt) :
    select (cmpi .slt s (broadcastInDim ⟨1, ![R]⟩ ![] h (constantI ⟨0, ![]⟩ 32 0#32)))
        (addi s (broadcastInDim ⟨1, ![R]⟩ ![] h (constantI ⟨0, ![]⟩ 32 K))) s (ix1 e) = s (ix1 e) := by
  show Scalar.select (IntOp.cmpi .slt (s (ix1 e)) (broadcastInDim ⟨1, ![R]⟩ ![] h (constantI ⟨0, ![]⟩ 32 0#32) (ix1 e))) _ _ = _
  rw [splat_apply]
  show (if BitVec.ofBool ((s (ix1 e)).slt 0#32) = 1 then _ else _) = _
  rw [if_neg]
  have h0 : (0#32 : BitVec 32).toInt = 0 := by decide
  have hlt : (s (ix1 e)).slt 0#32 = false := by
    simp only [BitVec.slt, h0, decide_eq_false_iff_not]; omega
  rw [hlt]; decide

/-- The gather of table rows at one-column start indices reads, at `(e, j)`, the table's row `clampRow` of the index. -/
theorem gatherRow_apply (X : (⟨2, ![50000, 128]⟩ : Shape).Idx → EReal) (idx : IVec ⟨2, ![1000000, 1]⟩ 32)
    (e : Fin 1000000) (j : Fin 128) :
    Host.gather gather_S50000x128_S1000000x1_S1000000x128_1_0_n_n_0_1_1128 X idx (ix2 e j)
      = X (ix2 (clampRow 50000 (by decide) (idx (ix2 e 0))) j) := by
  rw [gather_row]
  exact rowGather_apply (by decide) _ X idx e j

/-- The scatter-add of update rows into the zero table reads, at `(n, j)`, the sum of the updates' entries `(e, j)`
    over the rows `e` whose signed index is `n`. -/
theorem scatterRow_apply (h : (⟨0, ![]⟩ : Shape).BroadcastsInDim ⟨2, ![50000, 128]⟩ ![])
    (idx : IVec ⟨2, ![1000000, 1]⟩ 32) (upd : (⟨2, ![1000000, 128]⟩ : Shape).Idx → EReal) (n : Fin 50000) (j : Fin 128) :
    Host.scatterAdd (F := Ideal) (φ := .f32) scatter_S50000x128_S1000000x1_S1000000x128_1_0_0_1
        (broadcastInDim ⟨2, ![50000, 128]⟩ ![] h (constant (F := Ideal) ⟨0, ![]⟩ .f32 0x00000000#32)) idx upd (ix2 n j)
      = ∑ e : Fin 1000000, if (idx (ix2 e 0)).toInt = (n.val : Int) then upd (ix2 e j) else 0 := by
  rw [hostScatterAdd_eq, scatter_row, rowScatterAdd_apply, splat_apply, constant_apply, Ideal.ofBits_zero_f32, zero_add]

/-- The sum of messages into a node, written out. -/
theorem agg_def (u : Rows nE) (dst : Fin nE → BitVec 32) (n : Fin nN) (j : Fin 128) :
    agg u dst n j = ∑ e : Fin nE, if (dst e).toInt = (n.val : Int) then u e j else 0 := rfl

/-- An edge feature array through the two transposed weights is `proj`, entry by entry. -/
theorem proj_apply {I : Nat} (dF : DotDims ⟨2, ![1000000, I]⟩ ⟨2, ![I, 64]⟩ ⟨2, ![1000000, 64]⟩)
    (hdF : dF = DotDims.plain 1000000 I 64)
    (f : FVec Ideal ⟨2, ![1000000, I]⟩ .f32) (W1 : FVec Ideal ⟨2, ![64, I]⟩ .f32)
    (hT1 : (⟨2, ![64, I]⟩ : Shape).Transposes [1, 0] ⟨2, ![I, 64]⟩) (W2 : FVec Ideal S128x64 .f32)
    (e : Fin 1000000) (j : Fin 128) :
    Host.dotGeneral dot_S1000000x64_S64x128_S1000000x128_1_0_0_1_n_n none
        (Host.dotGeneral dF none f (transpose ⟨2, ![I, 64]⟩ [1, 0] W1 hT1))
        (transpose S64x128 [1, 0] W2 transposes_S128x64_S64x128_1_0) (ix2 e j)
      = proj f W1 W2 e j := by
  subst hdF
  rw [dotE64_plain]
  refine (denseT_apply _ W2 _ e j).trans ?_
  exact congrArg (fun a => dotW W2 a j) (funext fun q => denseT_apply f W1 hT1 e q)

/-- The gather at the wrapped source words reads the source node's row. -/
theorem gather_wrap_apply (X0 : FVec Ideal S50000x128 .f32) (src : IVec S1000000 32)
    (hsrc : ∀ e : Fin 1000000, 0 ≤ (src (ix1 e)).toInt) (e : Fin 1000000) (j : Fin 128) :
    Host.gather gather_S50000x128_S1000000x1_S1000000x128_1_0_n_n_0_1_1128 X0
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src)) (ix2 e j)
      = gatherRows (rows X0) (words src) e j := by
  rw [gatherRow_apply, col_apply, wrap_apply src _ _ e (hsrc e)]
  rfl

/-- The messages, projected features times gathered rows, summed into their destination nodes. -/
theorem scatter_msg_apply (P G : FVec Ideal S1000000x128 .f32) (p hs : Rows nE) (dst : IVec S1000000 32)
    (hP : ∀ e j, P (ix2 e j) = p e j) (hG : ∀ e j, G (ix2 e j) = hs e j) (n : Fin 50000) (j : Fin 128) :
    Host.scatterAdd scatter_S50000x128_S1000000x1_S1000000x128_1_0_0_1
        (broadcastInDim S50000x128 ![] bcast_S_S50000x128 (constant S_ .f32 0x00000000#32))
        (broadcastInDim S1000000x1 ![0] bcast_S1000000_S1000000x1_0 dst) (mulf P G) (ix2 n j)
      = agg (msg p hs) (words dst) n j := by
  rw [scatterRow_apply, agg_def]
  refine Finset.sum_congr rfl fun e _ => ?_
  rw [col_apply, mulf_apply, hP e j, hG e j]
  rfl

/-- One convolution branch of the reference up to its gate, entry by entry: the projected edge features times the
    gathered source rows, summed into the destination nodes, mixed with the node's own row, then one dense layer. -/
theorem branch_apply {I : Nat} (dF : DotDims ⟨2, ![1000000, I]⟩ ⟨2, ![I, 64]⟩ ⟨2, ![1000000, 64]⟩)
    (hdF : dF = DotDims.plain 1000000 I 64)
    (f : FVec Ideal ⟨2, ![1000000, I]⟩ .f32) (W1 : FVec Ideal ⟨2, ![64, I]⟩ .f32)
    (hT1 : (⟨2, ![64, I]⟩ : Shape).Transposes [1, 0] ⟨2, ![I, 64]⟩) (W2 : FVec Ideal S128x64 .f32)
    (X0 : FVec Ideal S50000x128 .f32) (src dst : IVec S1000000 32)
    (Wrel : FVec Ideal S128x128 .f32) (brel : FVec Ideal S128 .f32) (Wroot Wl : FVec Ideal S128x128 .f32)
    (bl : FVec Ideal S128 .f32)
    (hsrc : ∀ e : Fin 1000000, 0 ≤ (src (ix1 e)).toInt) (n : Fin 50000) (j : Fin 128) :
    addf (Host.dotGeneral dot_S50000x128_S128x128_S50000x128_1_0_0_1_n_n none
        (addf (addf (Host.dotGeneral dot_S50000x128_S128x128_S50000x128_1_0_0_1_n_n none
              (Host.scatterAdd scatter_S50000x128_S1000000x1_S1000000x128_1_0_0_1
                (broadcastInDim S50000x128 ![] bcast_S_S50000x128 (constant S_ .f32 0x00000000#32))
                (broadcastInDim S1000000x1 ![0] bcast_S1000000_S1000000x1_0 dst)
                (mulf (Host.dotGeneral dot_S1000000x64_S64x128_S1000000x128_1_0_0_1_n_n none
                        (Host.dotGeneral dF none f (transpose ⟨2, ![I, 64]⟩ [1, 0] W1 hT1))
                        (transpose S64x128 [1, 0] W2 transposes_S128x64_S64x128_1_0))
                  (Host.gather gather_S50000x128_S1000000x1_S1000000x128_1_0_n_n_0_1_1128 X0
                    (broadcastInDim S1000000x1 ![0] bcast_S1000000_S1000000x1_0
                      (select (cmpi .slt src (broadcastInDim S1000000 ![] bcast_S_S1000000 (constantI S_ 32 0#32)))
                        (addi src (broadcastInDim S1000000 ![] bcast_S_S1000000 (constantI S_ 32 50000#32))) src)))))
              (transpose S128x128 [1, 0] Wrel transposes_S128x128_S128x128_1_0))
            (broadcastInDim S50000x128 ![0, 1] bcast_S1x128_S50000x128_0_1 (broadcastInDim S1x128 ![1] bcast_S128_S1x128_1 brel)))
          (Host.dotGeneral dot_S50000x128_S128x128_S50000x128_1_0_0_1_n_n none X0
            (transpose S128x128 [1, 0] Wroot transposes_S128x128_S128x128_1_0)))
        (transpose S128x128 [1, 0] Wl transposes_S128x128_S128x128_1_0))
      (broadcastInDim S50000x128 ![0, 1] bcast_S1x128_S50000x128_0_1 (broadcastInDim S1x128 ![1] bcast_S128_S1x128_1 bl))
      (ix2 n j)
    = lin Wl bl (fun k => lin Wrel brel (agg (msg (proj f W1 W2) (gatherRows (rows X0) (words src))) (words dst) n) k
        + dotW Wroot (rows X0 n) k) j := by
  rw [addf_apply, bias_apply, dot128_plain, denseT_apply]
  refine congrArg (fun a => dotW Wl a j + bl (ix1 j)) (funext fun k => ?_)
  rw [addf_apply, addf_apply, bias_apply, denseT_apply, denseT_apply]
  refine congrArg (fun a => dotW Wrel a k + brel (ix1 k) + dotW Wroot (fun k' => X0 (ix2 n k')) k) (funext fun q => ?_)
  exact scatter_msg_apply _ _ _ _ dst (proj_apply dF hdF f W1 hT1 W2) (gather_wrap_apply X0 src hsrc) n q

/-- The run's source words are the first row of the edge list. -/
theorem srcWords_eq : words (res_main_v1 (V0 m c)) = srcOf (rEdges m c) :=
  funext fun e => rowOf_apply 0 (rEdges m c) slices_S2x1000000_S1x1000000_0_0 shapeCasts_S1x1000000_S1000000 e

/-- The run's destination words are the second row of the edge list. -/
theorem dstWords_eq : words (res_main_v3 (V0 m c)) = dstOf (rEdges m c) :=
  funext fun e => rowOf_apply 1 (rEdges m c) slices_S2x1000000_S1x1000000_1_0 shapeCasts_S1x1000000_S1000000 e

/-- A source word that names a node is non-negative. -/
theorem srcWords_nonneg (hsrc : ∀ e, InRange nN (srcOf (rEdges m c) e)) (e : Fin 1000000) :
    0 ≤ (res_main_v1 (V0 m c) (ix1 e)).toInt :=
  le_of_le_of_eq (hsrc e).1 (congrArg BitVec.toInt (congrFun (srcWords_eq m c) e)).symm

end Conv

open Conv

/-- The first branch before its gate. -/
theorem ref_pre1 (hsrc : ∀ e, InRange nN (srcOf (rEdges m c) e)) : rows (tPre1 m c) =
    fun n j => lin (rL1W m c) (rL1B m c)
      (fun k => lin (rC1rW m c) (rC1rB m c)
          (agg (msg (proj (rF1 m c) (rF1W1 m c) (rF1W2 m c)) (gatherRows (rows (tX0 m c)) (srcOf (rEdges m c)))) (dstOf (rEdges m c)) n) k
        + dotW (rC1oW m c) (rows (tX0 m c) n) k) j := by
  funext n j
  rw [← srcWords_eq m c, ← dstWords_eq m c]
  exact branch_apply dot_S1000000x54_S54x64_S1000000x64_1_0_0_1_n_n dotF54_plain (rF1 m c) (rF1W1 m c)
    transposes_S64x54_S54x64_1_0 (rF1W2 m c) (tX0 m c) (res_main_v1 (V0 m c)) (res_main_v3 (V0 m c))
    (rC1rW m c) (rC1rB m c) (rC1oW m c) (rL1W m c) (rL1B m c) (srcWords_nonneg m c hsrc) n j

/-- The second branch before its gate. -/
theorem ref_pre2 (hsrc : ∀ e, InRange nN (srcOf (rEdges m c) e)) : rows (tPre2 m c) =
    fun n j => lin (rL2W m c) (rL2B m c)
      (fun k => lin (rC2rW m c) (rC2rB m c)
          (agg (msg (proj (rF2 m c) (rF2W1 m c) (rF2W2 m c)) (gatherRows (rows (tX0 m c)) (srcOf (rEdges m c)))) (dstOf (rEdges m c)) n) k
        + dotW (rC2oW m c) (rows (tX0 m c) n) k) j := by
  funext n j
  rw [← srcWords_eq m c, ← dstWords_eq m c]
  exact branch_apply dot_S1000000x18_S18x64_S1000000x64_1_0_0_1_n_n dotF18_plain (rF2 m c) (rF2W1 m c)
    transposes_S64x18_S18x64_1_0 (rF2W2 m c) (tX0 m c) (res_main_v1 (V0 m c)) (res_main_v3 (V0 m c))
    (rC2rW m c) (rC2rB m c) (rC2oW m c) (rL2W m c) (rL2B m c) (srcWords_nonneg m c hsrc) n j

end Cert.ReferenceIdeal.Legs

end
-- ==== Proof.RJoin.lean ====
/-
  The reference's join: one dense layer over the concatenation of the two gated branches. A sum over the 256
  concatenated columns is the sum over the first 128 plus the sum over the last 128.

  Entry `(n, j)` of the join is `Σ_{k < 256} cat(n, k) · Wᵀ(k, j) + b(j) + x0(n, j)`, where `cat` puts the gated first
  branch on columns `0 … 127` and the gated second branch on columns `128 … 255`, and `Wᵀ(k, j) = W(j, k)` for the
  weight `W` stored `[out, in]`. Splitting the sum at column 128 gives
  `Σ_{k < 128} g₁(n, k) · W(j, k) + Σ_{k < 128} g₂(n, k) · W(j, 128 + k)`. The gate is written
  `y · (1 / (1 + e^{-y}))`, the ones being the splat of the word that encodes `1`: that is `y · σ(y)`.
-/
import proofs.«416041_j69114613727529_2_alg».proof.Proof.RArgs
import Idealize.ShloMosaic.Lib.Pipeline.Value
import Idealize.ShloMosaic.Lib.ValueLayout
import Idealize.ShloMosaic.Lib.IdealHost

noncomputable section

open scoped BigOperators

namespace Cert.ReferenceIdeal.Legs

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec

variable (m : (ℓ : Loc nD τ sig) → Buf (Elt Ideal) ℓ) (c : Dev nD)

/-! ## The pieces of one entry, over arbitrary arrays -/

/-- The gate as it is written out, `y · (1 / (1 + e^{-y}))` with both ones the splat of the word of `1`, is `swish`:
    a splat scalar reads its value everywhere, the word `0x3F800000` is `1`, and `1 / (1 + e^{-y})` is `σ(y)`. -/
theorem gate_apply (y : M2 nN 128) (i : S50000x128.Idx) :
    mulf (F := Ideal) (φ := .f32) y (Host.divf (broadcastInDim S50000x128 ![] bcast_S_S50000x128 (constant (F := Ideal) S_ .f32 0x3F800000#32))
      (addf (broadcastInDim S50000x128 ![] bcast_S_S50000x128 (constant (F := Ideal) S_ .f32 0x3F800000#32)) (Host.exp (Host.negf y)))) i
      = swish (y i) := by
  show y i * Ideal.div (broadcastInDim S50000x128 ![] bcast_S_S50000x128 (constant (F := Ideal) S_ .f32 0x3F800000#32) i)
      (broadcastInDim S50000x128 ![] bcast_S_S50000x128 (constant (F := Ideal) S_ .f32 0x3F800000#32) i + Ideal.exp (-(y i))) = _
  rw [broadcastInDim_scalar_apply, constant_apply, Ideal.ofBits_one_f32]
  rfl

/-- The bias, made a one-row matrix and then repeated down the 50000 rows, reads at `(n, j)` its entry `j`. -/
theorem bias_apply (b : V1 128) (n : Fin nN) (j : Fin 128) :
    broadcastInDim S50000x128 ![0, 1] bcast_S1x128_S50000x128_0_1 (broadcastInDim S1x128 ![1] bcast_S128_S1x128_1 b) (ix2 n j)
      = b (ix1 j) := by
  -- down the rows: row `n` of the repeated matrix is the one row
  rw [broadcastInDim_apply ![0, 1] bcast_S1x128_S50000x128_0_1 _ (ix2 n j) (ix2 (0 : Fin 1) j)
    (fun a => by match a with | ⟨0, _⟩ => rfl | ⟨1, _⟩ => rfl)]
  -- the one row is the vector
  exact broadcastInDim_apply ![1] bcast_S128_S1x128_1 b (ix2 (0 : Fin 1) j) (ix1 j)
    (fun a => by match a with | ⟨0, _⟩ => rfl)

/-- The concatenation along the columns reads its first piece on the first 128 columns … -/
theorem cat_left (u v : M2 nN 128) (n : Fin nN) (k : Fin 128) :
    concatenate S50000x256 1 [⟨S50000x128, u⟩, ⟨S50000x128, v⟩] concatenates_S50000x128_S50000x128_S50000x256_d1
      (ix2 n (Fin.castAdd 128 k)) = u (ix2 n k) :=
  concatenate_pair_apply_left (t := S50000x256) (s₁ := S50000x128) (s₂ := S50000x128) 1 u v
    concatenates_S50000x128_S50000x128_S50000x256_d1 _ rfl (ix2 n k)
    (fun b => by match b with | ⟨0, _⟩ => rfl | ⟨1, _⟩ => rfl)

/-- … and its second piece on the last 128, at the column less 128. -/
theorem cat_right (u v : M2 nN 128) (n : Fin nN) (k : Fin 128) :
    concatenate S50000x256 1 [⟨S50000x128, u⟩, ⟨S50000x128, v⟩] concatenates_S50000x128_S50000x128_S50000x256_d1
      (ix2 n (Fin.natAdd 128 k)) = v (ix2 n k) :=
  concatenate_pair_apply_right (t := S50000x256) (s₁ := S50000x128) (s₂ := S50000x128) 1 u v
    concatenates_S50000x128_S50000x128_S50000x256_d1 _ rfl rfl (ix2 n k)
    (fun b hb => by match b with | ⟨0, _⟩ => rfl | ⟨1, _⟩ => exact absurd rfl hb)
    (by show k.val + 128 = 128 + k.val; omega)

/-- The join's product contracts the left operand's columns with the right operand's rows and has no batch axis: the
    plain dimension numbers of a `[50000, 256] × [256, 128]` product. -/
theorem dot_join_eq : dot_S50000x256_S256x128_S50000x128_1_0_0_1_n_n = DotDims.plain 50000 256 128 := rfl

/-- The dense layer over the concatenated columns, against the weight transposed: the sum over the 256 columns is the
    sum over the first 128 — the first piece against the weight's input columns `0 … 127` — plus the sum over the
    last 128 — the second piece against the weight's input columns `128 … 255`. -/
theorem dense_apply (u v : M2 nN 128) (W : M2 128 256) (n : Fin nN) (j : Fin 128) :
    Host.dotGeneral (F := Ideal) (φ₁ := .f32) (φ₂ := .f32) dot_S50000x256_S256x128_S50000x128_1_0_0_1_n_n none
        (concatenate S50000x256 1 [⟨S50000x128, u⟩, ⟨S50000x128, v⟩] concatenates_S50000x128_S50000x128_S50000x256_d1)
        (transpose S256x128 [1, 0] W transposes_S128x256_S256x128_1_0) (ix2 n j)
      = (∑ k : Fin 128, u (ix2 n k) * W (ix2 j (Fin.castAdd 128 k)))
        + (∑ k : Fin 128, v (ix2 n k) * W (ix2 j (Fin.natAdd 128 k))) := by
  rw [dot_join_eq]
  -- the product at (n, j): the sum over the 256 contracted columns
  refine (RowDims.dotGeneral_plain_apply none .single _ _ n j).trans ?_
  -- 256 = 128 + 128: the sum splits at column 128
  refine (Fin.sum_univ_add (fun k : Fin (128 + 128) =>
    concatenate S50000x256 1 [⟨S50000x128, u⟩, ⟨S50000x128, v⟩] concatenates_S50000x128_S50000x128_S50000x256_d1 (ix2 n k)
      * transpose S256x128 [1, 0] W transposes_S128x256_S256x128_1_0 (ix2 k j))).trans ?_
  -- on each half the concatenation is one piece, and the transposed weight at (k, j) is the weight at (j, k)
  congr 1 <;> refine Finset.sum_congr rfl fun k _ => ?_
  · rw [cat_left, transpose_ix2_apply]
  · rw [cat_right, transpose_ix2_apply]

/-- One entry of the join: the dense layer over the two gated branches, plus the bias, plus the skip. -/
theorem join_entry (p1 p2 x : M2 nN 128) (W : M2 128 256) (b : V1 128) (n : Fin nN) (j : Fin 128) :
    addf (F := Ideal) (φ := .f32) (addf (Host.dotGeneral (φ₁ := .f32) (φ₂ := .f32) dot_S50000x256_S256x128_S50000x128_1_0_0_1_n_n none
        (concatenate S50000x256 1
          [⟨S50000x128, (mulf p1 (Host.divf (broadcastInDim S50000x128 ![] bcast_S_S50000x128 (constant S_ .f32 0x3F800000#32)) (addf (broadcastInDim S50000x128 ![] bcast_S_S50000x128 (constant S_ .f32 0x3F800000#32)) (Host.exp (Host.negf p1)))))⟩,
           ⟨S50000x128, (mulf p2 (Host.divf (broadcastInDim S50000x128 ![] bcast_S_S50000x128 (constant S_ .f32 0x3F800000#32)) (addf (broadcastInDim S50000x128 ![] bcast_S_S50000x128 (constant S_ .f32 0x3F800000#32)) (Host.exp (Host.negf p2)))))⟩]
          concatenates_S50000x128_S50000x128_S50000x256_d1)
        (transpose S256x128 [1, 0] W transposes_S128x256_S256x128_1_0))
        (broadcastInDim S50000x128 ![0, 1] bcast_S1x128_S50000x128_0_1 (broadcastInDim S1x128 ![1] bcast_S128_S1x128_1 b))) x (ix2 n j)
      = join W b (fun n j => swish (rows p1 n j)) (fun n j => swish (rows p2 n j)) (rows x) n j := by
  rw [addf_apply, addf_apply, dense_apply, bias_apply]
  show _ = (∑ k : Fin 128, swish (p1 (ix2 n k)) * W (ix2 j (Fin.castAdd 128 k)))
    + (∑ k : Fin 128, swish (p2 (ix2 n k)) * W (ix2 j (Fin.natAdd 128 k))) + b (ix1 j) + x (ix2 n j)
  -- the bias and the skip agree as they stand; in each half-sum every term's gated entry is `swish` of the entry
  refine congrArg (fun t => t + x (ix2 n j)) (congrArg (fun t => t + b (ix1 j)) ?_)
  congr 1 <;> refine Finset.sum_congr rfl fun k _ => ?_
  · exact congrArg (fun t => t * W (ix2 j (Fin.castAdd 128 k))) (gate_apply p1 (ix2 n k))
  · exact congrArg (fun t => t * W (ix2 j (Fin.natAdd 128 k))) (gate_apply p2 (ix2 n k))

/-! ## The run's join -/

/-- The join with the skip connection. -/
theorem ref_join : rows (tJoin m c) = join (rCatW m c) (rCatB m c)
    (fun n j => swish (rows (tPre1 m c) n j)) (fun n j => swish (rows (tPre2 m c) n j)) (rows (tX0 m c)) := by
  funext n j
  exact join_entry (tPre1 m c) (tPre2 m c) (tX0 m c) (rCatW m c) (rCatB m c) n j

end Cert.ReferenceIdeal.Legs

end
-- ==== Proof.RRes.lean ====
/-
  The reference's three gated residual layers, each over the slice of the stacked weights it reads.
-/
import proofs.«416041_j69114613727529_2_alg».proof.Proof.RDense

noncomputable section

open scoped BigOperators

namespace Cert.ReferenceIdeal.Legs

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec
open Idealize.ShloMosaic.RowDims

variable (m : (ℓ : Loc nD τ sig) → Buf (Elt Ideal) ℓ) (c : Dev nD)

/-! ## The slices of the stacked weights and biases -/

/-- Layer `i` of the stacked weights, cut out and its unit axis dropped, reads at `(j, k)` the stack at `(i, j, k)`. -/
private theorem wslice_apply (o : Nat) (i : Fin 3) (hi : i.val = o) (Ws : FVec Ideal S3x128x128 .f32)
    (hs : S3x128x128.Slices ![o, 0, 0] S1x128x128) (j k : Fin 128) :
    shapeCast S128x128 (extractStridedSlice S1x128x128 ![o, 0, 0] Ws hs) shapeCasts_S1x128x128_S128x128 (ix2 j k)
      = Ws (ix3 i j k) := by
  rw [shapeCast_1ab_ab_apply]
  -- the cut starts at layer `o = i` and at the origin of the two matrix axes
  exact extractStridedSlice_apply _ _ _ _ (ix3 i j k) (fun ax => by
    match ax with
    | ⟨0, _⟩ => exact hi.trans (Nat.add_zero o).symm
    | ⟨1, _⟩ => exact (Nat.zero_add _).symm
    | ⟨2, _⟩ => exact (Nat.zero_add _).symm)

/-- Row `i` of the stacked biases, cut out and its unit axis dropped, reads at `j` the stack at `(i, j)`. -/
private theorem bslice_apply (o : Nat) (i : Fin 3) (hi : i.val = o) (bs : FVec Ideal S3x128 .f32)
    (hs : S3x128.Slices ![o, 0] S1x128) (j : Fin 128) :
    shapeCast S128 (extractStridedSlice S1x128 ![o, 0] bs hs) shapeCasts_S1x128_S128 (ix1 j) = bs (ix2 i j) := by
  rw [shapeCast_1a_a_apply]
  exact slice2_axis0_apply o bs hs (0 : Fin 1) j i (hi.trans (Nat.add_zero o).symm)

/-! ## The three residual layers

Each is the gate over the dense layer of the previous array, read with layer `i` of the stacked weights and biases, plus
the previous array itself. -/

theorem ref_res0 : rows (tRes0 m c) = res (rLinsW m c) (rLinsB m c) 0 (rows (tJoin m c)) := by
  funext n j
  show res_main_v109 (V0 m c) (ix2 n j) = _
  unfold res_main_v109
  rw [addf_apply, swish_entry]
  unfold res_main_v101
  rw [dense_entry _ _ _ (fun j k => rLinsW m c (ix3 0 j k)) (fun k j => (weightT_entry _ k j).trans (wslice_apply 0 0 rfl _ _ j k)),
    bslice_apply 0 0 rfl]
  rfl

theorem ref_res1 : rows (tRes1 m c) = res (rLinsW m c) (rLinsB m c) 1 (rows (tRes0 m c)) := by
  funext n j
  show res_main_v126 (V0 m c) (ix2 n j) = _
  unfold res_main_v126
  rw [addf_apply, swish_entry]
  unfold res_main_v118
  rw [dense_entry _ _ _ (fun j k => rLinsW m c (ix3 1 j k)) (fun k j => (weightT_entry _ k j).trans (wslice_apply 1 1 rfl _ _ j k)),
    bslice_apply 1 1 rfl]
  rfl

theorem ref_res2 : rows (tH m c) = res (rLinsW m c) (rLinsB m c) 2 (rows (tRes1 m c)) := by
  funext n j
  show res_main_v143 (V0 m c) (ix2 n j) = _
  unfold res_main_v143
  rw [addf_apply, swish_entry]
  unfold res_main_v135
  rw [dense_entry _ _ _ (fun j k => rLinsW m c (ix3 2 j k)) (fun k j => (weightT_entry _ k j).trans (wslice_apply 2 2 rfl _ _ j k)),
    bslice_apply 2 2 rfl]
  rfl

end Cert.ReferenceIdeal.Legs

end
-- ==== Proof.RNorm.lean ====
/-
  The reference's graph normalisation and last dense layer: counts, means, the centred rows, the average of their
  squares, division by the root of the regularised variance (a batch index that is a graph is its own wrapped index).
-/
import proofs.«416041_j69114613727529_2_alg».proof.Proof.RArgs
import Idealize.ShloMosaic.Lib.IdealHost
import Idealize.ShloMosaic.Lib.ValueLayout

noncomputable section

open scoped BigOperators

namespace Cert.ReferenceIdeal.Legs.RNorm

open Idealize.ShloMosaic Idealize.ShloMosaic.ValueIdx Idealize.ShloMosaic.RowDims

/-! ## A scatter-add into a vector -/

/-- The dimension numbers of x.at[idx].add(u) for a table [N], scatter indices [R, 1] and updates [R]. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update entry r reads its one start-index component at (r, 0) of the scatter indices. -/
theorem vecScatter_siIdx {N R : Nat} (wf : ScatterDims.WF ⟨1, ![N]⟩ ⟨2, ![R, 1]⟩ ⟨1, ![R]⟩ [] [0] [0] 1) (r : Fin R) :
    (vecScatter N R wf).siIdx (ix1 r) ⟨List.idxOf (0 : Fin 1) (vecScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's one axis the window starts at the scatter index of the update's position, read signed. -/
theorem vecScatter_start {N R w : Nat} (wf : ScatterDims.WF ⟨1, ![N]⟩ ⟨2, ![R, 1]⟩ ⟨1, ![R]⟩ [] [0] [0] 1)
    (idx : IVec ⟨2, ![R, 1]⟩ w) (r : Fin R) :
    (vecScatter N R wf).start (ix1 r) idx 0 = (idx (ix2 r 0)).toInt := by
  unfold ScatterDims.start
  rw [dif_pos (show (0 : Fin 1) ∈ (vecScatter N R wf).scatterDimsToOperandDims from List.mem_singleton.mpr rfl),
    vecScatter_siIdx wf r]

/-- The table's axis is an inserted axis: its window coordinate is 0. -/
theorem vecScatter_window {N R : Nat} (wf : ScatterDims.WF ⟨1, ![N]⟩ ⟨2, ![R, 1]⟩ ⟨1, ![R]⟩ [] [0] [0] 1) (r : Fin R) :
    (vecScatter N R wf).window (ix1 r) 0 = 0 := rfl

/-- Update entry r lands on table entry a exactly when its start index, read signed, is a. -/
theorem vecScatter_resultIdx?_eq_some_iff {N R w : Nat}
    (wf : ScatterDims.WF ⟨1, ![N]⟩ ⟨2, ![R, 1]⟩ ⟨1, ![R]⟩ [] [0] [0] 1)
    (idx : IVec ⟨2, ![R, 1]⟩ w) (r : Fin R) (a : Fin N) :
    (vecScatter N R wf).resultIdx? (ix1 r) idx = some (ix1 a) ↔ (idx (ix2 r 0)).toInt = (a.val : Int) := by
  have hs := vecScatter_start wf idx r
  have hw := vecScatter_window wf r
  unfold ScatterDims.resultIdx?
  constructor
  · intro h
    split at h
    · rename_i hin
      have hf := Option.some.inj h
      have e0 := congrArg (fun f => (f 0).val) hf
      simp only [hs, hw] at e0
      have h0 := hin 0
      rw [hs, hw] at h0
      have ea : ((ix1 a : (⟨1, ![N]⟩ : Shape).Idx) 0).val = a.val := rfl
      rw [ea] at e0
      omega
    · exact absurd h (by simp)
  · intro hv
    have hin : ∀ a' : Fin 1, 0 ≤ (vecScatter N R wf).start (ix1 r) idx a' + (vecScatter N R wf).window (ix1 r) a'
        ∧ (vecScatter N R wf).start (ix1 r) idx a' + (vecScatter N R wf).window (ix1 r) a' < (⟨1, ![N]⟩ : Shape).size a' := by
      intro a'
      match a' with
      | ⟨0, _⟩ =>
        show 0 ≤ (vecScatter N R wf).start (ix1 r) idx 0 + (vecScatter N R wf).window (ix1 r) 0
          ∧ (vecScatter N R wf).start (ix1 r) idx 0 + (vecScatter N R wf).window (ix1 r) 0 < (N : Int)
        rw [hs, hw, hv]; have := a.isLt; constructor <;> omega
    rw [dif_pos hin]
    congr 1
    funext a'
    refine Fin.ext ?_
    match a' with
    | ⟨0, _⟩ =>
      show ((vecScatter N R wf).start (ix1 r) idx 0 + (vecScatter N R wf).window (ix1 r) 0).toNat = a.val
      rw [hs, hw, hv]; omega

/-- A vector's index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulated vector at a: the table's entry plus the updates' entries over the positions whose start index
    is a. -/
theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (a : Fin N) :
    Ideal.hostScatterAdd (vecScatter N R wf) x idx upd (ix1 a)
      = x (ix1 a) + ∑ r : Fin R, if (idx (ix2 r 0)).toInt = (a.val : Int) then upd (ix1 r) else 0 := by
  unfold Ideal.hostScatterAdd
  congr 1
  rw [Finset.sum_filter, sum_idx1]
  refine Finset.sum_congr rfl fun r _ => ?_
  simp only [vecScatter_resultIdx?_eq_some_iff]

/-! ## Broadcasts read at an entry -/

/-- A vector as a column reads, at (p, 0), the vector at p. -/
theorem bcast_vec_col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p 0) = v (ix1 p) := by
  refine broadcastInDim_apply _ h v _ _ fun a => ?_
  match a with
  | ⟨0, _⟩ =>
    show p.val = if n = 1 then 0 else p.val
    have := p.isLt
    split <;> omega

/-- A column laid along the rows of a rectangle reads, at (p, q), the column at (p, 0). -/
theorem bcast_col_mat_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  refine broadcastInDim_apply _ h v _ _ fun a => ?_
  match a with
  | ⟨0, _⟩ =>
    show p.val = if n = 1 then 0 else p.val
    have := p.isLt
    split <;> omega
  | ⟨1, _⟩ =>
    show (0 : Nat) = if (1 : Nat) = 1 then 0 else q.val
    rw [if_pos rfl]

/-- A vector as a row reads, at (0, q), the vector at q. -/
theorem bcast_vec_row_apply {α : Type} {m : Nat} (h : (⟨1, ![m]⟩ : Shape).BroadcastsInDim ⟨2, ![1, m]⟩ ![1])
    (v : (⟨1, ![m]⟩ : Shape).Idx → α) (q : Fin m) :
    broadcastInDim ⟨2, ![1, m]⟩ ![1] h v (ix2 0 q) = v (ix1 q) := by
  refine broadcastInDim_apply _ h v _ _ fun a => ?_
  match a with
  | ⟨0, _⟩ =>
    show q.val = if m = 1 then 0 else q.val
    have := q.isLt
    split <;> omega

/-- A row laid down the columns of a rectangle reads, at (p, q), the row at (0, q). -/
theorem bcast_row_mat_apply {α : Type} {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) := by
  refine broadcastInDim_apply _ h v _ _ fun a => ?_
  match a with
  | ⟨0, _⟩ =>
    show (0 : Nat) = if (1 : Nat) = 1 then 0 else p.val
    rw [if_pos rfl]
  | ⟨1, _⟩ =>
    show q.val = if m = 1 then 0 else q.val
    have := q.isLt
    split <;> omega

/-! ## A wrapped index -/

/-- The wrap of a negative index, select (v < 0) (v + N) v, leaves a word that is not negative as it is. -/
theorem wrap_of_nonneg (v k : BitVec 32) (hv : 0 ≤ v.toInt) :
    Scalar.select (IntOp.cmpi .slt v 0#32) (IntOp.addi v k) v = v := by
  have h : IntOp.cmpi .slt v 0#32 = 0#1 := by
    show BitVec.ofBool (v.slt 0#32) = 0#1
    have : v.slt 0#32 = false := by
      rw [BitVec.slt_eq_decide]
      simpa using hv
    rw [this]; rfl
  rw [h, select_zero]

/-! ## The stages of the normalisation, each over arrays of the literal types and read at an entry -/

open Cert.ReferenceIdeal Cert.ReferenceIdeal.Gen Cert.Spec

/-- The batch words with the wrap of a negative index. -/
def wrapT (batch : IVec S50000 32) : IVec S50000 32 :=
  select (cmpi .slt batch (broadcastInDim S50000 ![] bcast_S_S50000 (constantI S_ 32 0#32)))
    (addi batch (broadcastInDim S50000 ![] bcast_S_S50000 (constantI S_ 32 512#32))) batch

/-- A batch word that is not negative is its own wrapped word. -/
theorem wrapT_apply (batch : IVec S50000 32) (n : Fin 50000) (hb : 0 ≤ (batch (ix1 n)).toInt) :
    wrapT batch (ix1 n) = batch (ix1 n) :=
  wrap_of_nonneg (batch (ix1 n)) 512#32 hb

/-- An index vector as the column of start indices. -/
def colT (b : IVec S50000 32) : IVec S50000x1 32 := broadcastInDim S50000x1 ![0] bcast_S50000_S50000x1_0 b

theorem colT_apply (b : IVec S50000 32) (n : Fin 50000) : colT b (ix2 n 0) = b (ix1 n) :=
  bcast_vec_col_apply _ b n

/-- The counts: ones summed into their graphs, at least one. -/
def cntT (batch : IVec S50000 32) : FVec Ideal S512 .f32 :=
  maximumf (Host.scatterAdd (F := Ideal) scatter_S512_S50000x1_S50000_n_0_0_1
      (broadcastInDim S512 ![] bcast_S_S512 (constant (F := Ideal) S_ .f32 0x00000000#32)) (colT batch)
      (broadcastInDim S50000 ![] bcast_S_S50000 (constant (F := Ideal) S_ .f32 0x3F800000#32)))
    (broadcastInDim S512 ![] bcast_S_S512 (constant (F := Ideal) S_ .f32 0x3F800000#32))

/-- The count of graph g: the number of nodes whose batch word is g, or one if there is none. -/
theorem cntT_apply (batch : IVec S50000 32) (g : Fin 512) : cntT batch (ix1 g) = cnt (words batch) g := by
  show max (Ideal.hostScatterAdd (vecScatter 512 50000 scatter_S512_S50000x1_S50000_n_0_0_1_wf)
      (fun _ => Ideal.ofBits .f32 0x00000000#32) (colT batch) (fun _ => Ideal.ofBits .f32 0x3F800000#32) (ix1 g))
    (Ideal.ofBits .f32 0x3F800000#32) = _
  rw [vecScatterAdd_apply, Ideal.ofBits_zero_f32, Ideal.ofBits_one_f32, zero_add]
  simp only [colT_apply]
  rfl

/-- Node rows summed into their graphs. -/
def segSumT (batch : IVec S50000 32) (v : FVec Ideal S50000x128 .f32) : FVec Ideal S512x128 .f32 :=
  Host.scatterAdd (F := Ideal) scatter_S512x128_S50000x1_S50000x128_1_0_0_1
    (broadcastInDim S512x128 ![] bcast_S_S512x128 (constant (F := Ideal) S_ .f32 0x00000000#32)) (colT batch) v

theorem segSumT_apply (batch : IVec S50000 32) (v : FVec Ideal S50000x128 .f32) (g : Fin 512) (j : Fin 128) :
    segSumT batch v (ix2 g j)
      = ∑ n : Fin 50000, if (batch (ix1 n)).toInt = (g.val : Int) then v (ix2 n j) else 0 := by
  show Ideal.hostScatterAdd (rowScatter 512 128 50000 scatter_S512x128_S50000x1_S50000x128_1_0_0_1_wf)
      (fun _ => Ideal.ofBits .f32 0x00000000#32) (colT batch) v (ix2 g j) = _
  rw [rowScatterAdd_apply, Ideal.ofBits_zero_f32, zero_add]
  simp only [colT_apply]

/-- A per-graph vector laid along the 128 columns. -/
def graphColsT (cntv : FVec Ideal S512 .f32) : FVec Ideal S512x128 .f32 :=
  broadcastInDim S512x128 ![0, 1] bcast_S512x1_S512x128_0_1 (broadcastInDim S512x1 ![0] bcast_S512_S512x1_0 cntv)

theorem graphColsT_apply (cntv : FVec Ideal S512 .f32) (g : Fin 512) (j : Fin 128) :
    graphColsT cntv (ix2 g j) = cntv (ix1 g) := by
  unfold graphColsT
  rw [bcast_col_mat_apply, bcast_vec_col_apply]

/-- The per-graph average of node rows. -/
def segMeanT (batch : IVec S50000 32) (cntv : FVec Ideal S512 .f32) (v : FVec Ideal S50000x128 .f32) :
    FVec Ideal S512x128 .f32 :=
  Host.divf (segSumT batch v) (graphColsT cntv)

theorem segMeanT_apply (batch : IVec S50000 32) (cntv : FVec Ideal S512 .f32) (v : FVec Ideal S50000x128 .f32)
    (hc : ∀ g, cntv (ix1 g) = cnt (words batch) g) (g : Fin 512) (j : Fin 128) :
    segMeanT batch cntv v (ix2 g j) = segMean (words batch) (rows v) g j := by
  show Ideal.div (segSumT batch v (ix2 g j)) (graphColsT cntv (ix2 g j)) = _
  rw [segSumT_apply, graphColsT_apply, hc]
  rfl

/-- A per-graph table read back at every node's (wrapped) batch word. -/
def gatherT (batch : IVec S50000 32) (t : FVec Ideal S512x128 .f32) : FVec Ideal S50000x128 .f32 :=
  Host.gather gather_S512x128_S50000x1_S50000x128_1_0_n_n_0_1_1128 t (colT (wrapT batch))

theorem gatherT_apply (batch : IVec S50000 32) (t : FVec Ideal S512x128 .f32) (n : Fin 50000) (j : Fin 128)
    (hb : 0 ≤ (batch (ix1 n)).toInt) :
    gatherT batch t (ix2 n j) = t (ix2 (graphOf (batch (ix1 n))) j) := by
  show Host.gather (rowGather 512 128 50000 gather_S512x128_S50000x1_S50000x128_1_0_n_n_0_1_1128_wf) t
      (colT (wrapT batch)) (ix2 n j) = _
  rw [rowGather_apply (by decide), colT_apply, wrapT_apply batch n hb]
  rfl

/-- A 128-vector laid down the node rows. -/
def rowB (v : FVec Ideal S128 .f32) : FVec Ideal S50000x128 .f32 :=
  broadcastInDim S50000x128 ![0, 1] bcast_S1x128_S50000x128_0_1 (broadcastInDim S1x128 ![1] bcast_S128_S1x128_1 v)

theorem rowB_apply (v : FVec Ideal S128 .f32) (n : Fin 50000) (j : Fin 128) : rowB v (ix2 n j) = v (ix1 j) := by
  unfold rowB
  rw [bcast_row_mat_apply, bcast_vec_row_apply]

/-- The centred rows h − μ[graph] · s. -/
def centredT (batch : IVec S50000 32) (cntv : FVec Ideal S512 .f32) (h : FVec Ideal S50000x128 .f32)
    (ms : FVec Ideal S128 .f32) : FVec Ideal S50000x128 .f32 :=
  subf h (mulf (gatherT batch (segMeanT batch cntv h)) (rowB ms))

theorem centredT_apply (batch : IVec S50000 32) (cntv : FVec Ideal S512 .f32) (h : FVec Ideal S50000x128 .f32)
    (ms : FVec Ideal S128 .f32) (hc : ∀ g, cntv (ix1 g) = cnt (words batch) g)
    (hb : ∀ n, 0 ≤ (batch (ix1 n)).toInt) (n : Fin 50000) (j : Fin 128) :
    centredT batch cntv h ms (ix2 n j) = centred (words batch) ms (rows h) n j := by
  show h (ix2 n j) - gatherT batch (segMeanT batch cntv h) (ix2 n j) * rowB ms (ix2 n j) = _
  rw [gatherT_apply batch _ n j (hb n), segMeanT_apply batch cntv h hc, rowB_apply]
  rfl

/-- The rows scaled by the root of the regularised variance, plus the shift. -/
def normT (batch : IVec S50000 32) (cntv : FVec Ideal S512 .f32) (hc : FVec Ideal S50000x128 .f32)
    (nw nb : FVec Ideal S128 .f32) : FVec Ideal S50000x128 .f32 :=
  addf (Host.divf (mulf (rowB nw) hc) (Host.sqrt (addf (gatherT batch (segMeanT batch cntv (mulf hc hc)))
    (broadcastInDim S50000x128 ![] bcast_S_S50000x128 (constant (F := Ideal) S_ .f32 0x3727C5AC#32))))) (rowB nb)

theorem normT_apply (batch : IVec S50000 32) (cntv : FVec Ideal S512 .f32) (hc : FVec Ideal S50000x128 .f32)
    (nw nb : FVec Ideal S128 .f32) (hcnt : ∀ g, cntv (ix1 g) = cnt (words batch) g)
    (hb : ∀ n, 0 ≤ (batch (ix1 n)).toInt) (n : Fin 50000) (k : Fin 128) :
    normT batch cntv hc nw nb (ix2 n k)
      = Ideal.div (nw (ix1 k) * hc (ix2 n k))
          (Ideal.sqrt (segMean (words batch) (rows (mulf hc hc)) (graphOf (batch (ix1 n))) k + epsW)) + nb (ix1 k) := by
  show Ideal.div (rowB nw (ix2 n k) * hc (ix2 n k))
      (Ideal.sqrt (gatherT batch (segMeanT batch cntv (mulf hc hc)) (ix2 n k) + epsW)) + rowB nb (ix2 n k) = _
  rw [gatherT_apply batch _ n k (hb n), segMeanT_apply batch cntv _ hcnt, rowB_apply, rowB_apply]

/-- The last dense layer: rows against the transposed weight, plus the bias. -/
def denseT (a : FVec Ideal S50000x128 .f32) (fW : FVec Ideal S128x128 .f32) (fb : FVec Ideal S128 .f32) :
    FVec Ideal S50000x128 .f32 :=
  addf (Host.dotGeneral (F := Ideal) dot_S50000x128_S128x128_S50000x128_1_0_0_1_n_n none a
    (transpose S128x128 [1, 0] fW transposes_S128x128_S128x128_1_0)) (rowB fb)

theorem denseT_apply (a : FVec Ideal S50000x128 .f32) (fW : FVec Ideal S128x128 .f32) (fb : FVec Ideal S128 .f32)
    (n : Fin 50000) (j : Fin 128) :
    denseT a fW fb (ix2 n j) = lin fW fb (fun k => a (ix2 n k)) j := by
  show FloatOps.dotGeneral (DotDims.plain 50000 128 128) none .single a
      (transpose S128x128 [1, 0] fW transposes_S128x128_S128x128_1_0) (ix2 n j) + rowB fb (ix2 n j) = _
  rw [dotGeneral_plain_apply, rowB_apply]
  unfold lin dotW
  congr 1
  refine Finset.sum_congr rfl fun k _ => ?_
  exact congrArg (a (ix2 n k) * ·) (transpose_ix2_apply fW transposes_S128x128_S128x128_1_0 k j)

/-- The normalised rows of the centred stage: the centred rows over the root of the regularised average of their
    squares, the average read at the node's graph. -/
theorem normT_centredT_apply (batch : IVec S50000 32) (cntv : FVec Ideal S512 .f32) (h : FVec Ideal S50000x128 .f32)
    (ms nw nb : FVec Ideal S128 .f32) (hcnt : ∀ g, cntv (ix1 g) = cnt (words batch) g)
    (hb : ∀ n, 0 ≤ (batch (ix1 n)).toInt) (n : Fin 50000) (k : Fin 128) :
    normT batch cntv (centredT batch cntv h ms) nw nb (ix2 n k)
      = Ideal.div (nw (ix1 k) * centred (words batch) ms (rows h) n k)
          (Ideal.sqrt (varCentred (words batch) ms (rows h) (graphOf (batch (ix1 n))) k + epsW)) + nb (ix1 k) := by
  have hcen : ∀ n j, centredT batch cntv h ms (ix2 n j) = centred (words batch) ms (rows h) n j :=
    centredT_apply batch cntv h ms hcnt hb
  -- the squares of the centred stage, in coordinates
  have hsq : rows (mulf (centredT batch cntv h ms) (centredT batch cntv h ms))
      = fun n j => centred (words batch) ms (rows h) n j * centred (words batch) ms (rows h) n j := by
    funext n j
    show centredT batch cntv h ms (ix2 n j) * centredT batch cntv h ms (ix2 n j) = _
    rw [hcen]
  rw [normT_apply batch cntv _ nw nb hcnt hb, hcen, hsq]
  rfl

end Cert.ReferenceIdeal.Legs.RNorm

/-! ## The run's terms are these stages of its launch arrays -/

namespace Cert.ReferenceIdeal.Legs.RNorm

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec

variable (m : (ℓ : Loc nD τ sig) → Buf (Elt Ideal) ℓ) (c : Dev nD)

/-- The run's counts are the counts stage of the batch words. -/
theorem counts_eq : res_main_v149 (V0 m c) = cntT (rBatch m c) := rfl

/-- The run's centred rows are the centred stage of its pre-normalisation array. -/
theorem centred_eq : res_main_v166 (V0 m c) = centredT (rBatch m c) (cntT (rBatch m c)) (tH m c) (rMs m c) := rfl

/-- The run's result is the last dense layer over the normalised centred rows. -/
theorem out_eq : tOut m c = denseT (normT (rBatch m c) (cntT (rBatch m c))
    (centredT (rBatch m c) (cntT (rBatch m c)) (tH m c) (rMs m c)) (rNw m c) (rNb m c)) (rFW m c) (rFB m c) :=
  (val4_main_v195 (V0 m c)).trans rfl

end Cert.ReferenceIdeal.Legs.RNorm

namespace Cert.ReferenceIdeal.Legs

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec
open Cert.ReferenceIdeal.Legs.RNorm

variable (m : (ℓ : Loc nD τ sig) → Buf (Elt Ideal) ℓ) (c : Dev nD)

/-- The reference's result over its pre-normalisation array, in the centred form. -/
theorem ref_out (hb : ∀ n, InRange nG (words (rBatch m c) n)) : rows (tOut m c) =
    outCentred (words (rBatch m c)) (rNw m c) (rNb m c) (rMs m c) (rFW m c) (rFB m c) (rows (tH m c)) := by
  -- a batch word that names a graph is not negative
  have hb0 : ∀ n, 0 ≤ ((rBatch m c) (ix1 n)).toInt := fun n => (hb n).1
  funext n j
  show tOut m c (ix2 n j) = _
  rw [out_eq, denseT_apply]
  unfold outCentred
  -- both sides are the last dense layer of a row; the rows agree entry by entry
  refine congrArg (fun f => lin (rFW m c) (rFB m c) f j) (funext fun k => ?_)
  rw [normT_centredT_apply (rBatch m c) _ (tH m c) (rMs m c) (rNw m c) (rNb m c) (cntT_apply (rBatch m c)) hb0]
  rfl

end Cert.ReferenceIdeal.Legs

end
-- ==== Proof.RValue.lean ====
/-
  The idealized reference's result as one function of its launch arrays.
-/
import proofs.«416041_j69114613727529_2_alg».proof.Proof.RArgs
import proofs.«416041_j69114613727529_2_alg».proof.Proof.RX0
import proofs.«416041_j69114613727529_2_alg».proof.Proof.RConv
import proofs.«416041_j69114613727529_2_alg».proof.Proof.RJoin
import proofs.«416041_j69114613727529_2_alg».proof.Proof.RRes
import proofs.«416041_j69114613727529_2_alg».proof.Proof.RNorm

noncomputable section

namespace Cert.ReferenceIdeal.Legs

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.Value Cert.Spec

variable (m : (ℓ : Loc nD τ sig) → Buf (Elt Ideal) ℓ) (c : Dev nD)

/-- The reference's array before the normalisation is the common one. -/
theorem ref_h (hsrc : ∀ e, InRange nN (srcOf (rEdges m c) e)) : rows (tH m c) = (hpre (rX m c) (rF1 m c) (rF2 m c) (srcOf (rEdges m c)) (dstOf (rEdges m c))
      (rLinW m c) (rLinB m c) (rF1W1 m c) (rF1W2 m c) (rF2W1 m c) (rF2W2 m c)
      (rC1rW m c) (rC1rB m c) (rC1oW m c) (rC2rW m c) (rC2rB m c) (rC2oW m c)
      (rL1W m c) (rL1B m c) (rL2W m c) (rL2B m c) (rCatW m c) (rCatB m c) (rLinsW m c) (rLinsB m c)) := by
  rw [ref_res2, ref_res1, ref_res0, ref_join, ref_pre1 m c hsrc, ref_pre2 m c hsrc, ref_x0]
  rfl

/-- The reference's result is the centred form of the normalised output over that array. -/
theorem ref_value (hsrc : ∀ e, InRange nN (srcOf (rEdges m c) e)) (hb : ∀ n, InRange nG (words (rBatch m c) n)) :
    rows (tOut m c) = outCentred (words (rBatch m c)) (rNw m c) (rNb m c) (rMs m c) (rFW m c) (rFB m c) (hpre (rX m c) (rF1 m c) (rF2 m c) (srcOf (rEdges m c)) (dstOf (rEdges m c))
      (rLinW m c) (rLinB m c) (rF1W1 m c) (rF1W2 m c) (rF2W1 m c) (rF2W2 m c)
      (rC1rW m c) (rC1rB m c) (rC1oW m c) (rC2rW m c) (rC2rB m c) (rC2oW m c)
      (rL1W m c) (rL1B m c) (rL2W m c) (rL2B m c) (rCatW m c) (rCatB m c) (rLinsW m c) (rLinsB m c)) := by
  rw [ref_out m c hb, ref_h m c hsrc]

end Cert.ReferenceIdeal.Legs

end
-- ==== Proof.PreDecode.lean ====
/-
  What the precondition says of the launch arrays: every float array holds reals, every source index is a node and
  every batch index is a graph.

  The precondition is one conjunction of thirty one-bit scalars. Twenty-eight of them are "every entry of this float
  array has `|x| < +∞`", a reduction by `and` over the whole array of the entrywise comparison of `max x (-x)` with
  the word of `+∞`; on the extended reals `max x (-x) < ⊤` leaves neither `⊤` nor `⊥`, so the entry is a real number.
  The last two are "every word of row 0 of the edge list is in `[0, 50000)`" and "every word of the batch vector is in
  `[0, 512)`", signed comparisons with constants below `2³¹`, which read as inequalities of the signed values.
-/
import proofs.«416041_j69114613727529_2_alg».proof.Defs
import proofs.«416041_j69114613727529_2_alg».proof.Proof.KArgs
import proofs.«416041_j69114613727529_2_alg».proof.Proof.Gen.Pre_finite_inputs
import Idealize.ShloMosaic.Lib.ReduceAll
import Idealize.ShloMosaic.Lib.StableHlo.Predicate
import Idealize.ShloMosaic.Lib.ValueLayout

noncomputable section

namespace Cert.KernelIdeal.Legs

open Idealize.ShloMosaic Idealize.ShloMosaic.TcCoe Idealize.ShloMosaic.ValueIdx
open Idealize.SL.Sem
open Cert.KernelIdeal Cert.KernelIdeal.Gen Cert.Spec

namespace PreDecode

/-- The scalar shape has one index. -/
theorem scalarIdx_subsingleton : Subsingleton (⟨0, ![]⟩ : Shape).Idx := ⟨fun a b => funext fun d => d.elim0⟩

/-- The word of positive infinity denotes the top element. -/
theorem inf_eq_top : Ideal.ofBits .f32 0x7F800000#32 = (⊤ : EReal) := by simp [Ideal.ofBits, Ideal.ieee]

/-- An extended real whose absolute value `max x (-x)` is below `+∞` is a real number. -/
theorem real_of_abs_lt (x : EReal) (h : Ideal.cmp .olt (max x (-x)) (Ideal.ofBits .f32 0x7F800000#32) = 1#1) :
    ∃ r : ℝ, x = (r : EReal) := by
  rw [inf_eq_top] at h
  have hlt : max x (-x) < ⊤ := by
    unfold Ideal.cmp at h
    simpa [StableHlo.Predicate.ofBool_eq_one_iff] using h
  induction x using EReal.rec with
  | bot => simp at hlt
  | coe r => exact ⟨r, rfl⟩
  | top => simp at hlt

/-- A float array that passes the test "every `|x|` is below `+∞`" holds real numbers only. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf x) (broadcastInDim s ![] hb (constant ⟨0, ![]⟩ .f32 0x7F800000#32)))
        (constantI ⟨0, ![]⟩ 1 1#1) hr hu ix0 = 1#1) : Finite x := by
  intro i
  haveI := scalarIdx_subsingleton
  exact real_of_abs_lt (x i) (Host.reduce_andi_all _ _ hr hu ix0 h i)

/-- A word that passes `0 ≤ w` and `w < N`, both signed, lies in `[0, N)`. -/
theorem inRange_of_word (N : Nat) (hN : N < 2 ^ 31) (w : BitVec 32) (h0 : IntOp.cmpi .sge w 0#32 = 1#1)
    (h1 : IntOp.cmpi .slt w (BitVec.ofNat 32 N) = 1#1) : InRange N w := by
  unfold IntOp.cmpi at h0 h1
  rw [StableHlo.Predicate.ofBool_eq_one_iff] at h0 h1
  simp only [BitVec.slt, BitVec.sle, decide_eq_true_eq, StableHlo.Predicate.toInt_ofNat_small N hN] at h0 h1
  exact ⟨by simpa using h0, h1⟩

/-- An index vector that passes the test "every word is in `[0, N)`" holds row numbers only. -/
theorem inRange_of_all {n : Nat} {axes : List (Fin (⟨1, ![n]⟩ : Shape).rank)} (N : Nat) (hN : N < 2 ^ 31) (v : IVec ⟨1, ![n]⟩ 32)
    (hb : (⟨0, ![]⟩ : Shape).BroadcastsInDim ⟨1, ![n]⟩ (![] : Fin 0 → Fin 1)) (hr : (⟨1, ![n]⟩ : Shape).ReducesTo axes ⟨0, ![]⟩)
    (hu : 0 < (⟨0, ![]⟩ : Shape).numel)
    (h : Host.reduce IntOp.andi
        (andi (cmpi .sge v (broadcastInDim ⟨1, ![n]⟩ ![] hb (constantI ⟨0, ![]⟩ 32 0#32)))
          (cmpi .slt v (broadcastInDim ⟨1, ![n]⟩ ![] hb (constantI ⟨0, ![]⟩ 32 (BitVec.ofNat 32 N)))))
        (constantI ⟨0, ![]⟩ 1 1#1) hr hu ix0 = 1#1) (i : Fin n) : InRange N (v (ix1 i)) := by
  haveI := scalarIdx_subsingleton
  obtain ⟨h0, h1⟩ := IntOp.andi_eq_one.1 (Host.reduce_andi_all _ _ hr hu ix0 h (ix1 i))
  exact inRange_of_word N hN _ h0 h1

/-- Row 0 of a `[2, n]` index array, sliced out and flattened, read at `e`. -/
theorem row0_apply {n : Nat} (ei : IVec ⟨2, ![2, n]⟩ 32) (hsl : (⟨2, ![2, n]⟩ : Shape).Slices ![0, 0] ⟨2, ![1, n]⟩)
    (hsc : (⟨2, ![1, n]⟩ : Shape).ShapeCasts ⟨1, ![n]⟩) (e : Fin n) :
    shapeCast ⟨1, ![n]⟩ (extractStridedSlice ⟨2, ![1, n]⟩ ![0, 0] ei hsl) hsc (ix1 e) = ei (ix2 (0 : Fin 2) e) := by
  rw [shapeCast_1a_a_apply]
  exact extractStridedSlice_apply _ _ hsl _ _ (fun a => match a with
    | ⟨0, _⟩ => rfl
    | ⟨1, _⟩ => by show e.val = 0 + e.val; omega)

/-- A conjunction of two one-bit scalars that is 1 has both bits 1. -/
theorem and_split {x y : IVec ⟨0, ![]⟩ 1} (h : andi x y ix0 = 1#1) : x ix0 = 1#1 ∧ y ix0 = 1#1 := IntOp.andi_eq_one.1 h

end PreDecode

open PreDecode

variable (m : (ℓ : Loc nD τ sig) → Buf (Elt Ideal) ℓ) (ρ : Dev nD → PrngReg) (c : Dev nD)

/-- The stated domain, array by array. -/
structure Domain : Prop where
  x : Finite (aX m c)
  f1 : Finite (aF1 m c)
  f2 : Finite (aF2 m c)
  linW : Finite (aLinW m c)
  linb : Finite (aLinB m c)
  f1W1 : Finite (aF1W1 m c)
  f1W2 : Finite (aF1W2 m c)
  f2W1 : Finite (aF2W1 m c)
  f2W2 : Finite (aF2W2 m c)
  c1rW : Finite (aC1rW m c)
  c1rb : Finite (aC1rB m c)
  c1oW : Finite (aC1oW m c)
  c2rW : Finite (aC2rW m c)
  c2rb : Finite (aC2rB m c)
  c2oW : Finite (aC2oW m c)
  l1W : Finite (aL1W m c)
  l1b : Finite (aL1B m c)
  l2W : Finite (aL2W m c)
  l2b : Finite (aL2B m c)
  catW : Finite (aCatW m c)
  catb : Finite (aCatB m c)
  nw : Finite (aNw m c)
  nb : Finite (aNb m c)
  ms : Finite (aMs m c)
  linsW : Finite (aLinsW m c)
  linsb : Finite (aLinsB m c)
  fW : Finite (aFW m c)
  fb : Finite (aFB m c)
  src : ∀ e, InRange nN (srcOf (aEdges m c) e)
  batch : ∀ n, InRange nG (words (aBatch m c) n)

/-- The precondition, read. -/
theorem domain_of_pre [Cert.Pre_finite_inputs.Facts] (hpre : Cert.Pre_KernelIdeal m) : Domain m c := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8,
    Cert.Pre_finite_inputs.fn_part9] at h
  obtain ⟨h, hb⟩ := and_split h
  obtain ⟨h, hs⟩ := and_split h
  obtain ⟨h, h29⟩ := and_split h
  obtain ⟨h, h28⟩ := and_split h
  obtain ⟨h, h27⟩ := and_split h
  obtain ⟨h, h26⟩ := and_split h
  obtain ⟨h, h25⟩ := and_split h
  obtain ⟨h, h24⟩ := and_split h
  obtain ⟨h, h23⟩ := and_split h
  obtain ⟨h, h22⟩ := and_split h
  obtain ⟨h, h21⟩ := and_split h
  obtain ⟨h, h20⟩ := and_split h
  obtain ⟨h, h19⟩ := and_split h
  obtain ⟨h, h18⟩ := and_split h
  obtain ⟨h, h17⟩ := and_split h
  obtain ⟨h, h16⟩ := and_split h
  obtain ⟨h, h15⟩ := and_split h
  obtain ⟨h, h14⟩ := and_split h
  obtain ⟨h, h13⟩ := and_split h
  obtain ⟨h, h12⟩ := and_split h
  obtain ⟨h, h11⟩ := and_split h
  obtain ⟨h, h10⟩ := and_split h
  obtain ⟨h, h9⟩ := and_split h
  obtain ⟨h, h8⟩ := and_split h
  obtain ⟨h, h7⟩ := and_split h
  obtain ⟨h, h6⟩ := and_split h
  obtain ⟨h, h5⟩ := and_split h
  obtain ⟨h, h2⟩ := and_split h
  obtain ⟨h0, h1⟩ := and_split h
  exact
    { x := finite_of_all _ _ _ _ h0
      f1 := finite_of_all _ _ _ _ h1
      f2 := finite_of_all _ _ _ _ h2
      linW := finite_of_all _ _ _ _ h5
      linb := finite_of_all _ _ _ _ h6
      f1W1 := finite_of_all _ _ _ _ h7
      f1W2 := finite_of_all _ _ _ _ h8
      f2W1 := finite_of_all _ _ _ _ h9
      f2W2 := finite_of_all _ _ _ _ h10
      c1rW := finite_of_all _ _ _ _ h11
      c1rb := finite_of_all _ _ _ _ h12
      c1oW := finite_of_all _ _ _ _ h13
      c2rW := finite_of_all _ _ _ _ h14
      c2rb := finite_of_all _ _ _ _ h15
      c2oW := finite_of_all _ _ _ _ h16
      l1W := finite_of_all _ _ _ _ h17
      l1b := finite_of_all _ _ _ _ h18
      l2W := finite_of_all _ _ _ _ h19
      l2b := finite_of_all _ _ _ _ h20
      catW := finite_of_all _ _ _ _ h21
      catb := finite_of_all _ _ _ _ h22
      nw := finite_of_all _ _ _ _ h23
      nb := finite_of_all _ _ _ _ h24
      ms := finite_of_all _ _ _ _ h25
      linsW := finite_of_all _ _ _ _ h26
      linsb := finite_of_all _ _ _ _ h27
      fW := finite_of_all _ _ _ _ h28
      fb := finite_of_all _ _ _ _ h29
      src := fun e => by
        have hr := inRange_of_all 50000 (by decide) _ _ _ _ hs e
        rw [row0_apply] at hr
        exact hr
      batch := fun n => inRange_of_all 512 (by decide) _ _ _ _ hb n }

end Cert.KernelIdeal.Legs

end
-- ==== Proof.FiniteChain.lean ====
/-
  Real inputs give a real pre-normalisation array: a finite sum of products of reals is real, the gate of a real
  is real, and a sum over the edges arriving at a node is a finite sum; the index vectors may be anything.
-/
import proofs.«416041_j69114613727529_2_alg».proof.Proof.Spec

noncomputable section

open scoped BigOperators

namespace Cert.Spec

open Idealize.ShloMosaic Idealize.ShloMosaic.ValueIdx Idealize.ShloMosaic.RowDims

namespace FiniteChain

/-! ### Real numbers among the extended reals

The reals form a subring of the extended reals closed under finite sums, and the gate `y · σ(y)` maps it to
itself because `1 + e^{-y}` is a positive real. -/

/-- An extended real that is (the coercion of) a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A term kept or replaced by zero. -/
theorem isReal_ite {p : Prop} [Decidable p] {x : EReal} (hx : IsReal x) : IsReal (if p then x else 0) := by
  by_cases hp : p
  · rw [if_pos hp]; exact hx
  · rw [if_neg hp]; exact isReal_zero

/-- A finite sum of reals is real, by induction on the index set. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

/-- The same over a whole finite type. -/
theorem isReal_sum_univ {ι : Type} [Fintype ι] (f : ι → EReal) (h : ∀ i, IsReal (f i)) : IsReal (∑ i, f i) :=
  isReal_sum Finset.univ f (fun i _ => h i)

/-- The gate of a real `r` is the real `r · (1 + e^{-r})⁻¹`. -/
theorem isReal_swish {y : EReal} (hy : IsReal y) : IsReal (swish y) := by
  obtain ⟨r, rfl⟩ := hy
  unfold swish
  rw [Ideal.logistic_coe]
  exact ⟨r * (1 + Real.exp (-r))⁻¹, (EReal.coe_mul _ _).symm⟩

/-! ### The layers, entry by entry -/

theorem isReal_dotW {I O : Nat} {W : M2 O I} {a : Fin I → EReal} (hW : Finite W) (ha : ∀ k, IsReal (a k))
    (j : Fin O) : IsReal (dotW W a j) := by
  unfold dotW
  exact isReal_sum_univ _ (fun k => (ha k).mul (hW (ix2 j k)))

theorem isReal_lin {I O : Nat} {W : M2 O I} {b : V1 O} {a : Fin I → EReal} (hW : Finite W) (hb : Finite b)
    (ha : ∀ k, IsReal (a k)) (j : Fin O) : IsReal (lin W b a j) := by
  unfold lin
  exact (isReal_dotW hW ha j).add (hb (ix1 j))

/-- An array of rows all of whose entries are real. -/
def RowsReal {n : Nat} (h : Rows n) : Prop := ∀ i j, IsReal (h i j)

theorem rowsReal_x0 {x : M2 nN 128} {W : M2 128 128} {b : V1 128} (hx : Finite x) (hW : Finite W)
    (hb : Finite b) : RowsReal (x0 x W b) := by
  intro n j
  show IsReal (swish (lin W b (fun k => x (ix2 n k)) j))
  exact isReal_swish (isReal_lin hW hb (fun k => hx (ix2 n k)) j)

theorem rowsReal_proj {I : Nat} {f : M2 nE I} {W1 : M2 64 I} {W2 : M2 128 64} (hf : Finite f) (hW1 : Finite W1)
    (hW2 : Finite W2) : RowsReal (proj f W1 W2) := by
  intro e j
  show IsReal (dotW W2 (fun q => dotW W1 (fun r => f (ix2 e r)) q) j)
  exact isReal_dotW hW2 (fun q => isReal_dotW hW1 (fun r => hf (ix2 e r)) q) j

/-- A gathered row is a row of the table, whatever the index word. -/
theorem rowsReal_gatherRows {h : Rows nN} (hh : RowsReal h) (src : Fin nE → BitVec 32) :
    RowsReal (gatherRows h src) := by
  intro e j
  show IsReal (h (nodeOf (src e)) j)
  exact hh _ j

theorem rowsReal_msg {p hs : Rows nE} (hp : RowsReal p) (hhs : RowsReal hs) : RowsReal (msg p hs) := by
  intro e j
  show IsReal (p e j * hs e j)
  exact (hp e j).mul (hhs e j)

/-- The aggregate at a node is a sum over all edges of a message or zero, whatever the destinations. -/
theorem rowsReal_agg {u : Rows nE} (hu : RowsReal u) (dst : Fin nE → BitVec 32) : RowsReal (agg u dst) := by
  intro n j
  show IsReal (∑ e : Fin nE, if (dst e).toInt = (n.val : Int) then u e j else 0)
  exact isReal_sum_univ _ (fun e => isReal_ite (hu e j))

theorem rowsReal_conv {Wrel : M2 128 128} {brel : V1 128} {Wroot Wl : M2 128 128} {bl : V1 128} {a h : Rows nN}
    (hWrel : Finite Wrel) (hbrel : Finite brel) (hWroot : Finite Wroot) (hWl : Finite Wl) (hbl : Finite bl)
    (ha : RowsReal a) (hh : RowsReal h) : RowsReal (conv Wrel brel Wroot Wl bl a h) := by
  intro n j
  show IsReal (swish (lin Wl bl (fun k => lin Wrel brel (a n) k + dotW Wroot (h n) k) j))
  exact isReal_swish (isReal_lin hWl hbl
    (fun k => (isReal_lin hWrel hbrel (ha n) k).add (isReal_dotW hWroot (hh n) k)) j)

theorem rowsReal_join {Wc : M2 128 256} {bc : V1 128} {h1 h2 h : Rows nN} (hWc : Finite Wc) (hbc : Finite bc)
    (hh1 : RowsReal h1) (hh2 : RowsReal h2) (hh : RowsReal h) : RowsReal (join Wc bc h1 h2 h) := by
  intro n j
  show IsReal (((∑ k : Fin 128, h1 n k * Wc (ix2 j (Fin.castAdd 128 k)))
      + (∑ k : Fin 128, h2 n k * Wc (ix2 j (Fin.natAdd 128 k)))) + bc (ix1 j) + h n j)
  exact ((((isReal_sum_univ _ (fun k => (hh1 n k).mul (hWc _))).add
    (isReal_sum_univ _ (fun k => (hh2 n k).mul (hWc _)))).add (hbc (ix1 j))).add (hh n j))

theorem rowsReal_res {Ws : T3 3 128 128} {bs : M2 3 128} (hWs : Finite Ws) (hbs : Finite bs) (i : Fin 3)
    {h : Rows nN} (hh : RowsReal h) : RowsReal (res Ws bs i h) := by
  intro n j
  show IsReal (swish ((∑ k : Fin 128, h n k * Ws (ix3 i j k)) + bs (ix2 i j)) + h n j)
  exact (isReal_swish ((isReal_sum_univ _ (fun k => (hh n k).mul (hWs _))).add (hbs (ix2 i j)))).add (hh n j)

end FiniteChain

open FiniteChain in
/-- Every entry of the pre-normalisation array is a real number when every float input's entries are. -/
theorem hpre_finite (x : M2 nN 128) (f1 : M2 nE 54) (f2 : M2 nE 18) (src dst : Fin nE → BitVec 32)
    (linW : M2 128 128) (linb : V1 128) (f1W1 : M2 64 54) (f1W2 : M2 128 64) (f2W1 : M2 64 18) (f2W2 : M2 128 64)
    (c1rW : M2 128 128) (c1rb : V1 128) (c1oW : M2 128 128) (c2rW : M2 128 128) (c2rb : V1 128) (c2oW : M2 128 128)
    (l1W : M2 128 128) (l1b : V1 128) (l2W : M2 128 128) (l2b : V1 128) (catW : M2 128 256) (catb : V1 128)
    (linsW : T3 3 128 128) (linsb : M2 3 128)
    (h_x : Finite x) (h_f1 : Finite f1) (h_f2 : Finite f2) (h_linW : Finite linW) (h_linb : Finite linb) (h_f1W1 : Finite f1W1) (h_f1W2 : Finite f1W2) (h_f2W1 : Finite f2W1) (h_f2W2 : Finite f2W2) (h_c1rW : Finite c1rW) (h_c1rb : Finite c1rb) (h_c1oW : Finite c1oW) (h_c2rW : Finite c2rW) (h_c2rb : Finite c2rb) (h_c2oW : Finite c2oW) (h_l1W : Finite l1W) (h_l1b : Finite l1b) (h_l2W : Finite l2W) (h_l2b : Finite l2b) (h_catW : Finite catW) (h_catb : Finite catb) (h_linsW : Finite linsW) (h_linsb : Finite linsb) :
    ∀ n, Finite (hpre x f1 f2 src dst linW linb f1W1 f1W2 f2W1 f2W2 c1rW c1rb c1oW c2rW c2rb c2oW l1W l1b l2W l2b catW catb linsW linsb n) := by
  -- the embedded rows, their gather along the edges, the two aggregates, the two branches
  have h0 : RowsReal (x0 x linW linb) := rowsReal_x0 h_x h_linW h_linb
  have hs : RowsReal (gatherRows (x0 x linW linb) src) := rowsReal_gatherRows h0 src
  have a1 : RowsReal (agg (msg (proj f1 f1W1 f1W2) (gatherRows (x0 x linW linb) src)) dst) :=
    rowsReal_agg (rowsReal_msg (rowsReal_proj h_f1 h_f1W1 h_f1W2) hs) dst
  have a2 : RowsReal (agg (msg (proj f2 f2W1 f2W2) (gatherRows (x0 x linW linb) src)) dst) :=
    rowsReal_agg (rowsReal_msg (rowsReal_proj h_f2 h_f2W1 h_f2W2) hs) dst
  have h1 := rowsReal_conv h_c1rW h_c1rb h_c1oW h_l1W h_l1b a1 h0
  have h2 := rowsReal_conv h_c2rW h_c2rb h_c2oW h_l2W h_l2b a2 h0
  -- the join and the three residual layers
  have hj := rowsReal_join h_catW h_catb h1 h2 h0
  have hr := rowsReal_res h_linsW h_linsb 2 (rowsReal_res h_linsW h_linsb 1 (rowsReal_res h_linsW h_linsb 0 hj))
  intro n j
  exact hr n j

end Cert.Spec

end
-- ==== Proof.Normalise.lean ====
/-
  The two forms of the graph normalisation agree on a real array. For a graph of `c ≥ 1` nodes with mean `μ`,
  `(1/c) Σ (h − s μ)² = (1/c) Σ h² − 2 s μ · μ + s² μ² = E[h²] − μ² (2 s − s²)`; for a graph with no node both sides are
  zero. The variance is a mean of squares, so `Var + ε > 0`, and there `a · (Var + ε)^(-1/2) = a / √(Var + ε)`.
-/
import proofs.«416041_j69114613727529_2_alg».proof.Proof.Spec

noncomputable section

open scoped BigOperators

namespace Cert.Spec

open Idealize.ShloMosaic Idealize.ShloMosaic.ValueIdx Idealize.ShloMosaic.RowDims

namespace Normalise

/-! ### Real sums under the coercion -/

/-- The coercion of a finite real sum is the sum of the coercions. -/
theorem coe_finsum {ι : Type} (S : Finset ι) (f : ι → ℝ) :
    ((∑ n ∈ S, f n : ℝ) : EReal) = ∑ n ∈ S, ((f n : ℝ) : EReal) := by
  classical
  induction S using Finset.induction_on with
  | empty => simp
  | insert a S ha ih => rw [Finset.sum_insert ha, Finset.sum_insert ha, EReal.coe_add, ih]

/-- A sum that keeps the selected real entries and puts zero elsewhere is the real sum over the selected set. -/
theorem sum_ite_coe {ι : Type} [Fintype ι] (p : ι → Prop) [DecidablePred p] (f : ι → ℝ) :
    (∑ n : ι, if p n then ((f n : ℝ) : EReal) else 0) = ((∑ n ∈ Finset.univ.filter p, f n : ℝ) : EReal) := by
  rw [coe_finsum, Finset.sum_filter]

/-- Counting the selected indices by ones and zeros gives the size of the selected set. -/
theorem sum_ite_one {ι : Type} [Fintype ι] (p : ι → Prop) [DecidablePred p] :
    (∑ n : ι, if p n then (1 : EReal) else 0) = (((Finset.univ.filter p).card : ℝ) : EReal) := by
  have e := sum_ite_coe p (fun _ => (1 : ℝ))
  rw [Finset.sum_const, nsmul_eq_mul, mul_one] at e
  exact e

/-! ### The real identity -/

/-- The squares of a family shifted by a constant, summed. -/
theorem sum_sq_shift {ι : Type} (S : Finset ι) (f : ι → ℝ) (a : ℝ) :
    ∑ n ∈ S, (f n - a) * (f n - a) = (∑ n ∈ S, f n * f n) - 2 * a * (∑ n ∈ S, f n) + (S.card : ℝ) * (a * a) := by
  have e : ∀ n, (f n - a) * (f n - a) = f n * f n - 2 * a * f n + a * a := fun n => by ring
  rw [Finset.sum_congr rfl (fun n _ => e n), Finset.sum_add_distrib, Finset.sum_sub_distrib, ← Finset.mul_sum,
    Finset.sum_const, nsmul_eq_mul]

/-- With `c = max |S| 1` and `μ = (Σ_S f) / c`: `E[f²] − μ² (2 s − s²) = (1/c) Σ_S (f − μ s)²`. -/
theorem var_identity {ι : Type} (S : Finset ι) (f : ι → ℝ) (s : ℝ) :
    (∑ n ∈ S, f n * f n) * (1 / max (S.card : ℝ) 1)
      - ((∑ n ∈ S, f n) * (1 / max (S.card : ℝ) 1) * ((∑ n ∈ S, f n) * (1 / max (S.card : ℝ) 1))) * (2 * s - s * s)
    = (∑ n ∈ S, (f n - (∑ n ∈ S, f n) * (1 / max (S.card : ℝ) 1) * s)
          * (f n - (∑ n ∈ S, f n) * (1 / max (S.card : ℝ) 1) * s)) * (1 / max (S.card : ℝ) 1) := by
  rcases S.eq_empty_or_nonempty with rfl | hS
  · simp
  · have hc : (1 : ℝ) ≤ (S.card : ℝ) := by exact_mod_cast hS.card_pos
    have hc0 : (S.card : ℝ) ≠ 0 := by linarith
    rw [max_eq_left hc, sum_sq_shift]
    field_simp
    ring

/-! ### The per-graph count, mean and variance of a real array -/

/-- The nodes of a graph. -/
def nodes (batch : Fin nN → BitVec 32) (g : Fin nG) : Finset (Fin nN) :=
  Finset.univ.filter (fun n => (batch n).toInt = (g.val : Int))

/-- The node count of a graph as a real number, at least one. -/
def cntR (batch : Fin nN → BitVec 32) (g : Fin nG) : ℝ := max ((nodes batch g).card : ℝ) 1

theorem cntR_pos (batch : Fin nN → BitVec 32) (g : Fin nG) : 0 < cntR batch g :=
  lt_of_lt_of_le one_pos (le_max_right _ _)

/-- The count is the coercion of the real count. -/
theorem cnt_eq (batch : Fin nN → BitVec 32) (g : Fin nG) : cnt batch g = ((cntR batch g : ℝ) : EReal) := by
  unfold cnt cntR nodes
  rw [sum_ite_one, ← EReal.coe_one, EReal.coe_strictMono.monotone.map_max]

/-- The per-graph average of a real array is the real average. -/
theorem segMean_coe (batch : Fin nN → BitVec 32) (v : Fin nN → Fin 128 → ℝ) (g : Fin nG) (j : Fin 128) :
    segMean batch (fun n j => ((v n j : ℝ) : EReal)) g j
      = (((∑ n ∈ nodes batch g, v n j) * (1 / cntR batch g) : ℝ) : EReal) := by
  unfold segMean
  rw [cnt_eq, Ideal.div_coe (cntR_pos batch g).ne', sum_ite_coe, ← EReal.coe_mul]
  rfl

/-- A node of graph `g` reads its mean at `g`. -/
theorem graphOf_of_mem {batch : Fin nN → BitVec 32} {g : Fin nG} {n : Fin nN}
    (hn : (batch n).toInt = (g.val : Int)) : graphOf (batch n) = g := by
  apply Fin.ext
  show min (batch n).toInt.toNat (512 - 1) = g.val
  have hg : g.val < 512 := g.isLt
  rw [hn, Int.toNat_natCast]
  omega

/-- The real mean of graph `g` in column `j`. -/
def meanR (batch : Fin nN → BitVec 32) (hr : Fin nN → Fin 128 → ℝ) (g : Fin nG) (j : Fin 128) : ℝ :=
  (∑ m ∈ nodes batch g, hr m j) * (1 / cntR batch g)

/-- The centred entry of a real array with a real scale is real. -/
theorem centred_coe (batch : Fin nN → BitVec 32) (sr : (⟨1, ![128]⟩ : Shape).Idx → ℝ) (hr : Fin nN → Fin 128 → ℝ)
    (n : Fin nN) (j : Fin 128) :
    centred batch (fun i => ((sr i : ℝ) : EReal)) (fun n j => ((hr n j : ℝ) : EReal)) n j
      = ((hr n j - meanR batch hr (graphOf (batch n)) j * sr (ix1 j) : ℝ) : EReal) := by
  unfold centred meanR
  rw [segMean_coe, ← EReal.coe_mul, ← EReal.coe_sub]

/-- The average of the centred squares, as a real number. -/
theorem varCentred_coe (batch : Fin nN → BitVec 32) (sr : (⟨1, ![128]⟩ : Shape).Idx → ℝ) (hr : Fin nN → Fin 128 → ℝ)
    (g : Fin nG) (j : Fin 128) :
    varCentred batch (fun i => ((sr i : ℝ) : EReal)) (fun n j => ((hr n j : ℝ) : EReal)) g j
      = (((∑ n ∈ nodes batch g, (hr n j - meanR batch hr g j * sr (ix1 j)) * (hr n j - meanR batch hr g j * sr (ix1 j)))
          * (1 / cntR batch g) : ℝ) : EReal) := by
  unfold varCentred
  have e : (fun n j => centred batch (fun i => ((sr i : ℝ) : EReal)) (fun n j => ((hr n j : ℝ) : EReal)) n j
        * centred batch (fun i => ((sr i : ℝ) : EReal)) (fun n j => ((hr n j : ℝ) : EReal)) n j)
      = fun n j => (((hr n j - meanR batch hr (graphOf (batch n)) j * sr (ix1 j))
          * (hr n j - meanR batch hr (graphOf (batch n)) j * sr (ix1 j)) : ℝ) : EReal) := by
    funext n j
    rw [centred_coe, ← EReal.coe_mul]
  rw [e, segMean_coe]
  refine congrArg (fun x : ℝ => ((x * (1 / cntR batch g) : ℝ) : EReal)) (Finset.sum_congr rfl (fun n hn => ?_))
  rw [graphOf_of_mem (Finset.mem_filter.mp hn).2]

/-- The variance recovered from the second moment, as a real number. -/
theorem varMoment_coe (batch : Fin nN → BitVec 32) (sr : (⟨1, ![128]⟩ : Shape).Idx → ℝ) (hr : Fin nN → Fin 128 → ℝ)
    (g : Fin nG) (j : Fin 128) :
    varMoment batch (fun i => ((sr i : ℝ) : EReal)) (fun n j => ((hr n j : ℝ) : EReal)) g j
      = (((∑ n ∈ nodes batch g, hr n j * hr n j) * (1 / cntR batch g)
          - (meanR batch hr g j * meanR batch hr g j) * (2 * sr (ix1 j) - sr (ix1 j) * sr (ix1 j)) : ℝ) : EReal) := by
  unfold varMoment meanR
  have e : (fun n j => ((hr n j : ℝ) : EReal) * ((hr n j : ℝ) : EReal)) = fun n j => ((hr n j * hr n j : ℝ) : EReal) := by
    funext n j
    rw [EReal.coe_mul]
  have two : (2 : EReal) = ((2 : ℝ) : EReal) := rfl
  rw [e, segMean_coe, segMean_coe, two, ← EReal.coe_mul, ← EReal.coe_mul, ← EReal.coe_mul, ← EReal.coe_sub,
    ← EReal.coe_mul, ← EReal.coe_sub]

/-! ### The two forms of the variance agree -/

/-- A real array in coordinates. -/
theorem exists_real_rows (h : Rows nN) (hh : ∀ n, Finite (h n)) :
    ∃ hr : Fin nN → Fin 128 → ℝ, h = fun n j => ((hr n j : ℝ) : EReal) := by
  have hh' : ∀ n j, ∃ r : ℝ, h n j = (r : EReal) := fun n j => hh n j
  choose hr hhr using hh'
  exact ⟨hr, funext fun n => funext fun j => hhr n j⟩

/-- A real vector in coordinates. -/
theorem exists_real_vec (ms : V1 128) (hms : Finite ms) :
    ∃ sr : (⟨1, ![128]⟩ : Shape).Idx → ℝ, ms = fun i => ((sr i : ℝ) : EReal) := by
  have h' : ∀ i, ∃ r : ℝ, ms i = (r : EReal) := fun i => hms i
  choose sr hsr using h'
  exact ⟨sr, funext hsr⟩

end Normalise

open Normalise

/-- The variance recovered from the second moment is the average of the centred squares, at every graph. -/
theorem varMoment_eq_varCentred (batch : Fin nN → BitVec 32) (ms : V1 128) (h : Rows nN)
    (hh : ∀ n, Finite (h n)) (hms : Finite ms) (g : Fin nG) (j : Fin 128) :
    varMoment batch ms h g j = varCentred batch ms h g j := by
  obtain ⟨hr, rfl⟩ := exists_real_rows h hh
  obtain ⟨sr, rfl⟩ := exists_real_vec ms hms
  rw [varMoment_coe, varCentred_coe]
  unfold meanR cntR
  exact congrArg Real.toEReal (var_identity (nodes batch g) (fun n => hr n j) (sr (ix1 j)))

/-- The average of the centred squares is a non-negative real. -/
theorem varCentred_nonneg (batch : Fin nN → BitVec 32) (ms : V1 128) (h : Rows nN)
    (hh : ∀ n, Finite (h n)) (hms : Finite ms) (g : Fin nG) (j : Fin 128) :
    ∃ r : ℝ, 0 ≤ r ∧ varCentred batch ms h g j = (r : EReal) := by
  obtain ⟨hr, rfl⟩ := exists_real_rows h hh
  obtain ⟨sr, rfl⟩ := exists_real_vec ms hms
  exact ⟨_, mul_nonneg (Finset.sum_nonneg fun n _ => mul_self_nonneg _) (one_div_pos.mpr (cntR_pos batch g)).le,
    varCentred_coe batch sr hr g j⟩

namespace Normalise

/-! ### The reciprocal square root against the quotient by the square root -/

/-- At a positive real `r`, `a · r^(-1/2) = a / √r` for every extended real `a`. -/
theorem mul_rsqrt_eq_div_sqrt (a : EReal) {r : ℝ} (hr : 0 < r) :
    a * Ideal.rsqrt (r : EReal) = Ideal.div a (Ideal.sqrt (r : EReal)) := by
  rw [Ideal.rsqrt_coe, Ideal.sqrt_coe, if_neg (not_lt.mpr hr.le), if_neg hr.ne', if_neg (not_lt.mpr hr.le),
    Ideal.div_coe (Real.sqrt_pos.mpr hr).ne', one_div]

/-- The regulariser's word denotes a positive real. -/
theorem epsW_pos : ∃ e : ℝ, 0 < e ∧ epsW = (e : EReal) := by
  refine ⟨(10995116 : ℝ) * (2 : ℝ) ^ (-40 : Int), by positivity, ?_⟩
  simp [epsW, Ideal.ofBits, Ideal.ieee, -EReal.coe_mul]

end Normalise

/-! ### The two outputs agree -/

/-- The two normalised outputs agree on a real array with a real mean scale. -/
theorem outMoment_eq_outCentred (batch : Fin nN → BitVec 32) (nw nb ms : V1 128) (fW : M2 128 128) (fb : V1 128)
    (h : Rows nN) (hh : ∀ n, Finite (h n)) (hms : Finite ms) :
    outMoment batch nw nb ms fW fb h = outCentred batch nw nb ms fW fb h := by
  funext n j
  unfold outMoment outCentred
  obtain ⟨e, he, hE⟩ := epsW_pos
  have key : ∀ k, (nw (ix1 k) * centred batch ms h n k) * Ideal.rsqrt (varMoment batch ms h (graphOf (batch n)) k + epsW)
      = Ideal.div (nw (ix1 k) * centred batch ms h n k)
          (Ideal.sqrt (varCentred batch ms h (graphOf (batch n)) k + epsW)) := by
    intro k
    obtain ⟨r, hr0, hr⟩ := varCentred_nonneg batch ms h hh hms (graphOf (batch n)) k
    rw [varMoment_eq_varCentred batch ms h hh hms, hr, hE, ← EReal.coe_add]
    exact mul_rsqrt_eq_div_sqrt _ (by linarith)
  simp only [key]

end Cert.Spec

end
-- ==== Proof.Bridge.lean ====
/-
  The two results are one array. The reference's result is the centred form of the normalised output over the common
  pre-normalisation array, the kernel's the second-moment form over the same array; on the stated domain that array
  is real, and there the two forms agree.
-/
import proofs.«416041_j69114613727529_2_alg».proof.Proof.KValue
import proofs.«416041_j69114613727529_2_alg».proof.Proof.RValue
import proofs.«416041_j69114613727529_2_alg».proof.Proof.PreDecode
import proofs.«416041_j69114613727529_2_alg».proof.Proof.FiniteChain
import proofs.«416041_j69114613727529_2_alg».proof.Proof.Normalise

noncomputable section

namespace Cert.Bridge

open Idealize.ShloMosaic Idealize.ShloMosaic.TcCoe Idealize.ShloMosaic.ValueIdx Idealize.SL.Sem
open Cert.Spec Cert.KernelIdeal.Legs Cert.ReferenceIdeal.Legs

/-- An array of 128-wide rows is its coordinate view. -/
theorem eq_of_rows {n : Nat} {a b : M2 n 128} (h : rows a = rows b) : a = b := by
  funext i
  rw [eq_ix2 i]
  exact congrFun (congrFun h (i 0)) (i 1)

/-- From launch memories that agree on the arguments, under the precondition, the reference's result array is the
    array the kernel's last region leaves. -/
theorem result_eq [Cert.Pre_finite_inputs.Facts]
    (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (hag : rX m' c = aX m c
      ∧ rF1 m' c = aF1 m c
      ∧ rF2 m' c = aF2 m c
      ∧ rEdges m' c = aEdges m c
      ∧ rBatch m' c = aBatch m c
      ∧ rLinW m' c = aLinW m c
      ∧ rLinB m' c = aLinB m c
      ∧ rF1W1 m' c = aF1W1 m c
      ∧ rF1W2 m' c = aF1W2 m c
      ∧ rF2W1 m' c = aF2W1 m c
      ∧ rF2W2 m' c = aF2W2 m c
      ∧ rC1rW m' c = aC1rW m c
      ∧ rC1rB m' c = aC1rB m c
      ∧ rC1oW m' c = aC1oW m c
      ∧ rC2rW m' c = aC2rW m c
      ∧ rC2rB m' c = aC2rB m c
      ∧ rC2oW m' c = aC2oW m c
      ∧ rL1W m' c = aL1W m c
      ∧ rL1B m' c = aL1B m c
      ∧ rL2W m' c = aL2W m c
      ∧ rL2B m' c = aL2B m c
      ∧ rCatW m' c = aCatW m c
      ∧ rCatB m' c = aCatB m c
      ∧ rNw m' c = aNw m c
      ∧ rNb m' c = aNb m c
      ∧ rMs m' c = aMs m c
      ∧ rLinsW m' c = aLinsW m c
      ∧ rLinsB m' c = aLinsB m c
      ∧ rFW m' c = aFW m c
      ∧ rFB m' c = aFB m c) :
    tOut m' c = bOut m g c := by
  have D := domain_of_pre m c hpre
  obtain ⟨e0, e1, e2, e3, e4, e5, e6, e7, e8, e9, e10, e11, e12, e13, e14, e15, e16, e17, e18, e19, e20, e21, e22, e23, e24, e25, e26, e27, e28, e29⟩ := hag
  have hsrcR : ∀ e, InRange nN (srcOf (rEdges m' c) e) := by rw [e3]; exact D.src
  have hbR : ∀ n, InRange nG (words (rBatch m' c) n) := by rw [e4]; exact D.batch
  have hR := ref_value m' c hsrcR hbR
  have hK := kernel_value m g c D.src D.batch
  rw [e0, e1, e2, e3, e4, e5, e6, e7, e8, e9, e10, e11, e12, e13, e14, e15, e16, e17, e18, e19, e20, e21, e22, e23, e24, e25, e26, e27, e28, e29] at hR
  have hfin := hpre_finite (aX m c) (aF1 m c) (aF2 m c) (srcOf (aEdges m c)) (dstOf (aEdges m c))
    (aLinW m c) (aLinB m c) (aF1W1 m c) (aF1W2 m c) (aF2W1 m c) (aF2W2 m c)
    (aC1rW m c) (aC1rB m c) (aC1oW m c) (aC2rW m c) (aC2rB m c) (aC2oW m c)
    (aL1W m c) (aL1B m c) (aL2W m c) (aL2B m c) (aCatW m c) (aCatB m c) (aLinsW m c) (aLinsB m c)
    D.x D.f1 D.f2 D.linW D.linb D.f1W1 D.f1W2 D.f2W1 D.f2W2 D.c1rW D.c1rb D.c1oW D.c2rW D.c2rb D.c2oW
    D.l1W D.l1b D.l2W D.l2b D.catW D.catb D.linsW D.linsb
  have hN := outMoment_eq_outCentred (words (aBatch m c)) (aNw m c) (aNb m c) (aMs m c) (aFW m c) (aFB m c) _ hfin D.ms
  exact eq_of_rows (hR.trans (hN.symm.trans hK.symm))

end Cert.Bridge

end
-- ==== Proof.lean ====
/-
  The certificate's claims. A graph network layer — a dense embedding, two edge-conditioned convolution branches,
  their join, three gated residual layers, a graph normalisation and a last dense layer — computed by four tiled
  kernels with gathers and scatter-adds between them, against the same layer written in plain array operations.
  The two differ in form only (Proof/Spec.lean): weights transposed once beforehand, one 256-wide scatter-add in
  place of two 128-wide ones, the join over a concatenation as the sum of its halves, and the variance recovered
  from the second moment, `E[h²] − μ² (2 s − s²)`, in place of the average of the centred squares, scaled by an
  inverse root in place of a division by a root. The claims hold where every float input is a real, every source
  index names a node and every batch index names a graph: outside the index ranges the reference reads a clamped
  row where the kernel's gather fills with a value that is no number.
  The three frames are the generated ones; the idealization applied no rewrite, so there is nothing to preserve.
-/
import proofs.«416041_j69114613727529_2_alg».proof.Defs
import proofs.«416041_j69114613727529_2_alg».proof.Proof.Gen.Kernel
import proofs.«416041_j69114613727529_2_alg».proof.Proof.Gen.Kernel.Skeleton
import proofs.«416041_j69114613727529_2_alg».proof.Proof.Gen.Kernel.Launch
import proofs.«416041_j69114613727529_2_alg».proof.Proof.Gen.Kernel.Points
import proofs.«416041_j69114613727529_2_alg».proof.Proof.Gen.Kernel.Frame
import proofs.«416041_j69114613727529_2_alg».proof.Proof.Gen.KernelIdeal
import proofs.«416041_j69114613727529_2_alg».proof.Proof.Gen.KernelIdeal.Skeleton
import proofs.«416041_j69114613727529_2_alg».proof.Proof.Gen.KernelIdeal.Launch
import proofs.«416041_j69114613727529_2_alg».proof.Proof.Gen.KernelIdeal.Points
import proofs.«416041_j69114613727529_2_alg».proof.Proof.Gen.KernelIdeal.Frame
import proofs.«416041_j69114613727529_2_alg».proof.Proof.Gen.ReferenceIdeal
import proofs.«416041_j69114613727529_2_alg».proof.Proof.Gen.Pre_finite_inputs
import proofs.«416041_j69114613727529_2_alg».proof.Proof.Gen.ReferenceIdeal.Run
import proofs.«416041_j69114613727529_2_alg».proof.Proof.KRun
import proofs.«416041_j69114613727529_2_alg».proof.Proof.Bridge
import Idealize.ShloMosaic.Adequacy
import Idealize.ShloMosaic.Init

noncomputable section

namespace Cert.Proof

open Idealize.ShloMosaic Idealize.SL.Sem Cert.Kernel

/-- Both programs run, and from memories that agree on the arguments end at one result array. -/
theorem algebraic [Cert.KernelIdeal.Facts] [Cert.ReferenceIdeal.Facts] [Cert.Pre_finite_inputs.Facts] :
    Cert.algebraic_KernelIdeal_ReferenceIdeal := by
  intro m g m' g' hpre hagree
  refine ⟨fun c => Cert.KernelIdeal.Gen.W10 (F := Ideal) m g c (Proc.devRef .tc Cert.KernelIdeal.main_v54),
    Cert.KernelIdeal.Gen.run_result (F := Ideal) m g, ?_⟩
  refine (θ_run Cert.ReferenceIdeal.defs _ _).mono (fun _ h c => ⟨(h c).1.trans ?_, (h c).2⟩)
    (Cert.ReferenceIdeal.Value.run (F := Ideal) m' g')
  exact (Cert.ReferenceIdeal.Value.val4_main_v195 (F := Ideal) _).symm.trans (Cert.Bridge.result_eq m g m' c hpre (hagree c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
